-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v74)) (v3 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_v79) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S1600000x3 : Shape := ⟨2, ![1600000, 3]⟩
abbrev S128x144 : Shape := ⟨2, ![128, 144]⟩
abbrev S3x144 : Shape := ⟨2, ![3, 144]⟩
abbrev S16x12 : Shape := ⟨2, ![16, 12]⟩
abbrev S128x128 : Shape := ⟨2, ![128, 128]⟩
abbrev S3x128 : Shape := ⟨2, ![3, 128]⟩
abbrev S2x1600000 : Shape := ⟨2, ![2, 1600000]⟩
abbrev S100000 : Shape := ⟨1, ![100000]⟩
abbrev S400000 : Shape := ⟨1, ![400000]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S1600000x3 : S_.BroadcastsInDim S1600000x3 (![] : Fin 0 → Fin S1600000x3.rank)
  reducesTo_S1600000x3_S_d0_1 : S1600000x3.ReducesTo [0, 1] S_
  bcast_S_S128x144 : S_.BroadcastsInDim S128x144 (![] : Fin 0 → Fin S128x144.rank)
  reducesTo_S128x144_S_d0_1 : S128x144.ReducesTo [0, 1] S_
  bcast_S_S3x144 : S_.BroadcastsInDim S3x144 (![] : Fin 0 → Fin S3x144.rank)
  reducesTo_S3x144_S_d0_1 : S3x144.ReducesTo [0, 1] S_
  bcast_S_S16x12 : S_.BroadcastsInDim S16x12 (![] : Fin 0 → Fin S16x12.rank)
  reducesTo_S16x12_S_d0_1 : S16x12.ReducesTo [0, 1] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg7 : FVec F S128x128 .f32) (main_arg8 : FVec F S3x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  main_v43

def fn_part1 {F : FTy → Type} [FloatOps F] (main_arg4 : FVec F S3x144 .f32) (main_arg5 : FVec F S128x144 .f32) (main_arg6 : FVec F S16x12 .f32) (main_arg7 : FVec F S128x128 .f32) (main_arg8 : FVec F S3x128 .f32) (main_v13 : IVec S_ 1) (main_v16 : IVec S128x144 1) : IVec S_ 1 :=
  let main_c_5 : IVec S_ 1 := constantI S_ 1 1#1
  let main_v17 : IVec S_ 1 := (fun x v => Host.reduce IntOp.andi x v reducesTo_S128x144_S_d0_1 h_S_) main_v16 main_c_5
  let main_v18 : IVec S_ 1 := andi main_v13 main_v17
  let main_v19 : FVec F S3x144 .f32 := Host.absf main_arg4
  let main_cst_6 : FVec F S_ .f32 := constant S_ .f32 0x7F800000#32
  let main_v20 : FVec F S3x144 .f32 := broadcastInDim S3x144 ![] bcast_S_S3x144 main_cst_6
  let main_v21 : IVec S3x144 1 := cmpf .olt main_v19 main_v20
  let main_c_7 : IVec S_ 1 := constantI S_ 1 1#1
  let main_v22 : IVec S_ 1 := (fun x v => Host.reduce IntOp.andi x v reducesTo_S3x144_S_d0_1 h_S_) main_v21 main_c_7
  let main_v23 : IVec S_ 1 := andi main_v18 main_v22
  let main_v24 : FVec F S128x144 .f32 := Host.absf main_arg5
  let main_cst_8 : FVec F S_ .f32 := constant S_ .f32 0x7F800000#32
  let main_v25 : FVec F S128x144 .f32 := broadcastInDim S128x144 ![] bcast_S_S128x144 main_cst_8
  let main_v26 : IVec S128x144 1 := cmpf .olt main_v24 main_v25
  let main_c_9 : IVec S_ 1 := constantI S_ 1 1#1
  let main_v27 : IVec S_ 1 := (fun x v => Host.reduce IntOp.andi x v reducesTo_S128x144_S_d0_1 h_S_) main_v26 main_c_9
  let main_v28 : IVec S_ 1 := andi main_v23 main_v27
  let main_v29 : FVec F S16x12 .f32 := Host.absf main_arg6
  let main_cst_10 : FVec F S_ .f32 := constant S_ .f32 0x7F800000#32
  let main_v30 : FVec F S16x12 .f32 := broadcastInDim S16x12 ![] bcast_S_S16x12 main_cst_10
  let main_v31 : IVec S16x12 1 := cmpf .olt main_v29 main_v30
  let main_c_11 : IVec S_ 1 := constantI S_ 1 1#1
  let main_v32 : IVec S_ 1 := (fun x v => Host.reduce IntOp.andi x v reducesTo_S16x12_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S100000x3 .f32) (main_arg2 : FVec F S1600000x3 .f32) (main_arg3 : FVec F S128x144 .f32) (main_arg4 : FVec F S3x144 .f32) (main_arg5 : FVec F S128x144 .f32) (main_arg6 : FVec F S16x12 .f32) (main_arg7 : FVec F S128x128 .f32) (main_arg8 : FVec F S3x128 .f32) (main_arg9 : IVec S2x1600000 32) (main_arg10 : IVec S100000 32) (main_arg11 : IVec S400000 32) (main_arg12 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S1600000x3 .f32 := Host.absf main_arg2
  let main_cst_2 : FVec F S_ .f32 := constant S_ .f32 0x7F800000#32
  let main_v10 : FVec F S1600000x3 .f32 := broadcastInDim S1600000x3 ![] bcast_S_S1600000x3 main_cst_2
  let main_v11 : IVec S1600000x3 1 := cmpf .olt main_v9 main_v10
  let main_c_3 : IVec S_ 1 := constantI S_ 1 1#1
  let main_v12 : IVec S_ 1 := (fun x v => Host.reduce IntOp.andi x v reducesTo_S1600000x3_S_d0_1 h_S_) main_v11 main_c_3
  let main_v13 : IVec S_ 1 := andi main_v8 main_v12
  let main_v14 : FVec F S128x144 .f32 := Host.absf main_arg3
  let main_cst_4 : FVec F S_ .f32 := constant S_ .f32 0x7F800000#32
  let main_v15 : FVec F S128x144 .f32 := broadcastInDim S128x144 ![] bcast_S_S128x144 main_cst_4
  let main_v16 : IVec S128x144 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S100000x3 : Shape := ⟨2, ![100000, 3]⟩
abbrev S1600000x3 : Shape := ⟨2, ![1600000, 3]⟩
abbrev S128x144 : Shape := ⟨2, ![128, 144]⟩
abbrev S3x144 : Shape := ⟨2, ![3, 144]⟩
abbrev S16x12 : Shape := ⟨2, ![16, 12]⟩
abbrev S128x128 : Shape := ⟨2, ![128, 128]⟩
abbrev S3x128 : Shape := ⟨2, ![3, 128]⟩
abbrev S2x1600000 : Shape := ⟨2, ![2, 1600000]⟩
abbrev S100000 : Shape := ⟨1, ![100000]⟩
abbrev S400000 : Shape := ⟨1, ![400000]⟩
abbrev S2x3200000 : Shape := ⟨2, ![2, 3200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x144 : Shape := ⟨2, ![1600000, 144]⟩
abbrev S6400x128 : Shape := ⟨2, ![6400, 128]⟩
abbrev S6400x3 : Shape := ⟨2, ![6400, 3]⟩
abbrev S6400x144 : Shape := ⟨2, ![6400, 144]⟩
abbrev S100000x144 : Shape := ⟨2, ![100000, 144]⟩
abbrev S100000x12 : Shape := ⟨2, ![100000, 12]⟩
abbrev S4000x128 : Shape := ⟨2, ![4000, 128]⟩
abbrev S4000x144 : Shape := ⟨2, ![4000, 144]⟩
abbrev S4000x3 : Shape := ⟨2, ![4000, 3]⟩
abbrev S4000x12 : Shape := ⟨2, ![4000, 12]⟩
abbrev S4000x16 : Shape := ⟨2, ![4000, 16]⟩
abbrev S100000x4x3 : Shape := ⟨3, ![100000, 4, 3]⟩
abbrev S400000x3 : Shape := ⟨2, ![400000, 3]⟩
abbrev S200000x3 : Shape := ⟨2, ![200000, 3]⟩
abbrev S400000x1 : Shape := ⟨2, ![400000, 1]⟩
abbrev S200000 : Shape := ⟨1, ![200000]⟩
abbrev S200000x1 : Shape := ⟨2, ![200000, 1]⟩
abbrev S100000x4x128 : Shape := ⟨3, ![100000, 4, 128]⟩
abbrev S400000x128 : Shape := ⟨2, ![400000, 128]⟩
abbrev S10000x128 : Shape := ⟨2, ![10000, 128]⟩
abbrev S10000x3 : Shape := ⟨2, ![10000, 3]⟩
abbrev S200000x128 : Shape := ⟨2, ![200000, 128]⟩
abbrev S1x3200000 : Shape := ⟨2, ![1, 3200000]⟩
abbrev S3200000 : Shape := ⟨1, ![3200000]⟩
abbrev S3200000x1 : Shape := ⟨2, ![3200000, 1]⟩
abbrev S3200000x3 : Shape := ⟨2, ![3200000, 3]⟩
abbrev S100000x4 : Shape := ⟨2, ![100000, 4]⟩

abbrev nBuf : Space → Nat
  | .hbm => 109
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S1600000x3, .f32⟩
  | .hbm, ⟨3, _⟩ => ⟨S128x144, .f32⟩
  | .hbm, ⟨4, _⟩ => ⟨S3x144, .f32⟩
  | .hbm, ⟨5, _⟩ => ⟨S128x144, .f32⟩
  | .hbm, ⟨6, _⟩ => ⟨S16x12, .f32⟩
  | .hbm, ⟨7, _⟩ => ⟨S128x128, .f32⟩
  | .hbm, ⟨8, _⟩ => ⟨S3x128, .f32⟩
  | .hbm, ⟨9, _⟩ => ⟨S2x1600000, .i32⟩
  | .hbm, ⟨10, _⟩ => ⟨S100000, .i32⟩
  | .hbm, ⟨11, _⟩ => ⟨S400000, .i32⟩
  | .hbm, ⟨12, _⟩ => ⟨S2x3200000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x128, .bf16⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .bf16⟩
  | .hbm, ⟨27, _⟩ => ⟨S1600000x3, .bf16⟩
  | .hbm, ⟨28, _⟩ => ⟨S128x144, .bf16⟩
  | .hbm, ⟨29, _⟩ => ⟨S3x144, .bf16⟩
  | .hbm, ⟨30, _⟩ => ⟨S1600000x144, .f32⟩
  | .hbm, ⟨31, _⟩ => ⟨S_, .f32⟩
  | .hbm, ⟨32, _⟩ => ⟨S100000x144, .f32⟩
  | .hbm, ⟨33, _⟩ => ⟨S1600000x1, .i32⟩
  | .hbm, ⟨34, _⟩ => ⟨S100000x144, .f32⟩
  | .hbm, ⟨35, _⟩ => ⟨S128x144, .bf16⟩
  | .hbm, ⟨36, _⟩ => ⟨S16x12, .bf16⟩
  | .hbm, ⟨37, _⟩ => ⟨S100000x128, .f32⟩
  | .hbm, ⟨38, _⟩ => ⟨S100000x12, .f32⟩
  | .hbm, ⟨39, _⟩ => ⟨S100000x4x3, .f32⟩
  | .hbm, ⟨40, _⟩ => ⟨S400000x3, .f32⟩
  | .hbm, ⟨41, _⟩ => ⟨S_, .f32⟩
  | .hbm, ⟨42, _⟩ => ⟨S200000x3, .f32⟩
  | .hbm, ⟨43, _⟩ => ⟨S400000x1, .i32⟩
  | .hbm, ⟨44, _⟩ => ⟨S200000x3, .f32⟩
  | .hbm, ⟨45, _⟩ => ⟨S_, .f32⟩
  | .hbm, ⟨46, _⟩ => ⟨S400000, .f32⟩
  | .hbm, ⟨47, _⟩ => ⟨S_, .f32⟩
  | .hbm, ⟨48, _⟩ => ⟨S200000, .f32⟩
  | .hbm, ⟨49, _⟩ => ⟨S400000x1, .i32⟩
  | .hbm, ⟨50, _⟩ => ⟨S200000, .f32⟩
  | .hbm, ⟨51, _⟩ => ⟨S_, .f32⟩
  | .hbm, ⟨52, _⟩ => ⟨S200000, .f32⟩
  | .hbm, ⟨53, _⟩ => ⟨S200000, .f32⟩
  | .hbm, ⟨54, _⟩ => ⟨S200000x1, .f32⟩
  | .hbm, ⟨55, _⟩ => ⟨S200000x3, .f32⟩
  | .hbm, ⟨56, _⟩ => ⟨S200000x3, .f32⟩
  | .hbm, ⟨57, _⟩ => ⟨S100000x4x128, .f32⟩
  | .hbm, ⟨58, _⟩ => ⟨S400000x128, .f32⟩
  | .hbm, ⟨59, _⟩ => ⟨S100000x4x3, .f32⟩
  | .hbm, ⟨60, _⟩ => ⟨S400000x3, .f32⟩
  | .hbm, ⟨61, _⟩ => ⟨S_, .i32⟩
  | .hbm, ⟨62, _⟩ => ⟨S400000, .i32⟩
  | .hbm, ⟨63, _⟩ => ⟨S400000, .i1⟩
  | .hbm, ⟨64, _⟩ => ⟨S_, .i32⟩
  | .hbm, ⟨65, _⟩ => ⟨S400000, .i32⟩
  | .hbm, ⟨66, _⟩ => ⟨S400000, .i32⟩
  | .hbm, ⟨67, _⟩ => ⟨S400000, .i32⟩
  | .hbm, ⟨68, _⟩ => ⟨S400000x1, .i32⟩
  | .hbm, ⟨69, _⟩ => ⟨S400000x3, .f32⟩
  | .hbm, ⟨70, _⟩ => ⟨S400000x3, .f32⟩
  | .hbm, ⟨71, _⟩ => ⟨S400000x128, .bf16⟩
  | .hbm, ⟨72, _⟩ => ⟨S400000x3, .bf16⟩
  | .hbm, ⟨73, _⟩ => ⟨S128x128, .bf16⟩
  | .hbm, ⟨74, _⟩ => ⟨S3x128, .bf16⟩
  | .hbm, ⟨75, _⟩ => ⟨S400000x128, .f32⟩
  | .hbm, ⟨76, _⟩ => ⟨S_, .f32⟩
  | .hbm, ⟨77, _⟩ => ⟨S200000x128, .f32⟩
  | .hbm, ⟨78, _⟩ => ⟨S400000x1, .i32⟩
  | .hbm, ⟨79, _⟩ => ⟨S200000x128, .f32⟩
  | .hbm, ⟨80, _⟩ => ⟨S1x3200000, .i32⟩
  | .hbm, ⟨81, _⟩ => ⟨S3200000, .i32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x3, .f32⟩
  | .hbm, ⟨91, _⟩ => ⟨S1x3200000, .i32⟩
  | .hbm, ⟨92, _⟩ => ⟨S3200000, .i32⟩
  | .hbm, ⟨93, _⟩ => ⟨S_, .i32⟩
  | .hbm, ⟨94, _⟩ => ⟨S3200000, .i32⟩
  | .hbm, ⟨95, _⟩ => ⟨S3200000, .i1⟩
  | .hbm, ⟨96, _⟩ => ⟨S_, .i32⟩
  | .hbm, ⟨97, _⟩ => ⟨S3200000, .i32⟩
  | .hbm, ⟨98, _⟩ => ⟨S3200000, .i32⟩
  | .hbm, ⟨99, _⟩ => ⟨S3200000, .i32⟩
  | .hbm, ⟨100, _⟩ => ⟨S3200000x1, .i32⟩
  | .hbm, ⟨101, _⟩ => ⟨S3200000x3, .f32⟩
  | .hbm, ⟨102, _⟩ => ⟨S3200000x3, .f32⟩
  | .hbm, ⟨103, _⟩ => ⟨S100000x4, .i32⟩
  | .hbm, ⟨104, _⟩ => ⟨S400000, .i32⟩
  | .hbm, ⟨105, _⟩ => ⟨S_, .i32⟩
  | .hbm, ⟨106, _⟩ => ⟨S200000, .i32⟩
  | .hbm, ⟨107, _⟩ => ⟨S400000x1, .i32⟩
  | .hbm, ⟨108, _⟩ => ⟨S200000, .i32⟩
  | .local _ .vmem, ⟨0, _⟩ => ⟨S6400x128, .bf16⟩
  | .local _ .vmem, ⟨1, _⟩ => ⟨S6400x128, .bf16⟩
  | .local _ .vmem, ⟨2, _⟩ => ⟨S6400x3, .bf16⟩
  | .local _ .vmem, ⟨3, _⟩ => ⟨S6400x3, .bf16⟩
  | .local _ .vmem, ⟨4, _⟩ => ⟨S128x144, .bf16⟩
  | .local _ .vmem, ⟨5, _⟩ => ⟨S3x144, .bf16⟩
  | .local _ .vmem, ⟨6, _⟩ => ⟨S6400x144, .f32⟩
  | .local _ .vmem, ⟨7, _⟩ => ⟨S6400x144, .f32⟩
  | .local _ .vmem, ⟨8, _⟩ => ⟨S4000x128, .bf16⟩
  | .local _ .vmem, ⟨9, _⟩ => ⟨S4000x128, .bf16⟩
  | .local _ .vmem, ⟨10, _⟩ => ⟨S4000x144, .f32⟩
  | .local _ .vmem, ⟨11, _⟩ => ⟨S4000x144, .f32⟩
  | .local _ .vmem, ⟨12, _⟩ => ⟨S4000x3, .f32⟩
  | .local _ .vmem, ⟨13, _⟩ => ⟨S4000x3, .f32⟩
  | .local _ .vmem, ⟨14, _⟩ => ⟨S128x144, .bf16⟩
  | .local _ .vmem, ⟨15, _⟩ => ⟨S16x12, .bf16⟩
  | .local _ .vmem, ⟨16, _⟩ => ⟨S4000x128, .f32⟩
  | .local _ .vmem, ⟨17, _⟩ => ⟨S4000x128, .f32⟩
  | .local _ .vmem, ⟨18, _⟩ => ⟨S4000x12, .f32⟩
  | .local _ .vmem, ⟨19, _⟩ => ⟨S4000x12, .f32⟩
  | .local _ .vmem, ⟨20, _⟩ => ⟨S10000x128, .bf16⟩
  | .local _ .vmem, ⟨21, _⟩ => ⟨S10000x128, .bf16⟩
  | .local _ .vmem, ⟨22, _⟩ => ⟨S10000x3, .bf16⟩
  | .local _ .vmem, ⟨23, _⟩ => ⟨S10000x3, .bf16⟩
  | .local _ .vmem, ⟨24, _⟩ => ⟨S128x128, .bf16⟩
  | .local _ .vmem, ⟨25, _⟩ => ⟨S3x128, .bf16⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_c_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x144 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x12 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x12 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x3 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x144_S128x144_0_0 : ∀ a, (![0, 0] : Fin 2 → Nat) a + S128x144.size a ≤ S128x144.size a
  h_S128x144 : 0 < S128x144.numel
  shapeCasts_S128x144_S128x144 : S128x144.ShapeCasts S128x144
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  inb_S3x144_S3x144_0_0 : ∀ a, (![0, 0] : Fin 2 → Nat) a + S3x144.size a ≤ S3x144.size a
  h_S3x144 : 0 < S3x144.numel
  shapeCasts_S3x144_S3x144 : S3x144.ShapeCasts S3x144
  inb_S6400x144_S6400x144_0_0 : ∀ a, (![0, 0] : Fin 2 → Nat) a + S6400x144.size a ≤ S6400x144.size a
  h_S6400x144 : 0 < S6400x144.numel
  bcast_S_S100000x144 : S_.BroadcastsInDim S100000x144 (![] : Fin 0 → Fin S100000x144.rank)
  inb_S4000x144_S4000x144_0_0 : ∀ a, (![0, 0] : Fin 2 → Nat) a + S4000x144.size a ≤ S4000x144.size a
  h_S4000x144 : 0 < S4000x144.numel
  shapeCasts_S4000x144_S4000x144 : S4000x144.ShapeCasts S4000x144
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x144_o0_0_S4000x16 : S4000x144.Slices ![0, 0] S4000x16
  slices_S4000x144_o0_16_S4000x128 : S4000x144.Slices ![0, 16] S4000x128
  inb_S16x12_S16x12_0_0 : ∀ a, (![0, 0] : Fin 2 → Nat) a + S16x12.size a ≤ S16x12.size a
  h_S16x12 : 0 < S16x12.numel
  shapeCasts_S16x12_S16x12 : S16x12.ShapeCasts S16x12
  inb_S4000x3_S4000x3_0_0 : ∀ a, (![0, 0] : Fin 2 → Nat) a + S4000x3.size a ≤ S4000x3.size a
  h_S4000x3 : 0 < S4000x3.numel
  concatenates_S4000x3_S4000x3_S4000x3_S4000x3_S4000x12_d1 : Shape.Concatenates [S4000x3, S4000x3, S4000x3, S4000x3] S4000x12 1
  inb_S4000x12_S4000x12_0_0 : ∀ a, (![0, 0] : Fin 2 → Nat) a + S4000x12.size a ≤ S4000x12.size a
  h_S4000x12 : 0 < S4000x12.numel
  shapeCasts_S100000x12_S100000x4x3 : S100000x12.ShapeCasts S100000x4x3
  shapeCasts_S100000x4x3_S400000x3 : S100000x4x3.ShapeCasts S400000x3
  bcast_S_S200000x3 : S_.BroadcastsInDim S200000x3 (![] : Fin 0 → Fin S200000x3.rank)
  bcast_S400000_S400000x1_0 : S400000.BroadcastsInDim S400000x1 (![0] : Fin 1 → Fin S400000x1.rank)
  bcast_S_S400000 : S_.BroadcastsInDim S400000 (![] : Fin 0 → Fin S400000.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  bcast_S100000x128_S100000x4x128_0_2 : S100000x128.BroadcastsInDim S100000x4x128 (![0, 2] : Fin 2 → Fin S100000x4x128.rank)
  shapeCasts_S100000x4x128_S400000x128 : S100000x4x128.ShapeCasts S400000x128
  bcast_S100000x3_S100000x4x3_0_2 : S100000x3.BroadcastsInDim S100000x4x3 (![0, 2] : Fin 2 → Fin S100000x4x3.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  bcast_S_S200000x128 : S_.BroadcastsInDim S200000x128 (![] : Fin 0 → Fin S200000x128.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_0_0 : S2x3200000.Slices ![0, 0] S1x3200000
  bcast_S100000_S100000x4_0 : S100000.BroadcastsInDim S100000x4 (![0] : Fin 1 → Fin S100000x4.rank)
  shapeCasts_S100000x4_S400000 : S100000x4.ShapeCasts S400000
  gather_S100000x128_S1600000x1_S1600000x128_1_0_n_n_0_1_1128_wf : GatherDims.WF S100000x128 S1600000x1 S1600000x128 [1] [0] [] [0] [] 1 ![1, 128]
  dot_S6400x128_S128x144_S6400x144_1_0_0_1_n_n_wf : DotDims.WF S6400x128 S128x144 S6400x144 [1] [0] [0] [1] [] []
  dot_S6400x3_S3x144_S6400x144_1_0_0_1_n_n_wf : DotDims.WF S6400x3 S3x144 S6400x144 [1] [0] [0] [1] [] []
  scatter_S100000x144_S1600000x1_S1600000x144_1_0_0_1_wf : ScatterDims.WF S100000x144 S1600000x1 S1600000x144 [1] [0] [0] 1
  dot_S4000x128_S128x144_S4000x144_1_0_0_1_n_n_wf : DotDims.WF S4000x128 S128x144 S4000x144 [1] [0] [0] [1] [] []
  dot_S4000x16_S16x12_S4000x12_1_0_0_1_n_n_wf : DotDims.WF S4000x16 S16x12 S4000x12 [1] [0] [0] [1] [] []
  scatter_S200000x3_S400000x1_S400000x3_1_0_0_1_wf : ScatterDims.WF S200000x3 S400000x1 S400000x3 [1] [0] [0] 1
  scatter_S200000_S400000x1_S400000_n_0_0_1_wf : ScatterDims.WF S200000 S400000x1 S400000 [] [0] [0] 1
  gather_S200000x3_S400000x1_S400000x3_1_0_n_n_0_1_13_wf : GatherDims.WF S200000x3 S400000x1 S400000x3 [1] [0] [] [0] [] 1 ![1, 3]
  dot_S10000x128_S128x128_S10000x128_1_0_0_1_n_n_wf : DotDims.WF S10000x128 S128x128 S10000x128 [1] [0] [0] [1] [] []
  dot_S10000x3_S3x128_S10000x128_1_0_0_1_n_n_wf : DotDims.WF S10000x3 S3x128 S10000x128 [1] [0] [0] [1] [] []
  scatter_S200000x128_S400000x1_S400000x128_1_0_0_1_wf : ScatterDims.WF S200000x128 S400000x1 S400000x128 [1] [0] [0] 1
  gather_S200000x3_S3200000x1_S3200000x3_1_0_n_n_0_1_13_wf : GatherDims.WF S200000x3 S3200000x1 S3200000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S1600000x3.size a
  hwx0_1 : ∀ i : grid0.Coords, EltTy.bits .bf16 = 32 ∨ (Rect.block (s := S1600000x3) S6400x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x144.size a ≤ S128x144.size a
  hwx0_2 : ∀ i : grid0.Coords, EltTy.bits .bf16 = 32 ∨ (Rect.block (s := S128x144) S128x144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x144.size a ≤ S3x144.size a
  hwx0_3 : ∀ i : grid0.Coords, EltTy.bits .bf16 = 32 ∨ (Rect.block (s := S3x144) S3x144.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x144.size a ≤ S1600000x144.size a
  hwx0_4 : ∀ i : grid0.Coords, EltTy.bits .f32 = 32 ∨ (Rect.block (s := S1600000x144) S6400x144.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x144.size a ≤ S100000x144.size a
  hwx1_1 : ∀ i : grid1.Coords, EltTy.bits .f32 = 32 ∨ (Rect.block (s := S100000x144) S4000x144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S100000x3.size a
  hwx1_2 : ∀ i : grid1.Coords, EltTy.bits .f32 = 32 ∨ (Rect.block (s := S100000x3) S4000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x144.size a ≤ S128x144.size a
  hwx1_3 : ∀ i : grid1.Coords, EltTy.bits .bf16 = 32 ∨ (Rect.block (s := S128x144) S128x144.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x12.size a ≤ S16x12.size a
  hwx1_4 : ∀ i : grid1.Coords, EltTy.bits .bf16 = 32 ∨ (Rect.block (s := S16x12) S16x12.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x12.size a ≤ S100000x12.size a
  hwx1_6 : ∀ i : grid1.Coords, EltTy.bits .f32 = 32 ∨ (Rect.block (s := S100000x12) S4000x12.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S400000x128.size a
  hwx2_0 : ∀ i : grid2.Coords, EltTy.bits .bf16 = 32 ∨ (Rect.block (s := S400000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x3.size a ≤ S400000x3.size a
  hwx2_1 : ∀ i : grid2.Coords, EltTy.bits .bf16 = 32 ∨ (Rect.block (s := S400000x3) S10000x3.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128.size a ≤ S3x128.size a
  hwx2_3 : ∀ i : grid2.Coords, EltTy.bits .bf16 = 32 ∨ (Rect.block (s := S3x128) S3x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S400000x128.size a
  hwx2_4 : ∀ i : grid2.Coords, EltTy.bits .f32 = 32 ∨ (Rect.block (s := S400000x128) S10000x128.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S6400x128_S128x144_S6400x144_1_0_0_1_n_n : DotDims S6400x128 S128x144 S6400x144 where
  lhsContracting := [1]
  rhsContracting := [0]
  lhsNonContracting := [0]
  rhsNonContracting := [1]
  lhsBatch := []
  rhsBatch := []
  wf := dot_S6400x128_S128x144_S6400x144_1_0_0_1_n_n_wf
def dot_S6400x3_S3x144_S6400x144_1_0_0_1_n_n : DotDims S6400x3 S3x144 S6400x144 where
  lhsContracting := [1]
  rhsContracting := [0]
  lhsNonContracting := [0]
  rhsNonContracting := [1]
  lhsBatch := []
  rhsBatch := []
  wf := dot_S6400x3_S3x144_S6400x144_1_0_0_1_n_n_wf
def scatter_S100000x144_S1600000x1_S1600000x144_1_0_0_1 : ScatterDims S100000x144 S1600000x1 S1600000x144 where
  updateWindowDims := [1]
  insertedWindowDims := [0]
  scatterDimsToOperandDims := [0]
  indexVectorDim := 1
  wf := scatter_S100000x144_S1600000x1_S1600000x144_1_0_0_1_wf
def dot_S4000x128_S128x144_S4000x144_1_0_0_1_n_n : DotDims S4000x128 S128x144 S4000x144 where
  lhsContracting := [1]
  rhsContracting := [0]
  lhsNonContracting := [0]
  rhsNonContracting := [1]
  lhsBatch := []
  rhsBatch := []
  wf := dot_S4000x128_S128x144_S4000x144_1_0_0_1_n_n_wf
def dot_S4000x16_S16x12_S4000x12_1_0_0_1_n_n : DotDims S4000x16 S16x12 S4000x12 where
  lhsContracting := [1]
  rhsContracting := [0]
  lhsNonContracting := [0]
  rhsNonContracting := [1]
  lhsBatch := []
  rhsBatch := []
  wf := dot_S4000x16_S16x12_S4000x12_1_0_0_1_n_n_wf
def scatter_S200000x3_S400000x1_S400000x3_1_0_0_1 : ScatterDims S200000x3 S400000x1 S400000x3 where
  updateWindowDims := [1]
  insertedWindowDims := [0]
  scatterDimsToOperandDims := [0]
  indexVectorDim := 1
  wf := scatter_S200000x3_S400000x1_S400000x3_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000x3_S400000x1_S400000x3_1_0_n_n_0_1_13 : GatherDims S200000x3 S400000x1 S400000x3 where
  offsetDims := [1]
  collapsedSliceDims := [0]
  operandBatchingDims := []
  startIndicesBatchingDims := []
  startIndexMap := [0]
  indexVectorDim := 1
  sliceSizes := ![1, 3]
  wf := gather_S200000x3_S400000x1_S400000x3_1_0_n_n_0_1_13_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S200000x3_S3200000x1_S3200000x3_1_0_n_n_0_1_13 : GatherDims S200000x3 S3200000x1 S3200000x3 where
  offsetDims := [1]
  collapsedSliceDims := [0]
  operandBatchingDims := []
  startIndicesBatchingDims := []
  startIndexMap := [0]
  indexVectorDim := 1
  sliceSizes := ![1, 3]
  wf := gather_S200000x3_S3200000x1_S3200000x3_1_0_n_n_0_1_13_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S6400x144.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x144.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S16x12.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S4000x12.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S3x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S1600000x3 : Shape := ⟨2, ![1600000, 3]⟩
abbrev S128x144 : Shape := ⟨2, ![128, 144]⟩
abbrev S3x144 : Shape := ⟨2, ![3, 144]⟩
abbrev S16x12 : Shape := ⟨2, ![16, 12]⟩
abbrev S128x128 : Shape := ⟨2, ![128, 128]⟩
abbrev S3x128 : Shape := ⟨2, ![3, 128]⟩
abbrev S2x1600000 : Shape := ⟨2, ![2, 1600000]⟩
abbrev S100000 : Shape := ⟨1, ![100000]⟩
abbrev S400000 : Shape := ⟨1, ![400000]⟩
abbrev S2x3200000 : Shape := ⟨2, ![2, 3200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x144 : Shape := ⟨2, ![1600000, 144]⟩
abbrev S100000x144 : Shape := ⟨2, ![100000, 144]⟩
abbrev S100000x16 : Shape := ⟨2, ![100000, 16]⟩
abbrev S100000x12 : Shape := ⟨2, ![100000, 12]⟩
abbrev S100000x4x3 : Shape := ⟨3, ![100000, 4, 3]⟩
abbrev S100000x1x3 : Shape := ⟨3, ![100000, 1, 3]⟩
abbrev S400000x3 : Shape := ⟨2, ![400000, 3]⟩
abbrev S100000x4 : Shape := ⟨2, ![100000, 4]⟩
abbrev S200000x3 : Shape := ⟨2, ![200000, 3]⟩
abbrev S400000x1 : Shape := ⟨2, ![400000, 1]⟩
abbrev S200000 : Shape := ⟨1, ![200000]⟩
abbrev S200000x1 : Shape := ⟨2, ![200000, 1]⟩
abbrev S400000x128 : Shape := ⟨2, ![400000, 128]⟩
abbrev S200000x128 : Shape := ⟨2, ![200000, 128]⟩
abbrev S1x3200000 : Shape := ⟨2, ![1, 3200000]⟩
abbrev S3200000 : Shape := ⟨1, ![3200000]⟩
abbrev S3200000x1 : Shape := ⟨2, ![3200000, 1]⟩
abbrev S3200000x3 : Shape := ⟨2, ![3200000, 3]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S100000x3, .f32⟩
  | 2 => ⟨S1600000x3, .f32⟩
  | 3 => ⟨S128x144, .f32⟩
  | 4 => ⟨S3x144, .f32⟩
  | 5 => ⟨S128x144, .f32⟩
  | 6 => ⟨S16x12, .f32⟩
  | 7 => ⟨S128x128, .f32⟩
  | 8 => ⟨S3x128, .f32⟩
  | 9 => ⟨S2x1600000, .i32⟩
  | 10 => ⟨S100000, .i32⟩
  | 11 => ⟨S400000, .i32⟩
  | 12 => ⟨S2x3200000, .i32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x144, .f32⟩
  | 27 => ⟨S1600000x144, .f32⟩
  | 28 => ⟨S1600000x144, .f32⟩
  | 29 => ⟨S_, .f32⟩
  | 30 => ⟨S100000x144, .f32⟩
  | 31 => ⟨S1600000x1, .i32⟩
  | 32 => ⟨S100000x144, .f32⟩
  | 33 => ⟨S100000x144, .f32⟩
  | 34 => ⟨S100000x144, .f32⟩
  | 35 => ⟨S100000x16, .f32⟩
  | 36 => ⟨S100000x128, .f32⟩
  | 37 => ⟨S100000x12, .f32⟩
  | 38 => ⟨S100000x4x3, .f32⟩
  | 39 => ⟨S_, .f32⟩
  | 40 => ⟨S100000x4x3, .f32⟩
  | 41 => ⟨S100000x4x3, .f32⟩
  | 42 => ⟨S100000x1x3, .f32⟩
  | 43 => ⟨S100000x4x3, .f32⟩
  | 44 => ⟨S100000x4x3, .f32⟩
  | 45 => ⟨S400000x3, .f32⟩
  | 46 => ⟨S100000, .i32⟩
  | 47 => ⟨S100000x4, .i32⟩
  | 48 => ⟨S400000, .i32⟩
  | 49 => ⟨S_, .f32⟩
  | 50 => ⟨S200000x3, .f32⟩
  | 51 => ⟨S400000x1, .i32⟩
  | 52 => ⟨S200000x3, .f32⟩
  | 53 => ⟨S_, .f32⟩
  | 54 => ⟨S400000, .f32⟩
  | 55 => ⟨S_, .f32⟩
  | 56 => ⟨S200000, .f32⟩
  | 57 => ⟨S400000x1, .i32⟩
  | 58 => ⟨S200000, .f32⟩
  | 59 => ⟨S_, .f32⟩
  | 60 => ⟨S200000, .f32⟩
  | 61 => ⟨S200000, .f32⟩
  | 62 => ⟨S200000x1, .f32⟩
  | 63 => ⟨S200000x3, .f32⟩
  | 64 => ⟨S200000x3, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x3, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x3, .f32⟩
  | 83 => ⟨S400000x3, .f32⟩
  | 84 => ⟨S_, .i32⟩
  | 85 => ⟨S400000, .i32⟩
  | 86 => ⟨S400000, .i1⟩
  | 87 => ⟨S_, .i32⟩
  | 88 => ⟨S400000, .i32⟩
  | 89 => ⟨S400000, .i32⟩
  | 90 => ⟨S400000, .i32⟩
  | 91 => ⟨S400000x1, .i32⟩
  | 92 => ⟨S400000x128, .f32⟩
  | 93 => ⟨S400000x128, .f32⟩
  | 94 => ⟨S400000x128, .f32⟩
  | 95 => ⟨S400000x128, .f32⟩
  | 96 => ⟨S_, .f32⟩
  | 97 => ⟨S200000x128, .f32⟩
  | 98 => ⟨S400000x1, .i32⟩
  | 99 => ⟨S200000x128, .f32⟩
  | 100 => ⟨S1x3200000, .i32⟩
  | 101 => ⟨S3200000, .i32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x3, .f32⟩
  | 111 => ⟨S1x3200000, .i32⟩
  | 112 => ⟨S3200000, .i32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x3, .f32⟩
  | 122 => ⟨S3200000x3, .f32⟩
  | 123 => ⟨S_, .i32⟩
  | 124 => ⟨S400000, .i32⟩
  | 125 => ⟨S400000, .i1⟩
  | 126 => ⟨S_, .i32⟩
  | 127 => ⟨S400000, .i32⟩
  | _ => ⟨S100000x128, .f32⟩

abbrev hbmTy0_1 (i : Nat) : BufTy := match i % 128 with
  | 0 => ⟨S400000, .i32⟩
  | 1 => ⟨S400000, .i32⟩
  | 2 => ⟨S400000x1, .i32⟩
  | 3 => ⟨S400000, .i32⟩
  | 4 => ⟨S_, .i32⟩
  | 5 => ⟨S200000, .i32⟩
  | 6 => ⟨S400000x1, .i32⟩
  | 7 => ⟨S200000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_13 : Ref sig .tc := ⟨.hbm, 102, rfl⟩
abbrev main_v74 : Ref sig .tc := ⟨.hbm, 103, rfl⟩
abbrev main_v75 : Ref sig .tc := ⟨.hbm, 104, rfl⟩
abbrev main_c_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_15 : Ref sig .tc := ⟨.hbm, 113, rfl⟩
abbrev main_v83 : Ref sig .tc := ⟨.hbm, 114, rfl⟩
abbrev main_v84 : Ref sig .tc := ⟨.hbm, 115, rfl⟩
abbrev main_c_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_17 : Ref sig .tc := ⟨.hbm, 123, rfl⟩
abbrev main_v91 : Ref sig .tc := ⟨.hbm, 124, rfl⟩
abbrev main_v92 : Ref sig .tc := ⟨.hbm, 125, rfl⟩
abbrev main_c_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x144 : S_.BroadcastsInDim S100000x144 (![] : Fin 0 → Fin S100000x144.rank)
  slices_S100000x144_S100000x16_0_0 : S100000x144.Slices ![0, 0] S100000x16
  slices_S100000x144_S100000x128_0_16 : S100000x144.Slices ![0, 16] S100000x128
  shapeCasts_S100000x12_S100000x4x3 : S100000x12.ShapeCasts S100000x4x3
  bcast_S_S100000x4x3 : S_.BroadcastsInDim S100000x4x3 (![] : Fin 0 → Fin S100000x4x3.rank)
  bcast_S100000x3_S100000x1x3_0_2 : S100000x3.BroadcastsInDim S100000x1x3 (![0, 2] : Fin 2 → Fin S100000x1x3.rank)
  bcast_S100000x1x3_S100000x4x3_0_1_2 : S100000x1x3.BroadcastsInDim S100000x4x3 (![0, 1, 2] : Fin 3 → Fin S100000x4x3.rank)
  shapeCasts_S100000x4x3_S400000x3 : S100000x4x3.ShapeCasts S400000x3
  bcast_S100000_S100000x4_0 : S100000.BroadcastsInDim S100000x4 (![0] : Fin 1 → Fin S100000x4.rank)
  shapeCasts_S100000x4_S400000 : S100000x4.ShapeCasts S400000
  bcast_S_S200000x3 : S_.BroadcastsInDim S200000x3 (![] : Fin 0 → Fin S200000x3.rank)
  bcast_S400000_S400000x1_0 : S400000.BroadcastsInDim S400000x1 (![0] : Fin 1 → Fin S400000x1.rank)
  bcast_S_S400000 : S_.BroadcastsInDim S400000 (![] : Fin 0 → Fin S400000.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  bcast_S_S200000x128 : S_.BroadcastsInDim S200000x128 (![] : Fin 0 → Fin S200000x128.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_0_0 : S2x3200000.Slices ![0, 0] S1x3200000
  gather_S100000x128_S1600000x1_S1600000x128_1_0_n_n_0_1_1128_wf : GatherDims.WF S100000x128 S1600000x1 S1600000x128 [1] [0] [] [0] [] 1 ![1, 128]
  dot_S1600000x128_S128x144_S1600000x144_1_0_0_1_n_n_wf : DotDims.WF S1600000x128 S128x144 S1600000x144 [1] [0] [0] [1] [] []
  dot_S1600000x3_S3x144_S1600000x144_1_0_0_1_n_n_wf : DotDims.WF S1600000x3 S3x144 S1600000x144 [1] [0] [0] [1] [] []
  scatter_S100000x144_S1600000x1_S1600000x144_1_0_0_1_wf : ScatterDims.WF S100000x144 S1600000x1 S1600000x144 [1] [0] [0] 1
  dot_S100000x128_S128x144_S100000x144_1_0_0_1_n_n_wf : DotDims.WF S100000x128 S128x144 S100000x144 [1] [0] [0] [1] [] []
  dot_S100000x16_S16x12_S100000x12_1_0_0_1_n_n_wf : DotDims.WF S100000x16 S16x12 S100000x12 [1] [0] [0] [1] [] []
  scatter_S200000x3_S400000x1_S400000x3_1_0_0_1_wf : ScatterDims.WF S200000x3 S400000x1 S400000x3 [1] [0] [0] 1
  scatter_S200000_S400000x1_S400000_n_0_0_1_wf : ScatterDims.WF S200000 S400000x1 S400000 [] [0] [0] 1
  gather_S100000x3_S400000x1_S400000x3_1_0_n_n_0_1_13_wf : GatherDims.WF S100000x3 S400000x1 S400000x3 [1] [0] [] [0] [] 1 ![1, 3]
  gather_S200000x3_S400000x1_S400000x3_1_0_n_n_0_1_13_wf : GatherDims.WF S200000x3 S400000x1 S400000x3 [1] [0] [] [0] [] 1 ![1, 3]
  gather_S100000x128_S400000x1_S400000x128_1_0_n_n_0_1_1128_wf : GatherDims.WF S100000x128 S400000x1 S400000x128 [1] [0] [] [0] [] 1 ![1, 128]
  dot_S400000x128_S128x128_S400000x128_1_0_0_1_n_n_wf : DotDims.WF S400000x128 S128x128 S400000x128 [1] [0] [0] [1] [] []
  dot_S400000x3_S3x128_S400000x128_1_0_0_1_n_n_wf : DotDims.WF S400000x3 S3x128 S400000x128 [1] [0] [0] [1] [] []
  scatter_S200000x128_S400000x1_S400000x128_1_0_0_1_wf : ScatterDims.WF S200000x128 S400000x1 S400000x128 [1] [0] [0] 1
  gather_S200000x3_S3200000x1_S3200000x3_1_0_n_n_0_1_13_wf : GatherDims.WF S200000x3 S3200000x1 S3200000x3 [1] [0] [] [0] [] 1 ![1, 3]
  gather_S100000_S400000x1_S400000_n_0_n_n_0_1_1_wf : GatherDims.WF S100000 S400000x1 S400000 [] [0] [] [0] [] 1 ![1]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x144_S1600000x144_1_0_0_1_n_n : DotDims S1600000x128 S128x144 S1600000x144 where
  lhsContracting := [1]
  rhsContracting := [0]
  lhsNonContracting := [0]
  rhsNonContracting := [1]
  lhsBatch := []
  rhsBatch := []
  wf := dot_S1600000x128_S128x144_S1600000x144_1_0_0_1_n_n_wf
def dot_S1600000x3_S3x144_S1600000x144_1_0_0_1_n_n : DotDims S1600000x3 S3x144 S1600000x144 where
  lhsContracting := [1]
  rhsContracting := [0]
  lhsNonContracting := [0]
  rhsNonContracting := [1]
  lhsBatch := []
  rhsBatch := []
  wf := dot_S1600000x3_S3x144_S1600000x144_1_0_0_1_n_n_wf
def scatter_S100000x144_S1600000x1_S1600000x144_1_0_0_1 : ScatterDims S100000x144 S1600000x1 S1600000x144 where
  updateWindowDims := [1]
  insertedWindowDims := [0]
  scatterDimsToOperandDims := [0]
  indexVectorDim := 1
  wf := scatter_S100000x144_S1600000x1_S1600000x144_1_0_0_1_wf
def dot_S100000x128_S128x144_S100000x144_1_0_0_1_n_n : DotDims S100000x128 S128x144 S100000x144 where
  lhsContracting := [1]
  rhsContracting := [0]
  lhsNonContracting := [0]
  rhsNonContracting := [1]
  lhsBatch := []
  rhsBatch := []
  wf := dot_S100000x128_S128x144_S100000x144_1_0_0_1_n_n_wf
def dot_S100000x16_S16x12_S100000x12_1_0_0_1_n_n : DotDims S100000x16 S16x12 S100000x12 where
  lhsContracting := [1]
  rhsContracting := [0]
  lhsNonContracting := [0]
  rhsNonContracting := [1]
  lhsBatch := []
  rhsBatch := []
  wf := dot_S100000x16_S16x12_S100000x12_1_0_0_1_n_n_wf
def scatter_S200000x3_S400000x1_S400000x3_1_0_0_1 : ScatterDims S200000x3 S400000x1 S400000x3 where
  updateWindowDims := [1]
  insertedWindowDims := [0]
  scatterDimsToOperandDims := [0]
  indexVectorDim := 1
  wf := scatter_S200000x3_S400000x1_S400000x3_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S100000x3_S400000x1_S400000x3_1_0_n_n_0_1_13 : GatherDims S100000x3 S400000x1 S400000x3 where
  offsetDims := [1]
  collapsedSliceDims := [0]
  operandBatchingDims := []
  startIndicesBatchingDims := []
  startIndexMap := [0]
  indexVectorDim := 1
  sliceSizes := ![1, 3]
  wf := gather_S100000x3_S400000x1_S400000x3_1_0_n_n_0_1_13_wf
def gather_S200000x3_S400000x1_S400000x3_1_0_n_n_0_1_13 : GatherDims S200000x3 S400000x1 S400000x3 where
  offsetDims := [1]
  collapsedSliceDims := [0]
  operandBatchingDims := []
  startIndicesBatchingDims := []
  startIndexMap := [0]
  indexVectorDim := 1
  sliceSizes := ![1, 3]
  wf := gather_S200000x3_S400000x1_S400000x3_1_0_n_n_0_1_13_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x3_S3x128_S400000x128_1_0_0_1_n_n : DotDims S400000x3 S3x128 S400000x128 where
  lhsContracting := [1]
  rhsContracting := [0]
  lhsNonContracting := [0]
  rhsNonContracting := [1]
  lhsBatch := []
  rhsBatch := []
  wf := dot_S400000x3_S3x128_S400000x128_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S200000x3_S3200000x1_S3200000x3_1_0_n_n_0_1_13 : GatherDims S200000x3 S3200000x1 S3200000x3 where
  offsetDims := [1]
  collapsedSliceDims := [0]
  operandBatchingDims := []
  startIndicesBatchingDims := []
  startIndexMap := [0]
  indexVectorDim := 1
  sliceSizes := ![1, 3]
  wf := gather_S200000x3_S3200000x1_S3200000x3_1_0_n_n_0_1_13_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf

class Facts : Prop extends Facts₀ where

variable [Facts]
-- ==== Proof.EdgeMessage.lean ====
/-
  The edge-message region, read as a value at the extended reals. Each grid point takes 6400 edges: the
  block of gathered source rows times the convolution weights, and the block of edge attributes times the
  gate weights, multiplied entry by entry. Row r of block t is edge 6400·t + r, and a row of a matrix
  product depends only on that row of the left factor, so the 250 blocks together are the two whole
  products multiplied entry by entry.
-/
import proofs.«428030_j58119497450175_2_alg».proof.Proof.Gen.KernelIdeal.Frame
import proofs.«428030_j58119497450175_2_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.EdgeMessage

open Idealize.ShloMosaic Idealize.ShloMosaic.TcCoe Idealize.SL.Sem
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b)) (c : Dev nD)

/-- The gathered source rows, one per edge. -/
abbrev srcRows : FVec Ideal S1600000x128 .bf16 := V c main_v11
/-- The edge attributes. -/
abbrev edgeAttr : FVec Ideal S1600000x3 .bf16 := V c main_v12
/-- The convolution weights. -/
abbrev convW : FVec Ideal S128x144 .bf16 := V c main_v13
/-- The gate weights. -/
abbrev convV : FVec Ideal S3x144 .bf16 := V c main_v14

/-! ## Four matrix products, each read at an entry as a row against a column

Two are the body's (a block of 6400 rows times a weight matrix, summed into zero), two are the whole arrays'
(all 1600000 rows times the same weight matrix). Each has one contracted axis, of length 128 or 3; its operand
indices at output entry (row, q) and contraction index k are (row, k) on the left and (k, q) on the right. -/

/-! ### A block of source rows times the convolution weights -/

theorem blockW_lhs_row (j : S6400x144.Idx) (u : dot_S6400x128_S128x144_S6400x144_1_0_0_1_n_n.contr.Idx) :
    (dot_S6400x128_S128x144_S6400x144_1_0_0_1_n_n.lhsIdx j u 0).val = (j 0).val := by
  unfold DotDims.lhsIdx
  rw [dif_neg (show ¬(0 : Fin S6400x128.rank) ∈ dot_S6400x128_S128x144_S6400x144_1_0_0_1_n_n.lhsBatch by decide), dif_pos (show (0 : Fin S6400x128.rank) ∈ dot_S6400x128_S128x144_S6400x144_1_0_0_1_n_n.lhsNonContracting by decide)]
  rfl
theorem blockW_lhs_col (j : S6400x144.Idx) (u : dot_S6400x128_S128x144_S6400x144_1_0_0_1_n_n.contr.Idx) :
    (dot_S6400x128_S128x144_S6400x144_1_0_0_1_n_n.lhsIdx j u 1).val = (u ⟨0, by decide⟩).val :=
  dot_S6400x128_S128x144_S6400x144_1_0_0_1_n_n.lhsIdx_val_of_single rfl j u
theorem blockW_rhs_row (j : S6400x144.Idx) (u : dot_S6400x128_S128x144_S6400x144_1_0_0_1_n_n.contr.Idx) :
    (dot_S6400x128_S128x144_S6400x144_1_0_0_1_n_n.rhsIdx j u 0).val = (u ⟨0, by decide⟩).val :=
  dot_S6400x128_S128x144_S6400x144_1_0_0_1_n_n.rhsIdx_val_of_single rfl j u
theorem blockW_rhs_col (j : S6400x144.Idx) (u : dot_S6400x128_S128x144_S6400x144_1_0_0_1_n_n.contr.Idx) :
    (dot_S6400x128_S128x144_S6400x144_1_0_0_1_n_n.rhsIdx j u 1).val = (j 1).val := by
  unfold DotDims.rhsIdx
  rw [dif_neg (show ¬(1 : Fin S128x144.rank) ∈ dot_S6400x128_S128x144_S6400x144_1_0_0_1_n_n.rhsBatch by decide), dif_pos (show (1 : Fin S128x144.rank) ∈ dot_S6400x128_S128x144_S6400x144_1_0_0_1_n_n.rhsNonContracting by decide)]
  rfl

/-- Entry (p, q) of a block of source rows times the convolution weights: row p against column q. -/
theorem blockW_apply (x : FVec Ideal S6400x128 .bf16) (w : FVec Ideal S128x144 .bf16) (p : Fin 6400) (q : Fin 144) :
    matmul (F := Ideal) dot_S6400x128_S128x144_S6400x144_1_0_0_1_n_n none x w (constant S6400x144 .f32 0x00000000#32) (ix2 p q)
      = ∑ k : Fin 128, x (ix2 p k) * w (ix2 k q) := by
  simp only [matmul]
  rw [Ideal.matmul_constant_zero_apply, ← Equiv.sum_comp (contrEquiv1 dot_S6400x128_S128x144_S6400x144_1_0_0_1_n_n 128 rfl rfl).symm]
  refine Finset.sum_congr rfl fun k _ => ?_
  have hk := contrEquiv1_symm_val dot_S6400x128_S128x144_S6400x144_1_0_0_1_n_n 128 rfl rfl k
  have el : dot_S6400x128_S128x144_S6400x144_1_0_0_1_n_n.lhsIdx (ix2 p q) ((contrEquiv1 dot_S6400x128_S128x144_S6400x144_1_0_0_1_n_n 128 rfl rfl).symm k) = ix2 p k := funext fun a => Fin.ext (by
    match a with
    | ⟨0, _⟩ => exact blockW_lhs_row _ _
    | ⟨1, _⟩ => exact (blockW_lhs_col _ _).trans hk)
  have er : dot_S6400x128_S128x144_S6400x144_1_0_0_1_n_n.rhsIdx (ix2 p q) ((contrEquiv1 dot_S6400x128_S128x144_S6400x144_1_0_0_1_n_n 128 rfl rfl).symm k) = ix2 k q := funext fun a => Fin.ext (by
    match a with
    | ⟨0, _⟩ => exact (blockW_rhs_row _ _).trans hk
    | ⟨1, _⟩ => exact blockW_rhs_col _ _)
  rw [el, er]

/-! ### A block of edge attributes times the gate weights -/

theorem blockV_lhs_row (j : S6400x144.Idx) (u : dot_S6400x3_S3x144_S6400x144_1_0_0_1_n_n.contr.Idx) :
    (dot_S6400x3_S3x144_S6400x144_1_0_0_1_n_n.lhsIdx j u 0).val = (j 0).val := by
  unfold DotDims.lhsIdx
  rw [dif_neg (show ¬(0 : Fin S6400x3.rank) ∈ dot_S6400x3_S3x144_S6400x144_1_0_0_1_n_n.lhsBatch by decide), dif_pos (show (0 : Fin S6400x3.rank) ∈ dot_S6400x3_S3x144_S6400x144_1_0_0_1_n_n.lhsNonContracting by decide)]
  rfl
theorem blockV_lhs_col (j : S6400x144.Idx) (u : dot_S6400x3_S3x144_S6400x144_1_0_0_1_n_n.contr.Idx) :
    (dot_S6400x3_S3x144_S6400x144_1_0_0_1_n_n.lhsIdx j u 1).val = (u ⟨0, by decide⟩).val :=
  dot_S6400x3_S3x144_S6400x144_1_0_0_1_n_n.lhsIdx_val_of_single rfl j u
theorem blockV_rhs_row (j : S6400x144.Idx) (u : dot_S6400x3_S3x144_S6400x144_1_0_0_1_n_n.contr.Idx) :
    (dot_S6400x3_S3x144_S6400x144_1_0_0_1_n_n.rhsIdx j u 0).val = (u ⟨0, by decide⟩).val :=
  dot_S6400x3_S3x144_S6400x144_1_0_0_1_n_n.rhsIdx_val_of_single rfl j u
theorem blockV_rhs_col (j : S6400x144.Idx) (u : dot_S6400x3_S3x144_S6400x144_1_0_0_1_n_n.contr.Idx) :
    (dot_S6400x3_S3x144_S6400x144_1_0_0_1_n_n.rhsIdx j u 1).val = (j 1).val := by
  unfold DotDims.rhsIdx
  rw [dif_neg (show ¬(1 : Fin S3x144.rank) ∈ dot_S6400x3_S3x144_S6400x144_1_0_0_1_n_n.rhsBatch by decide), dif_pos (show (1 : Fin S3x144.rank) ∈ dot_S6400x3_S3x144_S6400x144_1_0_0_1_n_n.rhsNonContracting by decide)]
  rfl

/-- Entry (p, q) of a block of edge attributes times the gate weights: three products. -/
theorem blockV_apply (x : FVec Ideal S6400x3 .bf16) (w : FVec Ideal S3x144 .bf16) (p : Fin 6400) (q : Fin 144) :
    matmul (F := Ideal) dot_S6400x3_S3x144_S6400x144_1_0_0_1_n_n none x w (constant S6400x144 .f32 0x00000000#32) (ix2 p q)
      = ∑ k : Fin 3, x (ix2 p k) * w (ix2 k q) := by
  simp only [matmul]
  rw [Ideal.matmul_constant_zero_apply, ← Equiv.sum_comp (contrEquiv1 dot_S6400x3_S3x144_S6400x144_1_0_0_1_n_n 3 rfl rfl).symm]
  refine Finset.sum_congr rfl fun k _ => ?_
  have hk := contrEquiv1_symm_val dot_S6400x3_S3x144_S6400x144_1_0_0_1_n_n 3 rfl rfl k
  have el : dot_S6400x3_S3x144_S6400x144_1_0_0_1_n_n.lhsIdx (ix2 p q) ((contrEquiv1 dot_S6400x3_S3x144_S6400x144_1_0_0_1_n_n 3 rfl rfl).symm k) = ix2 p k := funext fun a => Fin.ext (by
    match a with
    | ⟨0, _⟩ => exact blockV_lhs_row _ _
    | ⟨1, _⟩ => exact (blockV_lhs_col _ _).trans hk)
  have er : dot_S6400x3_S3x144_S6400x144_1_0_0_1_n_n.rhsIdx (ix2 p q) ((contrEquiv1 dot_S6400x3_S3x144_S6400x144_1_0_0_1_n_n 3 rfl rfl).symm k) = ix2 k q := funext fun a => Fin.ext (by
    match a with
    | ⟨0, _⟩ => exact (blockV_rhs_row _ _).trans hk
    | ⟨1, _⟩ => exact blockV_rhs_col _ _)
  rw [el, er]

/-! ### All the source rows times the convolution weights -/

theorem wholeW_lhs_row (i : S1600000x144.Idx) (u : Cert.ReferenceIdeal.dot_S1600000x128_S128x144_S1600000x144_1_0_0_1_n_n.contr.Idx) :
    (Cert.ReferenceIdeal.dot_S1600000x128_S128x144_S1600000x144_1_0_0_1_n_n.lhsIdx i u 0).val = (i 0).val := by
  unfold DotDims.lhsIdx
  rw [dif_neg (show ¬(0 : Fin Cert.ReferenceIdeal.S1600000x128.rank) ∈ Cert.ReferenceIdeal.dot_S1600000x128_S128x144_S1600000x144_1_0_0_1_n_n.lhsBatch by decide), dif_pos (show (0 : Fin Cert.ReferenceIdeal.S1600000x128.rank) ∈ Cert.ReferenceIdeal.dot_S1600000x128_S128x144_S1600000x144_1_0_0_1_n_n.lhsNonContracting by decide)]
  rfl
theorem wholeW_lhs_col (i : S1600000x144.Idx) (u : Cert.ReferenceIdeal.dot_S1600000x128_S128x144_S1600000x144_1_0_0_1_n_n.contr.Idx) :
    (Cert.ReferenceIdeal.dot_S1600000x128_S128x144_S1600000x144_1_0_0_1_n_n.lhsIdx i u 1).val = (u ⟨0, by decide⟩).val :=
  Cert.ReferenceIdeal.dot_S1600000x128_S128x144_S1600000x144_1_0_0_1_n_n.lhsIdx_val_of_single rfl i u
theorem wholeW_rhs_row (i : S1600000x144.Idx) (u : Cert.ReferenceIdeal.dot_S1600000x128_S128x144_S1600000x144_1_0_0_1_n_n.contr.Idx) :
    (Cert.ReferenceIdeal.dot_S1600000x128_S128x144_S1600000x144_1_0_0_1_n_n.rhsIdx i u 0).val = (u ⟨0, by decide⟩).val :=
  Cert.ReferenceIdeal.dot_S1600000x128_S128x144_S1600000x144_1_0_0_1_n_n.rhsIdx_val_of_single rfl i u
theorem wholeW_rhs_col (i : S1600000x144.Idx) (u : Cert.ReferenceIdeal.dot_S1600000x128_S128x144_S1600000x144_1_0_0_1_n_n.contr.Idx) :
    (Cert.ReferenceIdeal.dot_S1600000x128_S128x144_S1600000x144_1_0_0_1_n_n.rhsIdx i u 1).val = (i 1).val := by
  unfold DotDims.rhsIdx
  rw [dif_neg (show ¬(1 : Fin Cert.ReferenceIdeal.S128x144.rank) ∈ Cert.ReferenceIdeal.dot_S1600000x128_S128x144_S1600000x144_1_0_0_1_n_n.rhsBatch by decide), dif_pos (show (1 : Fin Cert.ReferenceIdeal.S128x144.rank) ∈ Cert.ReferenceIdeal.dot_S1600000x128_S128x144_S1600000x144_1_0_0_1_n_n.rhsNonContracting by decide)]
  rfl

/-- Entry (r, q) of all the source rows times the convolution weights: edge r's row against column q. -/
theorem wholeW_apply (x : FVec Ideal S1600000x128 .bf16) (w : FVec Ideal S128x144 .bf16) (r : Fin 1600000) (q : Fin 144) :
    Host.dotGeneral (F := Ideal) (φ₁ := .bf16) (φ₂ := .bf16) Cert.ReferenceIdeal.dot_S1600000x128_S128x144_S1600000x144_1_0_0_1_n_n none x w (ix2 r q)
      = ∑ k : Fin 128, x (ix2 r k) * w (ix2 k q) := by
  simp only [Host.dotGeneral]
  rw [Ideal.dotGeneral_apply, ← Equiv.sum_comp (contrEquiv1 Cert.ReferenceIdeal.dot_S1600000x128_S128x144_S1600000x144_1_0_0_1_n_n 128 rfl rfl).symm]
  refine Finset.sum_congr rfl fun k _ => ?_
  have hk := contrEquiv1_symm_val Cert.ReferenceIdeal.dot_S1600000x128_S128x144_S1600000x144_1_0_0_1_n_n 128 rfl rfl k
  have el : Cert.ReferenceIdeal.dot_S1600000x128_S128x144_S1600000x144_1_0_0_1_n_n.lhsIdx (ix2 r q) ((contrEquiv1 Cert.ReferenceIdeal.dot_S1600000x128_S128x144_S1600000x144_1_0_0_1_n_n 128 rfl rfl).symm k) = ix2 r k := funext fun a => Fin.ext (by
    match a with
    | ⟨0, _⟩ => exact wholeW_lhs_row _ _
    | ⟨1, _⟩ => exact (wholeW_lhs_col _ _).trans hk)
  have er : Cert.ReferenceIdeal.dot_S1600000x128_S128x144_S1600000x144_1_0_0_1_n_n.rhsIdx (ix2 r q) ((contrEquiv1 Cert.ReferenceIdeal.dot_S1600000x128_S128x144_S1600000x144_1_0_0_1_n_n 128 rfl rfl).symm k) = ix2 k q := funext fun a => Fin.ext (by
    match a with
    | ⟨0, _⟩ => exact (wholeW_rhs_row _ _).trans hk
    | ⟨1, _⟩ => exact wholeW_rhs_col _ _)
  rw [el, er]

/-! ### All the edge attributes times the gate weights -/

theorem wholeV_lhs_row (i : S1600000x144.Idx) (u : Cert.ReferenceIdeal.dot_S1600000x3_S3x144_S1600000x144_1_0_0_1_n_n.contr.Idx) :
    (Cert.ReferenceIdeal.dot_S1600000x3_S3x144_S1600000x144_1_0_0_1_n_n.lhsIdx i u 0).val = (i 0).val := by
  unfold DotDims.lhsIdx
  rw [dif_neg (show ¬(0 : Fin Cert.ReferenceIdeal.S1600000x3.rank) ∈ Cert.ReferenceIdeal.dot_S1600000x3_S3x144_S1600000x144_1_0_0_1_n_n.lhsBatch by decide), dif_pos (show (0 : Fin Cert.ReferenceIdeal.S1600000x3.rank) ∈ Cert.ReferenceIdeal.dot_S1600000x3_S3x144_S1600000x144_1_0_0_1_n_n.lhsNonContracting by decide)]
  rfl
theorem wholeV_lhs_col (i : S1600000x144.Idx) (u : Cert.ReferenceIdeal.dot_S1600000x3_S3x144_S1600000x144_1_0_0_1_n_n.contr.Idx) :
    (Cert.ReferenceIdeal.dot_S1600000x3_S3x144_S1600000x144_1_0_0_1_n_n.lhsIdx i u 1).val = (u ⟨0, by decide⟩).val :=
  Cert.ReferenceIdeal.dot_S1600000x3_S3x144_S1600000x144_1_0_0_1_n_n.lhsIdx_val_of_single rfl i u
theorem wholeV_rhs_row (i : S1600000x144.Idx) (u : Cert.ReferenceIdeal.dot_S1600000x3_S3x144_S1600000x144_1_0_0_1_n_n.contr.Idx) :
    (Cert.ReferenceIdeal.dot_S1600000x3_S3x144_S1600000x144_1_0_0_1_n_n.rhsIdx i u 0).val = (u ⟨0, by decide⟩).val :=
  Cert.ReferenceIdeal.dot_S1600000x3_S3x144_S1600000x144_1_0_0_1_n_n.rhsIdx_val_of_single rfl i u
theorem wholeV_rhs_col (i : S1600000x144.Idx) (u : Cert.ReferenceIdeal.dot_S1600000x3_S3x144_S1600000x144_1_0_0_1_n_n.contr.Idx) :
    (Cert.ReferenceIdeal.dot_S1600000x3_S3x144_S1600000x144_1_0_0_1_n_n.rhsIdx i u 1).val = (i 1).val := by
  unfold DotDims.rhsIdx
  rw [dif_neg (show ¬(1 : Fin Cert.ReferenceIdeal.S3x144.rank) ∈ Cert.ReferenceIdeal.dot_S1600000x3_S3x144_S1600000x144_1_0_0_1_n_n.rhsBatch by decide), dif_pos (show (1 : Fin Cert.ReferenceIdeal.S3x144.rank) ∈ Cert.ReferenceIdeal.dot_S1600000x3_S3x144_S1600000x144_1_0_0_1_n_n.rhsNonContracting by decide)]
  rfl

/-- Entry (r, q) of all the edge attributes times the gate weights: three products. -/
theorem wholeV_apply (x : FVec Ideal S1600000x3 .bf16) (w : FVec Ideal S3x144 .bf16) (r : Fin 1600000) (q : Fin 144) :
    Host.dotGeneral (F := Ideal) (φ₁ := .bf16) (φ₂ := .bf16) Cert.ReferenceIdeal.dot_S1600000x3_S3x144_S1600000x144_1_0_0_1_n_n none x w (ix2 r q)
      = ∑ k : Fin 3, x (ix2 r k) * w (ix2 k q) := by
  simp only [Host.dotGeneral]
  rw [Ideal.dotGeneral_apply, ← Equiv.sum_comp (contrEquiv1 Cert.ReferenceIdeal.dot_S1600000x3_S3x144_S1600000x144_1_0_0_1_n_n 3 rfl rfl).symm]
  refine Finset.sum_congr rfl fun k _ => ?_
  have hk := contrEquiv1_symm_val Cert.ReferenceIdeal.dot_S1600000x3_S3x144_S1600000x144_1_0_0_1_n_n 3 rfl rfl k
  have el : Cert.ReferenceIdeal.dot_S1600000x3_S3x144_S1600000x144_1_0_0_1_n_n.lhsIdx (ix2 r q) ((contrEquiv1 Cert.ReferenceIdeal.dot_S1600000x3_S3x144_S1600000x144_1_0_0_1_n_n 3 rfl rfl).symm k) = ix2 r k := funext fun a => Fin.ext (by
    match a with
    | ⟨0, _⟩ => exact wholeV_lhs_row _ _
    | ⟨1, _⟩ => exact (wholeV_lhs_col _ _).trans hk)
  have er : Cert.ReferenceIdeal.dot_S1600000x3_S3x144_S1600000x144_1_0_0_1_n_n.rhsIdx (ix2 r q) ((contrEquiv1 Cert.ReferenceIdeal.dot_S1600000x3_S3x144_S1600000x144_1_0_0_1_n_n 3 rfl rfl).symm k) = ix2 k q := funext fun a => Fin.ext (by
    match a with
    | ⟨0, _⟩ => exact (wholeV_rhs_row _ _).trans hk
    | ⟨1, _⟩ => exact wholeV_rhs_col _ _)
  rw [el, er]

/-! ## The message array as one function of the four arrays, and one entry of a block against it -/

/-- (rows · W) · (attributes · V), entry by entry over all 1600000 edges. -/
abbrev message (A0 : FVec Ideal S1600000x128 .bf16) (A1 : FVec Ideal S1600000x3 .bf16) (A2 : FVec Ideal S128x144 .bf16) (A3 : FVec Ideal S3x144 .bf16) :
    FVec Ideal S1600000x144 .f32 :=
  mulf (F := Ideal) (Host.dotGeneral (F := Ideal) (φ₁ := .bf16) (φ₂ := .bf16) Cert.ReferenceIdeal.dot_S1600000x128_S128x144_S1600000x144_1_0_0_1_n_n none A0 A2)
    (Host.dotGeneral (F := Ideal) (φ₁ := .bf16) (φ₂ := .bf16) Cert.ReferenceIdeal.dot_S1600000x3_S3x144_S1600000x144_1_0_0_1_n_n none A1 A3)

/-- Entry (p, q) of what the body stores is entry (r, q) of the message array, as soon as row p of each row block is
    row r of its array and column q of each weight block is column q of its weights: an entry of a matrix product sees
    one row of the left factor and one column of the right. -/
theorem block_entry (x0 : FVec Ideal S6400x128 .bf16) (x1 : FVec Ideal S6400x3 .bf16) (x2 : FVec Ideal S128x144 .bf16) (x3 : FVec Ideal S3x144 .bf16)
    (A0 : FVec Ideal S1600000x128 .bf16) (A1 : FVec Ideal S1600000x3 .bf16) (A2 : FVec Ideal S128x144 .bf16) (A3 : FVec Ideal S3x144 .bf16)
    (p : Fin 6400) (q : Fin 144) (r : Fin 1600000)
    (h0 : ∀ k : Fin 128, x0 (ix2 p k) = A0 (ix2 r k)) (h1 : ∀ k : Fin 3, x1 (ix2 p k) = A1 (ix2 r k))
    (h2 : ∀ k : Fin 128, x2 (ix2 k q) = A2 (ix2 k q)) (h3 : ∀ k : Fin 3, x3 (ix2 k q) = A3 (ix2 k q)) :
    k0_pay1 (F := Ideal) x0 x2 x1 x3 (ix2 p q) = message A0 A1 A2 A3 (ix2 r q) := by
  unfold k0_pay1 message
  simp only [shapeCast_self]
  rw [mulf_apply, mulf_apply, blockW_apply, blockV_apply, wholeW_apply, wholeV_apply]
  congr 1
  · exact Finset.sum_congr rfl fun k _ => by rw [h0 k, h2 k]
  · exact Finset.sum_congr rfl fun k _ => by rw [h1 k, h3 k]

/-! ## The blocks of a grid point, read off the arrays -/

theorem zero_offsets : (![0, 0] : Fin 2 → Nat) = fun _ => 0 := funext fun a => by fin_cases a <;> rfl

/-- The windows' index maps over the 250 grid points: the three row-blocked windows sit at block row t, column
    block 0; the two weight windows are the whole matrix at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 250 := t.isLt

/-- Row p of block t is edge 6400·t + p. -/
def edgeOf (t : Fin cfg0.N) (p : Fin 6400) : Fin 1600000 :=
  ⟨6400 * t.val + p.val, by have := point_lt t; have := p.isLt; omega⟩

/-- Row p of point t's block of source rows is edge 6400·t + p's row. -/
theorem srcBlock_apply (t : Fin cfg0.N) (p : Fin 6400) (k : Fin 128) :
    iblk0 (F := Ideal) V c 0 t (ix2 p k) = V c main_v11 (ix2 (edgeOf t p) k) := by
  obtain ⟨e0, e1, -⟩ := index_facts t
  show V c main_v11 (((cfg0.win 0).blk t).view.emb (ix2 p k)) = _
  refine congrArg _ (funext fun a => Fin.ext ?_)
  match a with
  | ⟨0, _⟩ => show win0_0.index t (0 : Fin 2) * 6400 + 1 * p.val = 6400 * t.val + p.val; omega
  | ⟨1, _⟩ => show win0_0.index t (1 : Fin 2) * 128 + 1 * k.val = k.val; omega

/-- Row p of point t's block of edge attributes is edge 6400·t + p's attributes. -/
theorem attrBlock_apply (t : Fin cfg0.N) (p : Fin 6400) (k : Fin 3) :
    iblk0 (F := Ideal) V c 1 t (ix2 p k) = V c main_v12 (ix2 (edgeOf t p) k) := by
  obtain ⟨-, -, e2, e3, -⟩ := index_facts t
  show V c main_v12 (((cfg0.win 1).blk t).view.emb (ix2 p k)) = _
  refine congrArg _ (funext fun a => Fin.ext ?_)
  match a with
  | ⟨0, _⟩ => show win0_1.index t (0 : Fin 2) * 6400 + 1 * p.val = 6400 * t.val + p.val; omega
  | ⟨1, _⟩ => show win0_1.index t (1 : Fin 2) * 3 + 1 * k.val = k.val; omega

/-- Every point's block of convolution weights is the whole matrix. -/
theorem convWBlock_apply (t : Fin cfg0.N) (k : Fin 128) (q : Fin 144) :
    iblk0 (F := Ideal) V c 2 t (ix2 k q) = V c main_v13 (ix2 k q) := by
  obtain ⟨-, -, -, -, e4, e5, -⟩ := index_facts t
  show V c main_v13 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 144 + 1 * q.val = q.val; omega

/-- Every point's block of gate weights is the whole matrix. -/
theorem convVBlock_apply (t : Fin cfg0.N) (k : Fin 3) (q : Fin 144) :
    iblk0 (F := Ideal) V c 3 t (ix2 k q) = V c main_v14 (ix2 k q) := by
  obtain ⟨-, -, -, -, -, -, e6, e7, -⟩ := index_facts t
  show V c main_v14 (((cfg0.win 3).blk t).view.emb (ix2 k q)) = _
  refine congrArg _ (funext fun a => Fin.ext ?_)
  match a with
  | ⟨0, _⟩ => show win0_3.index t (0 : Fin 2) * 3 + 1 * k.val = k.val; omega
  | ⟨1, _⟩ => show win0_3.index t (1 : Fin 2) * 144 + 1 * q.val = q.val; omega

/-- Entry (p, q) of point t's output block sits at (6400·t + p, q) of the message array. -/
theorem outBlock_emb (t : Fin cfg0.N) (p : Fin 6400) (q : Fin 144) :
    ((cfg0.win 4).blk t).view.emb (ix2 p q) = ix2 (edgeOf t p) q := by
  obtain ⟨-, -, -, -, -, -, -, -, e8, e9⟩ := index_facts t
  refine funext fun a => Fin.ext ?_
  match a with
  | ⟨0, _⟩ => show win0_4.index t (0 : Fin 2) * 6400 + 1 * p.val = 6400 * t.val + p.val; omega
  | ⟨1, _⟩ => show win0_4.index t (1 : Fin 2) * 144 + 1 * q.val = q.val; omega

/-! ## What a point writes back, the cover, and the array -/

/-- What point t writes back is block t of the message array of the four arrays as the region finds them. -/
theorem flushed_eq (t : Fin cfg0.N) :
    (dat0 (F := Ideal) V c).flushed 4 t
      = ((cfg0.win 4).blk t).view.read (Elt Ideal) (message (V c main_v11) (V c main_v12) (V c main_v13) (V c main_v14)) := by
  show (cfg0.win 4).cut (grid0.coords t) ((dat0 (F := Ideal) V c).after 4 t) = _
  rw [after0_4]
  unfold out0_4
  rw [View.canon_unit_zero zero_offsets]
  simp only [View.ld_unit_zero (S := S6400x128) zero_offsets, View.ld_unit_zero (S := S6400x3) zero_offsets,
    View.ld_unit_zero (S := S128x144) zero_offsets, View.ld_unit_zero (S := S3x144) zero_offsets]
  funext j
  obtain ⟨p, q, rfl⟩ : ∃ (p : Fin 6400) (q : Fin 144), j = ix2 p q := ⟨j 0, j 1, eq_ix2 j⟩
  show k0_pay1 (F := Ideal) (iblk0 V c 0 t) (iblk0 V c 2 t) (iblk0 V c 1 t) (iblk0 V c 3 t) (ix2 p q)
      = message (V c main_v11) (V c main_v12) (V c main_v13) (V c main_v14) (((cfg0.win 4).blk t).view.emb (ix2 p q))
  rw [outBlock_emb t p q]
  exact block_entry _ _ _ _ _ _ _ _ p q (edgeOf t p) (srcBlock_apply V c t p) (attrBlock_apply V c t p)
    (fun k => convWBlock_apply V c t k q) (fun k => convVBlock_apply V c t k q)

/-- An index of the message array is in point t's block iff each coordinate is in the block's range on its axis. -/
theorem mem_blk (t : Fin cfg0.N) (i : S1600000x144.Idx) :
    i ∈ ((cfg0.win 4).blk t).view.set
      ↔ ∀ a : Fin 2, win0_4.index t a * S6400x144.size a ≤ (i a).val ∧ (i a).val < win0_4.index t a * S6400x144.size a + S6400x144.size a := by
  show i ∈ ((View.whole main_v15).slice (win0_4.rect t)).set ↔ _
  rw [View.set_slice_whole, Rect.mem_set_unit]
  exact Iff.rfl

/-- The 250 blocks of 6400 rows tile the 1600000 rows: edge r lies in the block of point r / 6400. -/
theorem cover (i : S1600000x144.Idx) :
    ∃ t : Fin cfg0.N, (cfg0.win 4).flush t = true ∧ i ∈ ((cfg0.win 4).blk t).view.set := by
  have hi0 : (i 0).val < 1600000 := (i 0).isLt
  have hi1 : (i 1).val < 144 := (i 1).isLt
  have ht : (i 0).val / 6400 < cfg0.N := by show (i 0).val / 6400 < 250; omega
  refine ⟨⟨(i 0).val / 6400, ht⟩, flush0_4 _, ?_⟩
  rw [mem_blk]
  obtain ⟨-, -, -, -, -, -, -, -, e8, e9⟩ := index_facts ⟨(i 0).val / 6400, ht⟩
  intro a
  match a with
  | ⟨0, _⟩ =>
    show win0_4.index ⟨(i 0).val / 6400, ht⟩ (0 : Fin 2) * 6400 ≤ (i 0).val
      ∧ (i 0).val < win0_4.index ⟨(i 0).val / 6400, ht⟩ (0 : Fin 2) * 6400 + 6400
    rw [e8]
    show (i 0).val / 6400 * 6400 ≤ (i 0).val ∧ (i 0).val < (i 0).val / 6400 * 6400 + 6400
    omega
  | ⟨1, _⟩ =>
    show win0_4.index ⟨(i 0).val / 6400, ht⟩ (1 : Fin 2) * 144 ≤ (i 1).val
      ∧ (i 1).val < win0_4.index ⟨(i 0).val / 6400, ht⟩ (1 : Fin 2) * 144 + 144
    omega

/-- After the region its output array holds, entry by entry, (rows · W) · (attributes · V). -/
theorem edge_message :
    ((dat0 (F := Ideal) V c).arrAt 4 cfg0.N : Vec Ideal S1600000x144 .f32)
      = mulf (F := Ideal) (Host.dotGeneral (F := Ideal) (φ₁ := .bf16) (φ₂ := .bf16) Cert.ReferenceIdeal.dot_S1600000x128_S128x144_S1600000x144_1_0_0_1_n_n none (srcRows V c) (convW V c))
          (Host.dotGeneral (F := Ideal) (φ₁ := .bf16) (φ₂ := .bf16) Cert.ReferenceIdeal.dot_S1600000x3_S3x144_S1600000x144_1_0_0_1_n_n none (edgeAttr V c) (convV V c)) :=
  (dat0 (F := Ideal) V c).arrAt_eq_of_cover 4 (message (V c main_v11) (V c main_v12) (V c main_v13) (V c main_v14))
    (fun t _ => flushed_eq V c t) cover

end Cert.KernelIdeal.EdgeMessage

end
-- ==== Proof.GatherMessage.lean ====
/-
  The gather-message region, read as a value at the extended reals. Each grid point takes 10000 child
  points: the block of repeated node features times the gather weights, and the block of relative
  positions times the gate weights, multiplied entry by entry. Row r of block t is child 10000·t + r, so
  the 40 blocks together are the two whole products multiplied entry by entry.
-/
import proofs.«428030_j58119497450175_2_alg».proof.Proof.Gen.KernelIdeal.Frame
import proofs.«428030_j58119497450175_2_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.GatherMessage

open Idealize.ShloMosaic Idealize.ShloMosaic.TcCoe Idealize.SL.Sem
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b)) (c : Dev nD)

/-- The node features, each row laid out once per child. -/
abbrev repRows : FVec Ideal S400000x128 .bf16 := V c main_v48
/-- Each child's position relative to its cluster centre. -/
abbrev gatherAttr : FVec Ideal S400000x3 .bf16 := V c main_v49
/-- The gather weights. -/
abbrev gatherW : FVec Ideal S128x128 .bf16 := V c main_v50
/-- The gate weights. -/
abbrev gatherV : FVec Ideal S3x128 .bf16 := V c main_v51

/-! ## The four contractions read at an index

Each product contracts one axis: the 128 features of a row against the gather weights, the 3 coordinates of a
relative position against the gate weights. Entry (row, q) is the sum over k of x(row, k) · w(k, q), for one
block of 10000 rows on the matrix unit and for all 400000 rows on the host alike. -/

/-- The host's contraction record for the rows against the gather weights. -/
abbrev rowsDot := Cert.ReferenceIdeal.dot_S400000x128_S128x128_S400000x128_1_0_0_1_n_n
/-- The host's contraction record for the relative positions against the gate weights. -/
abbrev attrDot := Cert.ReferenceIdeal.dot_S400000x3_S3x128_S400000x128_1_0_0_1_n_n
/-- One block's contraction record for the rows against the gather weights. -/
abbrev blkRowsDot := dot_S10000x128_S128x128_S10000x128_1_0_0_1_n_n
/-- One block's contraction record for the relative positions against the gate weights. -/
abbrev blkAttrDot := dot_S10000x3_S3x128_S10000x128_1_0_0_1_n_n

/-- Rows · W over the whole array: the left operand's row is the output's row. -/
theorem rows_lhs_0 (i : Cert.ReferenceIdeal.S400000x128.Idx) (q : Cert.ReferenceIdeal.dot_S400000x128_S128x128_S400000x128_1_0_0_1_n_n.contr.Idx) :
    (Cert.ReferenceIdeal.dot_S400000x128_S128x128_S400000x128_1_0_0_1_n_n.lhsIdx i q 0).val = (i 0).val := by
  unfold DotDims.lhsIdx
  rw [dif_neg (show ¬(0 : Fin Cert.ReferenceIdeal.S400000x128.rank) ∈ Cert.ReferenceIdeal.dot_S400000x128_S128x128_S400000x128_1_0_0_1_n_n.lhsBatch by decide), dif_pos (show (0 : Fin Cert.ReferenceIdeal.S400000x128.rank) ∈ Cert.ReferenceIdeal.dot_S400000x128_S128x128_S400000x128_1_0_0_1_n_n.lhsNonContracting by decide)]
  rfl
/-- Rows · W over the whole array: the left operand's feature is the contraction index. -/
theorem rows_lhs_1 (i : Cert.ReferenceIdeal.S400000x128.Idx) (q : Cert.ReferenceIdeal.dot_S400000x128_S128x128_S400000x128_1_0_0_1_n_n.contr.Idx) :
    (Cert.ReferenceIdeal.dot_S400000x128_S128x128_S400000x128_1_0_0_1_n_n.lhsIdx i q 1).val = (q ⟨0, by decide⟩).val :=
  Cert.ReferenceIdeal.dot_S400000x128_S128x128_S400000x128_1_0_0_1_n_n.lhsIdx_val_of_single rfl i q
/-- Rows · W over the whole array: the weights' row is the contraction index. -/
theorem rows_rhs_0 (i : Cert.ReferenceIdeal.S400000x128.Idx) (q : Cert.ReferenceIdeal.dot_S400000x128_S128x128_S400000x128_1_0_0_1_n_n.contr.Idx) :
    (Cert.ReferenceIdeal.dot_S400000x128_S128x128_S400000x128_1_0_0_1_n_n.rhsIdx i q 0).val = (q ⟨0, by decide⟩).val :=
  Cert.ReferenceIdeal.dot_S400000x128_S128x128_S400000x128_1_0_0_1_n_n.rhsIdx_val_of_single rfl i q
/-- Rows · W over the whole array: the weights' column is the output's column. -/
theorem rows_rhs_1 (i : Cert.ReferenceIdeal.S400000x128.Idx) (q : Cert.ReferenceIdeal.dot_S400000x128_S128x128_S400000x128_1_0_0_1_n_n.contr.Idx) :
    (Cert.ReferenceIdeal.dot_S400000x128_S128x128_S400000x128_1_0_0_1_n_n.rhsIdx i q 1).val = (i 1).val := by
  unfold DotDims.rhsIdx
  rw [dif_neg (show ¬(1 : Fin Cert.ReferenceIdeal.S128x128.rank) ∈ Cert.ReferenceIdeal.dot_S400000x128_S128x128_S400000x128_1_0_0_1_n_n.rhsBatch by decide), dif_pos (show (1 : Fin Cert.ReferenceIdeal.S128x128.rank) ∈ Cert.ReferenceIdeal.dot_S400000x128_S128x128_S400000x128_1_0_0_1_n_n.rhsNonContracting by decide)]
  rfl

/-- Positions · V over the whole array: the left operand's row is the output's row. -/
theorem attr_lhs_0 (i : Cert.ReferenceIdeal.S400000x128.Idx) (q : Cert.ReferenceIdeal.dot_S400000x3_S3x128_S400000x128_1_0_0_1_n_n.contr.Idx) :
    (Cert.ReferenceIdeal.dot_S400000x3_S3x128_S400000x128_1_0_0_1_n_n.lhsIdx i q 0).val = (i 0).val := by
  unfold DotDims.lhsIdx
  rw [dif_neg (show ¬(0 : Fin Cert.ReferenceIdeal.S400000x3.rank) ∈ Cert.ReferenceIdeal.dot_S400000x3_S3x128_S400000x128_1_0_0_1_n_n.lhsBatch by decide), dif_pos (show (0 : Fin Cert.ReferenceIdeal.S400000x3.rank) ∈ Cert.ReferenceIdeal.dot_S400000x3_S3x128_S400000x128_1_0_0_1_n_n.lhsNonContracting by decide)]
  rfl
/-- Positions · V over the whole array: the left operand's coordinate is the contraction index. -/
theorem attr_lhs_1 (i : Cert.ReferenceIdeal.S400000x128.Idx) (q : Cert.ReferenceIdeal.dot_S400000x3_S3x128_S400000x128_1_0_0_1_n_n.contr.Idx) :
    (Cert.ReferenceIdeal.dot_S400000x3_S3x128_S400000x128_1_0_0_1_n_n.lhsIdx i q 1).val = (q ⟨0, by decide⟩).val :=
  Cert.ReferenceIdeal.dot_S400000x3_S3x128_S400000x128_1_0_0_1_n_n.lhsIdx_val_of_single rfl i q
/-- Positions · V over the whole array: the gate weights' row is the contraction index. -/
theorem attr_rhs_0 (i : Cert.ReferenceIdeal.S400000x128.Idx) (q : Cert.ReferenceIdeal.dot_S400000x3_S3x128_S400000x128_1_0_0_1_n_n.contr.Idx) :
    (Cert.ReferenceIdeal.dot_S400000x3_S3x128_S400000x128_1_0_0_1_n_n.rhsIdx i q 0).val = (q ⟨0, by decide⟩).val :=
  Cert.ReferenceIdeal.dot_S400000x3_S3x128_S400000x128_1_0_0_1_n_n.rhsIdx_val_of_single rfl i q
/-- Positions · V over the whole array: the gate weights' column is the output's column. -/
theorem attr_rhs_1 (i : Cert.ReferenceIdeal.S400000x128.Idx) (q : Cert.ReferenceIdeal.dot_S400000x3_S3x128_S400000x128_1_0_0_1_n_n.contr.Idx) :
    (Cert.ReferenceIdeal.dot_S400000x3_S3x128_S400000x128_1_0_0_1_n_n.rhsIdx i q 1).val = (i 1).val := by
  unfold DotDims.rhsIdx
  rw [dif_neg (show ¬(1 : Fin Cert.ReferenceIdeal.S3x128.rank) ∈ Cert.ReferenceIdeal.dot_S400000x3_S3x128_S400000x128_1_0_0_1_n_n.rhsBatch by decide), dif_pos (show (1 : Fin Cert.ReferenceIdeal.S3x128.rank) ∈ Cert.ReferenceIdeal.dot_S400000x3_S3x128_S400000x128_1_0_0_1_n_n.rhsNonContracting by decide)]
  rfl

/-- Rows · W over one block: the left operand's row is the output's row. -/
theorem blkRows_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Rows · W over one block: the left operand's feature is the contraction index. -/
theorem blkRows_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Rows · W over one block: the weights' row is the contraction index. -/
theorem blkRows_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Rows · W over one block: the weights' column is the output's column. -/
theorem blkRows_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Positions · V over one block: the left operand's row is the output's row. -/
theorem blkAttr_lhs_0 (i : S10000x128.Idx) (q : dot_S10000x3_S3x128_S10000x128_1_0_0_1_n_n.contr.Idx) :
    (dot_S10000x3_S3x128_S10000x128_1_0_0_1_n_n.lhsIdx i q 0).val = (i 0).val := by
  unfold DotDims.lhsIdx
  rw [dif_neg (show ¬(0 : Fin S10000x3.rank) ∈ dot_S10000x3_S3x128_S10000x128_1_0_0_1_n_n.lhsBatch by decide), dif_pos (show (0 : Fin S10000x3.rank) ∈ dot_S10000x3_S3x128_S10000x128_1_0_0_1_n_n.lhsNonContracting by decide)]
  rfl
/-- Positions · V over one block: the left operand's coordinate is the contraction index. -/
theorem blkAttr_lhs_1 (i : S10000x128.Idx) (q : dot_S10000x3_S3x128_S10000x128_1_0_0_1_n_n.contr.Idx) :
    (dot_S10000x3_S3x128_S10000x128_1_0_0_1_n_n.lhsIdx i q 1).val = (q ⟨0, by decide⟩).val :=
  dot_S10000x3_S3x128_S10000x128_1_0_0_1_n_n.lhsIdx_val_of_single rfl i q
/-- Positions · V over one block: the gate weights' row is the contraction index. -/
theorem blkAttr_rhs_0 (i : S10000x128.Idx) (q : dot_S10000x3_S3x128_S10000x128_1_0_0_1_n_n.contr.Idx) :
    (dot_S10000x3_S3x128_S10000x128_1_0_0_1_n_n.rhsIdx i q 0).val = (q ⟨0, by decide⟩).val :=
  dot_S10000x3_S3x128_S10000x128_1_0_0_1_n_n.rhsIdx_val_of_single rfl i q
/-- Positions · V over one block: the gate weights' column is the output's column. -/
theorem blkAttr_rhs_1 (i : S10000x128.Idx) (q : dot_S10000x3_S3x128_S10000x128_1_0_0_1_n_n.contr.Idx) :
    (dot_S10000x3_S3x128_S10000x128_1_0_0_1_n_n.rhsIdx i q 1).val = (i 1).val := by
  unfold DotDims.rhsIdx
  rw [dif_neg (show ¬(1 : Fin S3x128.rank) ∈ dot_S10000x3_S3x128_S10000x128_1_0_0_1_n_n.rhsBatch by decide), dif_pos (show (1 : Fin S3x128.rank) ∈ dot_S10000x3_S3x128_S10000x128_1_0_0_1_n_n.rhsNonContracting by decide)]
  rfl

/-- Rows · W over the whole array at child `p`, column `q`: the sum over the 128 features. -/
theorem rowsTerm_apply (x : FVec Ideal S400000x128 .bf16) (w : FVec Ideal S128x128 .bf16) (p : Fin 400000) (q : Fin 128) :
    Host.dotGeneral (F := Ideal) (φ₁ := .bf16) (φ₂ := .bf16) rowsDot none x w (ix2 p q) = ∑ k : Fin 128, x (ix2 p k) * w (ix2 k q) := by
  simp only [Host.dotGeneral]
  rw [Ideal.dotGeneral_apply, ← Equiv.sum_comp (contrEquiv1 rowsDot 128 rfl rfl).symm]
  refine Finset.sum_congr rfl fun k _ => ?_
  have hk := contrEquiv1_symm_val rowsDot 128 rfl rfl k
  have el : rowsDot.lhsIdx (ix2 p q) ((contrEquiv1 rowsDot 128 rfl rfl).symm k) = ix2 p k := funext fun a => Fin.ext (by
    match a with
    | ⟨0, _⟩ => exact rows_lhs_0 _ _
    | ⟨1, _⟩ => exact (rows_lhs_1 _ _).trans hk)
  have er : rowsDot.rhsIdx (ix2 p q) ((contrEquiv1 rowsDot 128 rfl rfl).symm k) = ix2 k q := funext fun a => Fin.ext (by
    match a with
    | ⟨0, _⟩ => exact (rows_rhs_0 _ _).trans hk
    | ⟨1, _⟩ => exact rows_rhs_1 _ _)
  rw [el, er]

/-- Positions · V over the whole array at child `p`, column `q`: the sum over the 3 coordinates. -/
theorem attrTerm_apply (x : FVec Ideal S400000x3 .bf16) (w : FVec Ideal S3x128 .bf16) (p : Fin 400000) (q : Fin 128) :
    Host.dotGeneral (F := Ideal) (φ₁ := .bf16) (φ₂ := .bf16) attrDot none x w (ix2 p q) = ∑ k : Fin 3, x (ix2 p k) * w (ix2 k q) := by
  simp only [Host.dotGeneral]
  rw [Ideal.dotGeneral_apply, ← Equiv.sum_comp (contrEquiv1 attrDot 3 rfl rfl).symm]
  refine Finset.sum_congr rfl fun k _ => ?_
  have hk := contrEquiv1_symm_val attrDot 3 rfl rfl k
  have el : attrDot.lhsIdx (ix2 p q) ((contrEquiv1 attrDot 3 rfl rfl).symm k) = ix2 p k := funext fun a => Fin.ext (by
    match a with
    | ⟨0, _⟩ => exact attr_lhs_0 _ _
    | ⟨1, _⟩ => exact (attr_lhs_1 _ _).trans hk)
  have er : attrDot.rhsIdx (ix2 p q) ((contrEquiv1 attrDot 3 rfl rfl).symm k) = ix2 k q := funext fun a => Fin.ext (by
    match a with
    | ⟨0, _⟩ => exact (attr_rhs_0 _ _).trans hk
    | ⟨1, _⟩ => exact attr_rhs_1 _ _)
  rw [el, er]

/-- One block's rows · W into a zero accumulator at row `r`, column `q`: the same sum over the block's row. -/
theorem blkRowsTerm_apply (x : FVec Ideal S10000x128 .bf16) (w : FVec Ideal S128x128 .bf16) (r : Fin 10000) (q : Fin 128) :
    matmul (F := Ideal) blkRowsDot none x w (constant (F := Ideal) S10000x128 .f32 0x00000000#32) (ix2 r q) = ∑ k : Fin 128, x (ix2 r k) * w (ix2 k q) := by
  refine (Ideal.matmul_constant_zero_apply blkRowsDot none x w (ix2 r q)).trans ?_
  rw [← Equiv.sum_comp (contrEquiv1 blkRowsDot 128 rfl rfl).symm]
  refine Finset.sum_congr rfl fun k _ => ?_
  have hk := contrEquiv1_symm_val blkRowsDot 128 rfl rfl k
  have el : blkRowsDot.lhsIdx (ix2 r q) ((contrEquiv1 blkRowsDot 128 rfl rfl).symm k) = ix2 r k := funext fun a => Fin.ext (by
    match a with
    | ⟨0, _⟩ => exact blkRows_lhs_0 _ _
    | ⟨1, _⟩ => exact (blkRows_lhs_1 _ _).trans hk)
  have er : blkRowsDot.rhsIdx (ix2 r q) ((contrEquiv1 blkRowsDot 128 rfl rfl).symm k) = ix2 k q := funext fun a => Fin.ext (by
    match a with
    | ⟨0, _⟩ => exact (blkRows_rhs_0 _ _).trans hk
    | ⟨1, _⟩ => exact blkRows_rhs_1 _ _)
  rw [el, er]

/-- One block's positions · V into a zero accumulator at row `r`, column `q`: the same sum over the block's row. -/
theorem blkAttrTerm_apply (x : FVec Ideal S10000x3 .bf16) (w : FVec Ideal S3x128 .bf16) (r : Fin 10000) (q : Fin 128) :
    matmul (F := Ideal) blkAttrDot none x w (constant (F := Ideal) S10000x128 .f32 0x00000000#32) (ix2 r q) = ∑ k : Fin 3, x (ix2 r k) * w (ix2 k q) := by
  refine (Ideal.matmul_constant_zero_apply blkAttrDot none x w (ix2 r q)).trans ?_
  rw [← Equiv.sum_comp (contrEquiv1 blkAttrDot 3 rfl rfl).symm]
  refine Finset.sum_congr rfl fun k _ => ?_
  have hk := contrEquiv1_symm_val blkAttrDot 3 rfl rfl k
  have el : blkAttrDot.lhsIdx (ix2 r q) ((contrEquiv1 blkAttrDot 3 rfl rfl).symm k) = ix2 r k := funext fun a => Fin.ext (by
    match a with
    | ⟨0, _⟩ => exact blkAttr_lhs_0 _ _
    | ⟨1, _⟩ => exact (blkAttr_lhs_1 _ _).trans hk)
  have er : blkAttrDot.rhsIdx (ix2 r q) ((contrEquiv1 blkAttrDot 3 rfl rfl).symm k) = ix2 k q := funext fun a => Fin.ext (by
    match a with
    | ⟨0, _⟩ => exact (blkAttr_rhs_0 _ _).trans hk
    | ⟨1, _⟩ => exact blkAttr_rhs_1 _ _)
  rw [el, er]

/-! ## One block's result and the whole array's, entry by entry -/

/-- The block's result at row `r`, column `q`: the row's features against column `q` of the gather weights,
    times the row's relative position against column `q` of the gate weights. -/
theorem payload_apply (x : FVec Ideal S10000x128 .bf16) (w : FVec Ideal S128x128 .bf16) (a : FVec Ideal S10000x3 .bf16) (v : FVec Ideal S3x128 .bf16) (r : Fin 10000) (q : Fin 128) :
    k2_pay1 (F := Ideal) x w a v (ix2 r q) = (∑ k : Fin 128, x (ix2 r k) * w (ix2 k q)) * (∑ k : Fin 3, a (ix2 r k) * v (ix2 k q)) := by
  unfold k2_pay1
  simp only [shapeCast_self]
  show matmul (F := Ideal) blkRowsDot none x w (constant (F := Ideal) S10000x128 .f32 0x00000000#32) (ix2 r q)
      * matmul (F := Ideal) blkAttrDot none a v (constant (F := Ideal) S10000x128 .f32 0x00000000#32) (ix2 r q) = _
  rw [blkRowsTerm_apply, blkAttrTerm_apply]

/-- The two whole products multiplied entry by entry, at child `p` and column `q`. -/
theorem whole_apply (X : FVec Ideal S400000x128 .bf16) (W : FVec Ideal S128x128 .bf16) (A : FVec Ideal S400000x3 .bf16) (U : FVec Ideal S3x128 .bf16) (p : Fin 400000) (q : Fin 128) :
    mulf (F := Ideal) (Host.dotGeneral (F := Ideal) (φ₁ := .bf16) (φ₂ := .bf16) rowsDot none X W)
        (Host.dotGeneral (F := Ideal) (φ₁ := .bf16) (φ₂ := .bf16) attrDot none A U) (ix2 p q)
      = (∑ k : Fin 128, X (ix2 p k) * W (ix2 k q)) * (∑ k : Fin 3, A (ix2 p k) * U (ix2 k q)) := by
  show Host.dotGeneral (F := Ideal) (φ₁ := .bf16) (φ₂ := .bf16) rowsDot none X W (ix2 p q)
      * Host.dotGeneral (F := Ideal) (φ₁ := .bf16) (φ₂ := .bf16) attrDot none A U (ix2 p q) = _
  rw [rowsTerm_apply, attrTerm_apply]

/-- Child `b · 10000 + r`: row `r` of block `b`. -/
abbrev childOf (b : Nat) (hb : b < 40) (r : Fin 10000) : Fin 400000 := ⟨b * 10000 + r.val, by omega⟩

/-- ONE BLOCK IS ITS ROWS OF THE WHOLE RESULT. If the block `x` of rows and the block `a` of relative positions are
    rows `b · 10000 …` of the arrays `X` and `A`, and the two weight matrices are `W` and `U`, the block's result at
    row `r` is the whole-array result at child `b · 10000 + r`: an entry of either product depends on its own row only. -/
theorem block_is_rows (X : FVec Ideal S400000x128 .bf16) (W : FVec Ideal S128x128 .bf16) (A : FVec Ideal S400000x3 .bf16) (U : FVec Ideal S3x128 .bf16)
    (x : FVec Ideal S10000x128 .bf16) (w : FVec Ideal S128x128 .bf16) (a : FVec Ideal S10000x3 .bf16) (v : FVec Ideal S3x128 .bf16) (b : Nat) (hb : b < 40)
    (hx : ∀ (r : Fin 10000) (k : Fin 128), x (ix2 r k) = X (ix2 (childOf b hb r) k))
    (ha : ∀ (r : Fin 10000) (k : Fin 3), a (ix2 r k) = A (ix2 (childOf b hb r) k))
    (hw : w = W) (hv : v = U) (r : Fin 10000) (q : Fin 128) :
    k2_pay1 (F := Ideal) x w a v (ix2 r q)
      = mulf (F := Ideal) (Host.dotGeneral (F := Ideal) (φ₁ := .bf16) (φ₂ := .bf16) rowsDot none X W)
          (Host.dotGeneral (F := Ideal) (φ₁ := .bf16) (φ₂ := .bf16) attrDot none A U) (ix2 (childOf b hb r) q) := by
  rw [payload_apply, whole_apply, hw, hv]
  congr 1
  · exact Finset.sum_congr rfl fun k _ => by rw [hx]
  · exact Finset.sum_congr rfl fun k _ => by rw [ha]

/-! ## The blocks a grid point reads and writes

Grid point `t` takes rows `10000·t … 10000·t + 9999` of the repeated node rows and of the relative positions,
both weight matrices whole, and writes rows `10000·t …` of the output. -/

/-- The body reads and writes each staging buffer from offset (0, 0): whole blocks. -/
theorem hz : (![0, 0] : Fin 2 → Nat) = fun _ => 0 := funext fun a => by fin_cases a <;> rfl

/-- The block indices of the five windows, decided over the 40 grid points: the row-blocked windows sit at block
    row `t`, block column 0; each weight matrix at block (0, 0). -/
theorem blockIndex : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A grid point is below 40. -/
theorem point_lt (t : Fin cfg2.N) : t.val < 40 := Nat.lt_of_lt_of_eq t.isLt (N_2 : cfg2.N = 40)

/-- The block of repeated node rows at point `t`: row `r` is child `10000·t + r`. -/
theorem rowsBlock_apply (t : Fin cfg2.N) (r : Fin 10000) (k : Fin 128) :
    (iblk2 V c 0 t : Vec Ideal S10000x128 .bf16) (ix2 r k) = repRows V c (ix2 (childOf t.val (point_lt t) r) k) := by
  obtain ⟨e0, e1, -⟩ := blockIndex t
  unfold iblk2
  rw [View.read_apply]
  show V c main_v48 _ = V c main_v48 _
  congr 1
  funext a
  apply Fin.ext
  match a with
  | ⟨0, _⟩ => show win2_0.index t (0 : Fin 2) * 10000 + 1 * r.val = t.val * 10000 + r.val; rw [e0]; omega
  | ⟨1, _⟩ => show win2_0.index t (1 : Fin 2) * 128 + 1 * k.val = k.val; rw [e1]; omega

/-- The block of relative positions at point `t`: row `r` is child `10000·t + r`. -/
theorem attrBlock_apply (t : Fin cfg2.N) (r : Fin 10000) (k : Fin 3) :
    (iblk2 V c 1 t : Vec Ideal S10000x3 .bf16) (ix2 r k) = gatherAttr V c (ix2 (childOf t.val (point_lt t) r) k) := by
  obtain ⟨-, -, e0, e1, -⟩ := blockIndex t
  unfold iblk2
  rw [View.read_apply]
  show V c main_v49 _ = V c main_v49 _
  congr 1
  funext a
  apply Fin.ext
  match a with
  | ⟨0, _⟩ => show win2_1.index t (0 : Fin 2) * 10000 + 1 * r.val = t.val * 10000 + r.val; rw [e0]; omega
  | ⟨1, _⟩ => show win2_1.index t (1 : Fin 2) * 3 + 1 * k.val = k.val; rw [e1]; omega

/-- The gather weights' one block is the whole matrix at every point. -/
theorem gatherBlock_eq (t : Fin cfg2.N) : (iblk2 V c 2 t : Vec Ideal S128x128 .bf16) = gatherW V c := by
  obtain ⟨-, -, -, -, e0, e1, -⟩ := blockIndex t
  funext j
  obtain ⟨k, q, rfl⟩ : ∃ (k : Fin 128) (q : Fin 128), j = ix2 k q := ⟨j 0, j 1, eq_ix2 j⟩
  unfold iblk2
  rw [View.read_apply]
  show V c main_v50 _ = V c main_v50 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The gate weights' one block is the whole matrix at every point. -/
theorem gateBlock_eq (t : Fin cfg2.N) : (iblk2 V c 3 t : Vec Ideal S3x128 .bf16) = gatherV V c := by
  obtain ⟨-, -, -, -, -, -, e0, e1, -⟩ := blockIndex t
  funext j
  obtain ⟨k, q, rfl⟩ : ∃ (k : Fin 3) (q : Fin 128), j = ix2 k q := ⟨j 0, j 1, eq_ix2 j⟩
  unfold iblk2
  rw [View.read_apply]
  show V c main_v51 _ = V c main_v51 _
  congr 1
  funext a
  apply Fin.ext
  match a with
  | ⟨0, _⟩ => show win2_3.index t (0 : Fin 2) * 3 + 1 * k.val = k.val; rw [e0]; omega
  | ⟨1, _⟩ => show win2_3.index t (1 : Fin 2) * 128 + 1 * q.val = q.val; rw [e1]; omega

/-- WHAT POINT `t` WRITES BACK is block `t` of the two whole products multiplied entry by entry. -/
theorem flushed_eq (t : Fin cfg2.N) :
    (dat2 (F := Ideal) V c).flushed 4 t = ((cfg2.win 4).blk t).view.read (Elt Ideal)
      (mulf (F := Ideal) (Host.dotGeneral (F := Ideal) (φ₁ := .bf16) (φ₂ := .bf16) rowsDot none (repRows V c) (gatherW V c))
        (Host.dotGeneral (F := Ideal) (φ₁ := .bf16) (φ₂ := .bf16) attrDot none (gatherAttr V c) (gatherV V c))) := by
  show (cfg2.win 4).cut (grid2.coords t) ((dat2 V c).after 4 t) = _
  rw [after2_4]
  unfold out2_4
  rw [View.canon_unit_zero hz]
  simp only [View.ld_unit_zero (S := S10000x128) hz, View.ld_unit_zero (S := S128x128) hz, View.ld_unit_zero (S := S10000x3) hz, View.ld_unit_zero (S := S3x128) hz]
  obtain ⟨-, -, -, -, -, -, -, -, e0, e1⟩ := blockIndex t
  funext j
  obtain ⟨r, q, rfl⟩ : ∃ (r : Fin 10000) (q : Fin 128), j = (ix2 r q : S10000x128.Idx) := ⟨j 0, j 1, eq_ix2 (n0 := 10000) (n1 := 128) j⟩
  refine (block_is_rows (repRows V c) (gatherW V c) (gatherAttr V c) (gatherV V c) (iblk2 V c 0 t) (iblk2 V c 2 t) (iblk2 V c 1 t) (iblk2 V c 3 t) t.val (point_lt t)
    (rowsBlock_apply V c t) (attrBlock_apply V c t) (gatherBlock_eq V c t) (gateBlock_eq V c t) r q).trans ?_
  rw [View.read_apply]
  refine congrArg _ ?_
  funext a
  apply Fin.ext
  match a with
  | ⟨0, _⟩ => show t.val * 10000 + r.val = win2_4.index t (0 : Fin 2) * 10000 + 1 * r.val; rw [e0]; omega
  | ⟨1, _⟩ => show q.val = win2_4.index t (1 : Fin 2) * 128 + 1 * q.val; rw [e1]; omega

/-! ## From the 40 blocks to the array -/

/-- An index of the output array is in point `t`'s block iff each coordinate is in the block's range on its axis. -/
theorem mem_block (t : Fin cfg2.N) (i : S400000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v52).slice (win2_4.rect t)).set ↔ _
  rw [View.set_slice_whole, Rect.mem_set_unit]
  exact Iff.rfl

/-- Every child's row lies in the block of the point `child / 10000`, and every point writes its block back. -/
theorem covered (i : S400000x128.Idx) :
    ∃ t : Fin cfg2.N, (cfg2.win 4).flush t = true ∧ i ∈ ((cfg2.win 4).blk t).view.set := by
  have hi0 : (i 0).val < 400000 := (i 0).isLt
  have hi1 : (i 1).val < 128 := (i 1).isLt
  obtain ⟨t, ht⟩ : ∃ t : Fin cfg2.N, t.val = (i 0).val / 10000 :=
    ⟨⟨(i 0).val / 10000, Nat.lt_of_lt_of_eq (by omega : (i 0).val / 10000 < 40) (N_2 : cfg2.N = 40).symm⟩, rfl⟩
  obtain ⟨-, -, -, -, -, -, -, -, e0, e1⟩ := blockIndex t
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; rw [e0]; omega
  | ⟨1, _⟩ => show win2_4.index t (1 : Fin 2) * 128 ≤ (i 1).val ∧ (i 1).val < win2_4.index t (1 : Fin 2) * 128 + 128; rw [e1]; omega

/-- After the region its output array holds, entry by entry, (rows · W) · (attributes · V). -/
theorem gather_message :
    ((dat2 (F := Ideal) V c).arrAt 4 cfg2.N : Vec Ideal S400000x128 .f32)
      = mulf (F := Ideal) (Host.dotGeneral (F := Ideal) (φ₁ := .bf16) (φ₂ := .bf16) Cert.ReferenceIdeal.dot_S400000x128_S128x128_S400000x128_1_0_0_1_n_n none (repRows V c) (gatherW V c))
          (Host.dotGeneral (F := Ideal) (φ₁ := .bf16) (φ₂ := .bf16) Cert.ReferenceIdeal.dot_S400000x3_S3x128_S400000x128_1_0_0_1_n_n none (gatherAttr V c) (gatherV V c)) :=
  (dat2 (F := Ideal) V c).arrAt_eq_of_cover 4 _ (fun t _ => flushed_eq V c t) covered

end Cert.KernelIdeal.GatherMessage

end
-- ==== Proof.NodeFeatures.lean ====
/-
  The self-and-bloom region's first output, read as a value at the extended reals. Each grid point takes
  4000 nodes, adds the self term (node rows · W) to the aggregated messages, and keeps columns 16 to 143
  of the sum. Row r of block t is node 4000·t + r, so the 25 blocks together are that column range of the
  whole sum.
-/
import proofs.«428030_j58119497450175_2_alg».proof.Proof.Gen.KernelIdeal.Frame
import proofs.«428030_j58119497450175_2_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.NodeFeatures

open Idealize.ShloMosaic Idealize.ShloMosaic.TcCoe Idealize.SL.Sem
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b)) (c : Dev nD)

/-- The node features as the region reads them. -/
abbrev nodeRows : FVec Ideal S100000x128 .bf16 := V c main_v4
/-- The messages summed into their destination nodes. -/
abbrev aggregated : FVec Ideal S100000x144 .f32 := V c main_v18
/-- The node positions. -/
abbrev positions : FVec Ideal S100000x3 .f32 := V c main_arg1
/-- The self-interaction weights. -/
abbrev selfW : FVec Ideal S128x144 .bf16 := V c main_v19
/-- The bloom weights. -/
abbrev bloomW : FVec Ideal S16x12 .bf16 := V c main_v20

/-- The node update before it is split: the aggregated messages plus the self term. -/
abbrev nodeOut : FVec Ideal S100000x144 .f32 :=
  addf (F := Ideal) (aggregated V c) (Host.dotGeneral (F := Ideal) (φ₁ := .bf16) (φ₂ := .bf16) Cert.ReferenceIdeal.dot_S100000x128_S128x144_S100000x144_1_0_0_1_n_n none (nodeRows V c) (selfW V c))

/-! ## The two contractions read at an index

Both the block's product on the matrix unit and the whole array's product on the host contract the one
feature axis of 128 entries: entry (row, q) is the sum over k of x(row, k) · w(k, q). -/

/-- The host's contraction record for the self term over all 100000 nodes. -/
abbrev refDot := Cert.ReferenceIdeal.dot_S100000x128_S128x144_S100000x144_1_0_0_1_n_n
/-- The contraction record of one block of 4000 nodes. -/
abbrev blkDot := dot_S4000x128_S128x144_S4000x144_1_0_0_1_n_n

/-- Left operand, row axis: the output's row. -/
theorem ref_lhs_0 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x144_S100000x144_1_0_0_1_n_n.lhsBatch by decide), dif_pos (show (0 : Fin Cert.ReferenceIdeal.S100000x128.rank) ∈ Cert.ReferenceIdeal.dot_S100000x128_S128x144_S100000x144_1_0_0_1_n_n.lhsNonContracting by decide)]
  rfl
/-- Left operand, feature axis: the contraction index. -/
theorem ref_lhs_1 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.lhsIdx i q 1).val = (q ⟨0, by decide⟩).val :=
  Cert.ReferenceIdeal.dot_S100000x128_S128x144_S100000x144_1_0_0_1_n_n.lhsIdx_val_of_single rfl i q
/-- Right operand, feature axis: the contraction index. -/
theorem ref_rhs_0 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.rhsIdx i q 0).val = (q ⟨0, by decide⟩).val :=
  Cert.ReferenceIdeal.dot_S100000x128_S128x144_S100000x144_1_0_0_1_n_n.rhsIdx_val_of_single rfl i q
/-- Right operand, column axis: the output's column. -/
theorem ref_rhs_1 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.rhsIdx i q 1).val = (i 1).val := by
  unfold DotDims.rhsIdx
  rw [dif_neg (show ¬(1 : Fin Cert.ReferenceIdeal.S128x144.rank) ∈ Cert.ReferenceIdeal.dot_S100000x128_S128x144_S100000x144_1_0_0_1_n_n.rhsBatch by decide), dif_pos (show (1 : Fin Cert.ReferenceIdeal.S128x144.rank) ∈ Cert.ReferenceIdeal.dot_S100000x128_S128x144_S100000x144_1_0_0_1_n_n.rhsNonContracting by decide)]
  rfl

/-- The self term over the whole array at node `p`, column `q`: the sum over the 128 features. -/
theorem selfTerm_apply (x : FVec Ideal S100000x128 .bf16) (w : FVec Ideal S128x144 .bf16) (p : Fin 100000) (q : Fin 144) :
    Host.dotGeneral (F := Ideal) (φ₁ := .bf16) (φ₂ := .bf16) refDot none x w (ix2 p q) = ∑ k : Fin 128, x (ix2 p k) * w (ix2 k q) := by
  simp only [Host.dotGeneral]
  rw [Ideal.dotGeneral_apply, ← Equiv.sum_comp (contrEquiv1 refDot 128 rfl rfl).symm]
  refine Finset.sum_congr rfl fun k _ => ?_
  have hk := contrEquiv1_symm_val refDot 128 rfl rfl k
  have el : refDot.lhsIdx (ix2 p q) ((contrEquiv1 refDot 128 rfl rfl).symm k) = ix2 p k := funext fun a => Fin.ext (by
    match a with
    | ⟨0, _⟩ => exact ref_lhs_0 _ _
    | ⟨1, _⟩ => exact (ref_lhs_1 _ _).trans hk)
  have er : refDot.rhsIdx (ix2 p q) ((contrEquiv1 refDot 128 rfl rfl).symm k) = ix2 k q := funext fun a => Fin.ext (by
    match a with
    | ⟨0, _⟩ => exact (ref_rhs_0 _ _).trans hk
    | ⟨1, _⟩ => exact ref_rhs_1 _ _)
  rw [el, er]

/-- Left operand of the block's product, row axis: the output's row. -/
theorem blk_lhs_0 (i : S4000x144.Idx) (q : dot_S4000x128_S128x144_S4000x144_1_0_0_1_n_n.contr.Idx) :
    (dot_S4000x128_S128x144_S4000x144_1_0_0_1_n_n.lhsIdx i q 0).val = (i 0).val := by
  unfold DotDims.lhsIdx
  rw [dif_neg (show ¬(0 : Fin S4000x128.rank) ∈ dot_S4000x128_S128x144_S4000x144_1_0_0_1_n_n.lhsBatch by decide), dif_pos (show (0 : Fin S4000x128.rank) ∈ dot_S4000x128_S128x144_S4000x144_1_0_0_1_n_n.lhsNonContracting by decide)]
  rfl
/-- Left operand of the block's product, feature axis: the contraction index. -/
theorem blk_lhs_1 (i : S4000x144.Idx) (q : dot_S4000x128_S128x144_S4000x144_1_0_0_1_n_n.contr.Idx) :
    (dot_S4000x128_S128x144_S4000x144_1_0_0_1_n_n.lhsIdx i q 1).val = (q ⟨0, by decide⟩).val :=
  dot_S4000x128_S128x144_S4000x144_1_0_0_1_n_n.lhsIdx_val_of_single rfl i q
/-- Right operand of the block's product, feature axis: the contraction index. -/
theorem blk_rhs_0 (i : S4000x144.Idx) (q : dot_S4000x128_S128x144_S4000x144_1_0_0_1_n_n.contr.Idx) :
    (dot_S4000x128_S128x144_S4000x144_1_0_0_1_n_n.rhsIdx i q 0).val = (q ⟨0, by decide⟩).val :=
  dot_S4000x128_S128x144_S4000x144_1_0_0_1_n_n.rhsIdx_val_of_single rfl i q
/-- Right operand of the block's product, column axis: the output's column. -/
theorem blk_rhs_1 (i : S4000x144.Idx) (q : dot_S4000x128_S128x144_S4000x144_1_0_0_1_n_n.contr.Idx) :
    (dot_S4000x128_S128x144_S4000x144_1_0_0_1_n_n.rhsIdx i q 1).val = (i 1).val := by
  unfold DotDims.rhsIdx
  rw [dif_neg (show ¬(1 : Fin S128x144.rank) ∈ dot_S4000x128_S128x144_S4000x144_1_0_0_1_n_n.rhsBatch by decide), dif_pos (show (1 : Fin S128x144.rank) ∈ dot_S4000x128_S128x144_S4000x144_1_0_0_1_n_n.rhsNonContracting by decide)]
  rfl

/-- The block's product into a zero accumulator at row `r`, column `q`: the same sum over the block's rows. -/
theorem blockTerm_apply (x : FVec Ideal S4000x128 .bf16) (w : FVec Ideal S128x144 .bf16) (r : Fin 4000) (q : Fin 144) :
    matmul (F := Ideal) blkDot none x w (constant (F := Ideal) S4000x144 .f32 0x00000000#32) (ix2 r q) = ∑ k : Fin 128, x (ix2 r k) * w (ix2 k q) := by
  refine (Ideal.matmul_constant_zero_apply blkDot none x w (ix2 r q)).trans ?_
  rw [← Equiv.sum_comp (contrEquiv1 blkDot 128 rfl rfl).symm]
  refine Finset.sum_congr rfl fun k _ => ?_
  have hk := contrEquiv1_symm_val blkDot 128 rfl rfl k
  have el : blkDot.lhsIdx (ix2 r q) ((contrEquiv1 blkDot 128 rfl rfl).symm k) = ix2 r k := funext fun a => Fin.ext (by
    match a with
    | ⟨0, _⟩ => exact blk_lhs_0 _ _
    | ⟨1, _⟩ => exact (blk_lhs_1 _ _).trans hk)
  have er : blkDot.rhsIdx (ix2 r q) ((contrEquiv1 blkDot 128 rfl rfl).symm k) = ix2 k q := funext fun a => Fin.ext (by
    match a with
    | ⟨0, _⟩ => exact (blk_rhs_0 _ _).trans hk
    | ⟨1, _⟩ => exact blk_rhs_1 _ _)
  rw [el, er]

/-! ## What one block writes, entry by entry -/

/-- Column `q` of the kept range sits at column `q + 16` of the 144-wide sum. -/
abbrev keptCol (q : Fin 128) : Fin 144 := ⟨q.val + 16, by omega⟩

/-- The block's result at row `r`, kept column `q`: the aggregated entry at column `q + 16` plus the
    sum over the features of that row against column `q + 16` of the weights. -/
theorem payload_apply (a : FVec Ideal S4000x144 .f32) (x : FVec Ideal S4000x128 .bf16) (w : FVec Ideal S128x144 .bf16) (r : Fin 4000) (q : Fin 128) :
    k1_pay2 (F := Ideal) a x w (ix2 r q) = a (ix2 r (keptCol q)) + ∑ k : Fin 128, x (ix2 r k) * w (ix2 k (keptCol q)) := by
  unfold k1_pay2 k1_pay1
  refine (extractStridedSlice_apply _ _ _ (ix2 r q) (ix2 r (keptCol q)) (fun a => ?_)).trans ?_
  · match a with
    | ⟨0, _⟩ => show r.val = 0 + r.val; omega
    | ⟨1, _⟩ => show q.val + 16 = 16 + q.val; omega
  · simp only [shapeCast_self]
    exact congrArg (a (ix2 r (keptCol q)) + ·) (blockTerm_apply x w r (keptCol q))

/-! ## The whole-array result, entry by entry -/

/-- Columns 16 … 143 of the sum of `A` and the self term of `X` against `W`, at node `p` and kept column `q`:
    `A` at column `q + 16` plus the sum over the features of node `p`. -/
theorem kept_apply (A : FVec Ideal S100000x144 .f32) (X : FVec Ideal S100000x128 .bf16) (W : FVec Ideal S128x144 .bf16) (p : Fin 100000) (q : Fin 128) :
    extractStridedSlice Cert.ReferenceIdeal.S100000x128 ![0, 16]
        (addf (F := Ideal) A (Host.dotGeneral (F := Ideal) (φ₁ := .bf16) (φ₂ := .bf16) refDot none X W))
        Cert.ReferenceIdeal.Gen.slices_S100000x144_S100000x128_0_16 (ix2 p q)
      = A (ix2 p (keptCol q)) + ∑ k : Fin 128, X (ix2 p k) * W (ix2 k (keptCol q)) := by
  refine (extractStridedSlice_apply _ _ _ (ix2 p q) (ix2 p (keptCol q)) (fun a => ?_)).trans ?_
  · match a with
    | ⟨0, _⟩ => show p.val = 0 + p.val; omega
    | ⟨1, _⟩ => show q.val + 16 = 16 + q.val; omega
  · exact congrArg (A (ix2 p (keptCol q)) + ·) (selfTerm_apply X W p (keptCol q))

/-- Node `b · 4000 + r`: row `r` of block `b`. -/
abbrev nodeOf (b : Nat) (hb : b < 25) (r : Fin 4000) : Fin 100000 := ⟨b * 4000 + r.val, by omega⟩

/-- ONE BLOCK IS ITS ROWS OF THE WHOLE RESULT. If the block `a` of aggregated messages and the block `x` of node
    rows are rows `b · 4000 …` of the arrays `A` and `X`, and the weights are `W`, the block's result at row `r` is
    the whole-array result at node `b · 4000 + r`: an entry of the product depends on its own row only. -/
theorem block_is_rows (A : FVec Ideal S100000x144 .f32) (X : FVec Ideal S100000x128 .bf16) (W : FVec Ideal S128x144 .bf16)
    (a : FVec Ideal S4000x144 .f32) (x : FVec Ideal S4000x128 .bf16) (w : FVec Ideal S128x144 .bf16) (b : Nat) (hb : b < 25)
    (ha : ∀ (r : Fin 4000) (q : Fin 144), a (ix2 r q) = A (ix2 (nodeOf b hb r) q))
    (hx : ∀ (r : Fin 4000) (k : Fin 128), x (ix2 r k) = X (ix2 (nodeOf b hb r) k))
    (hw : w = W) (r : Fin 4000) (q : Fin 128) :
    k1_pay2 (F := Ideal) a x w (ix2 r q)
      = extractStridedSlice Cert.ReferenceIdeal.S100000x128 ![0, 16]
          (addf (F := Ideal) A (Host.dotGeneral (F := Ideal) (φ₁ := .bf16) (φ₂ := .bf16) refDot none X W))
          Cert.ReferenceIdeal.Gen.slices_S100000x144_S100000x128_0_16 (ix2 (nodeOf b hb r) q) := by
  rw [payload_apply, kept_apply, ha, hw]
  exact congrArg (A (ix2 (nodeOf b hb r) (keptCol q)) + ·) (Finset.sum_congr rfl fun k _ => by rw [hx])

/-! ## The blocks a grid point reads and writes

Grid point `t` takes rows `4000·t … 4000·t + 3999` of the node rows and of the aggregated messages, the whole
weight matrix, and writes rows `4000·t …` of the output. -/

/-- The body reads and writes each staging buffer from offset (0, 0): whole blocks. -/
theorem hz : (![0, 0] : Fin 2 → Nat) = fun _ => 0 := funext fun a => by fin_cases a <;> rfl

/-- The block indices of the windows the first output depends on, decided over the 25 grid points: the row-blocked
    windows sit at block row `t`, block column 0; the weights at block (0, 0). -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_3.index t (0 : Fin 2) = 0 ∧ win1_3.index t (1 : Fin 2) = 0
    ∧ win1_5.index t (0 : Fin 2) = t.val ∧ win1_5.index t (1 : Fin 2) = 0 :=
  (by decide +kernel : ∀ t : Fin grid1.N, _)

/-- A grid point is below 25. -/
theorem point_lt (t : Fin cfg1.N) : t.val < 25 := Nat.lt_of_lt_of_eq t.isLt (N_1 : cfg1.N = 25)

/-- The block of node rows at point `t`: row `r` is node `4000·t + r`. -/
theorem rowsBlock_apply (t : Fin cfg1.N) (r : Fin 4000) (k : Fin 128) :
    (iblk1 V c 0 t : Vec Ideal S4000x128 .bf16) (ix2 r k) = nodeRows V c (ix2 (nodeOf t.val (point_lt t) r) k) := by
  obtain ⟨e0, e1, -⟩ := blockIndex t
  unfold iblk1
  rw [View.read_apply]
  show V c main_v4 _ = V c main_v4 _
  congr 1
  funext a
  apply Fin.ext
  match a with
  | ⟨0, _⟩ => show win1_0.index t (0 : Fin 2) * 4000 + 1 * r.val = t.val * 4000 + r.val; rw [e0]; omega
  | ⟨1, _⟩ => show win1_0.index t (1 : Fin 2) * 128 + 1 * k.val = k.val; rw [e1]; omega

/-- The block of aggregated messages at point `t`: row `r` is node `4000·t + r`. -/
theorem aggBlock_apply (t : Fin cfg1.N) (r : Fin 4000) (q : Fin 144) :
    (iblk1 V c 1 t : Vec Ideal S4000x144 .f32) (ix2 r q) = aggregated V c (ix2 (nodeOf t.val (point_lt t) r) q) := by
  obtain ⟨-, -, e0, e1, -⟩ := blockIndex t
  unfold iblk1
  rw [View.read_apply]
  show V c main_v18 _ = V c main_v18 _
  congr 1
  funext a
  apply Fin.ext
  match a with
  | ⟨0, _⟩ => show win1_1.index t (0 : Fin 2) * 4000 + 1 * r.val = t.val * 4000 + r.val; rw [e0]; omega
  | ⟨1, _⟩ => show win1_1.index t (1 : Fin 2) * 144 + 1 * q.val = q.val; rw [e1]; omega

/-- The weights' one block is the whole matrix at every point. -/
theorem weightsBlock_eq (t : Fin cfg1.N) : (iblk1 V c 3 t : Vec Ideal S128x144 .bf16) = selfW V c := by
  obtain ⟨-, -, -, -, e0, e1, -⟩ := blockIndex t
  funext j
  obtain ⟨k, q, rfl⟩ : ∃ (k : Fin 128) (q : Fin 144), j = ix2 k q := ⟨j 0, j 1, eq_ix2 j⟩
  unfold iblk1
  rw [View.read_apply]
  show V c main_v19 _ = V c main_v19 _
  congr 1
  funext a
  apply Fin.ext
  match a with
  | ⟨0, _⟩ => show win1_3.index t (0 : Fin 2) * 128 + 1 * k.val = k.val; rw [e0]; omega
  | ⟨1, _⟩ => show win1_3.index t (1 : Fin 2) * 144 + 1 * q.val = q.val; rw [e1]; omega

/-- WHAT POINT `t` WRITES BACK is block `t` of columns 16 … 143 of the node update. -/
theorem flushed_eq (t : Fin cfg1.N) :
    (dat1 (F := Ideal) V c).flushed 5 t = ((cfg1.win 5).blk t).view.read (Elt Ideal)
      (extractStridedSlice Cert.ReferenceIdeal.S100000x128 ![0, 16] (nodeOut V c) Cert.ReferenceIdeal.Gen.slices_S100000x144_S100000x128_0_16) := by
  show (cfg1.win 5).cut (grid1.coords t) ((dat1 V c).after 5 t) = _
  rw [after1_5]
  unfold out1_5
  rw [View.canon_unit_zero hz]
  simp only [View.ld_unit_zero (S := S4000x144) hz, View.ld_unit_zero (S := S4000x128) hz, View.ld_unit_zero (S := S128x144) hz]
  obtain ⟨-, -, -, -, -, -, e0, e1⟩ := blockIndex t
  funext j
  obtain ⟨r, q, rfl⟩ : ∃ (r : Fin 4000) (q : Fin 128), j = (ix2 r q : S4000x128.Idx) := ⟨j 0, j 1, eq_ix2 (n0 := 4000) (n1 := 128) j⟩
  refine (block_is_rows (aggregated V c) (nodeRows V c) (selfW V c) (iblk1 V c 1 t) (iblk1 V c 0 t) (iblk1 V c 3 t) t.val (point_lt t)
    (aggBlock_apply V c t) (rowsBlock_apply V c t) (weightsBlock_eq V c t) r q).trans ?_
  rw [View.read_apply]
  refine congrArg _ ?_
  funext a
  apply Fin.ext
  match a with
  | ⟨0, _⟩ => show t.val * 4000 + r.val = win1_5.index t (0 : Fin 2) * 4000 + 1 * r.val; rw [e0]; omega
  | ⟨1, _⟩ => show q.val = win1_5.index t (1 : Fin 2) * 128 + 1 * q.val; rw [e1]; omega

/-! ## From the 25 blocks to the array -/

/-- An index of the output array is in point `t`'s block iff each coordinate is in the block's range on its axis. -/
theorem mem_block (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v21_0).slice (win1_5.rect t)).set ↔ _
  rw [View.set_slice_whole, Rect.mem_set_unit]
  exact Iff.rfl

/-- Every node's row lies in the block of the point `node / 4000`, and every point writes its block back. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, Nat.lt_of_lt_of_eq (by omega : (i 0).val / 4000 < 25) (N_1 : cfg1.N = 25).symm⟩, rfl⟩
  obtain ⟨-, -, -, -, -, -, e0, e1⟩ := blockIndex t
  refine ⟨t, flush1_5 t, ?_⟩
  rw [mem_block]
  intro a
  match a with
  | ⟨0, _⟩ => show win1_5.index t (0 : Fin 2) * 4000 ≤ (i 0).val ∧ (i 0).val < win1_5.index t (0 : Fin 2) * 4000 + 4000; rw [e0]; omega
  | ⟨1, _⟩ => show win1_5.index t (1 : Fin 2) * 128 ≤ (i 1).val ∧ (i 1).val < win1_5.index t (1 : Fin 2) * 128 + 128; rw [e1]; omega

/-- After the region its first output array holds columns 16 … 143 of the node update. -/
theorem node_features :
    ((dat1 (F := Ideal) V c).arrAt 5 cfg1.N : Vec Ideal S100000x128 .f32)
      = extractStridedSlice Cert.ReferenceIdeal.S100000x128 ![0, 16] (nodeOut V c) Cert.ReferenceIdeal.Gen.slices_S100000x144_S100000x128_0_16 :=
  (dat1 (F := Ideal) V c).arrAt_eq_of_cover 5 _ (fun t _ => flushed_eq V c t) covered

end Cert.KernelIdeal.NodeFeatures

end
-- ==== Proof.BloomPositions.lean ====
/-
  The self-and-bloom region's second output, read as a value at the extended reals. Each grid point
  takes 4000 nodes; columns 0 to 15 of the node update, times the 16 × 12 bloom weights, scaled by the
  binary value of 0.1, give twelve offsets per node, and the node's position, written four times side by
  side, is added. Column 3k + d of node n is child k, coordinate d; so the 100000 × 12 array, cut into
  (node, child, coordinate) and then into (4·node + child, coordinate), is position plus scaled offset
  per child.
-/
import proofs.«428030_j58119497450175_2_alg».proof.Proof.Gen.KernelIdeal.Frame
import proofs.«428030_j58119497450175_2_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.BloomPositions

open Idealize.ShloMosaic Idealize.ShloMosaic.TcCoe Idealize.SL.Sem
open Idealize.ShloMosaic.ValueIdx
open Cert.KernelIdeal Cert.KernelIdeal.Gen

/-! ### The two contractions of the body, axis by axis -/

theorem lhs_self_0 (i : S4000x144.Idx) (q : dot_S4000x128_S128x144_S4000x144_1_0_0_1_n_n.contr.Idx) :
    (dot_S4000x128_S128x144_S4000x144_1_0_0_1_n_n.lhsIdx i q 0).val = (i 0).val := by
  unfold DotDims.lhsIdx
  rw [dif_neg (show ¬(0 : Fin S4000x128.rank) ∈ dot_S4000x128_S128x144_S4000x144_1_0_0_1_n_n.lhsBatch by decide), dif_pos (show (0 : Fin S4000x128.rank) ∈ dot_S4000x128_S128x144_S4000x144_1_0_0_1_n_n.lhsNonContracting by decide)]
  rfl
theorem lhs_self_1 (i : S4000x144.Idx) (q : dot_S4000x128_S128x144_S4000x144_1_0_0_1_n_n.contr.Idx) :
    (dot_S4000x128_S128x144_S4000x144_1_0_0_1_n_n.lhsIdx i q 1).val = (q ⟨0, by decide⟩).val :=
  dot_S4000x128_S128x144_S4000x144_1_0_0_1_n_n.lhsIdx_val_of_single rfl i q
theorem rhs_self_0 (i : S4000x144.Idx) (q : dot_S4000x128_S128x144_S4000x144_1_0_0_1_n_n.contr.Idx) :
    (dot_S4000x128_S128x144_S4000x144_1_0_0_1_n_n.rhsIdx i q 0).val = (q ⟨0, by decide⟩).val :=
  dot_S4000x128_S128x144_S4000x144_1_0_0_1_n_n.rhsIdx_val_of_single rfl i q
theorem rhs_self_1 (i : S4000x144.Idx) (q : dot_S4000x128_S128x144_S4000x144_1_0_0_1_n_n.contr.Idx) :
    (dot_S4000x128_S128x144_S4000x144_1_0_0_1_n_n.rhsIdx i q 1).val = (i 1).val := by
  unfold DotDims.rhsIdx
  rw [dif_neg (show ¬(1 : Fin S128x144.rank) ∈ dot_S4000x128_S128x144_S4000x144_1_0_0_1_n_n.rhsBatch by decide), dif_pos (show (1 : Fin S128x144.rank) ∈ dot_S4000x128_S128x144_S4000x144_1_0_0_1_n_n.rhsNonContracting by decide)]
  rfl

/-- The self term of a block: row r of the node rows against column e of the self weights. -/
theorem self_matmul_apply (x : FVec Ideal S4000x128 .bf16) (w : FVec Ideal S128x144 .bf16) (r : Fin 4000) (e : Fin 144) :
    matmul (F := Ideal) dot_S4000x128_S128x144_S4000x144_1_0_0_1_n_n none x w (constant (F := Ideal) S4000x144 .f32 0x00000000#32) (ix2 r e)
      = ∑ k : Fin 128, x (ix2 r k) * w (ix2 k e) := by
  simp only [matmul]
  rw [Ideal.matmul_constant_zero_apply, ← Equiv.sum_comp (contrEquiv1 dot_S4000x128_S128x144_S4000x144_1_0_0_1_n_n 128 rfl rfl).symm]
  refine Finset.sum_congr rfl fun k _ => ?_
  have hk := contrEquiv1_symm_val dot_S4000x128_S128x144_S4000x144_1_0_0_1_n_n 128 rfl rfl k
  have el : dot_S4000x128_S128x144_S4000x144_1_0_0_1_n_n.lhsIdx (ix2 r e) ((contrEquiv1 dot_S4000x128_S128x144_S4000x144_1_0_0_1_n_n 128 rfl rfl).symm k) = ix2 r k := funext fun a => Fin.ext (by
    match a with
    | ⟨0, _⟩ => exact lhs_self_0 _ _
    | ⟨1, _⟩ => exact (lhs_self_1 _ _).trans hk)
  have er : dot_S4000x128_S128x144_S4000x144_1_0_0_1_n_n.rhsIdx (ix2 r e) ((contrEquiv1 dot_S4000x128_S128x144_S4000x144_1_0_0_1_n_n 128 rfl rfl).symm k) = ix2 k e := funext fun a => Fin.ext (by
    match a with
    | ⟨0, _⟩ => exact (rhs_self_0 _ _).trans hk
    | ⟨1, _⟩ => exact rhs_self_1 _ _)
  rw [el, er]

theorem lhs_bloom_0 (i : S4000x12.Idx) (q : dot_S4000x16_S16x12_S4000x12_1_0_0_1_n_n.contr.Idx) :
    (dot_S4000x16_S16x12_S4000x12_1_0_0_1_n_n.lhsIdx i q 0).val = (i 0).val := by
  unfold DotDims.lhsIdx
  rw [dif_neg (show ¬(0 : Fin S4000x16.rank) ∈ dot_S4000x16_S16x12_S4000x12_1_0_0_1_n_n.lhsBatch by decide), dif_pos (show (0 : Fin S4000x16.rank) ∈ dot_S4000x16_S16x12_S4000x12_1_0_0_1_n_n.lhsNonContracting by decide)]
  rfl
theorem lhs_bloom_1 (i : S4000x12.Idx) (q : dot_S4000x16_S16x12_S4000x12_1_0_0_1_n_n.contr.Idx) :
    (dot_S4000x16_S16x12_S4000x12_1_0_0_1_n_n.lhsIdx i q 1).val = (q ⟨0, by decide⟩).val :=
  dot_S4000x16_S16x12_S4000x12_1_0_0_1_n_n.lhsIdx_val_of_single rfl i q
theorem rhs_bloom_0 (i : S4000x12.Idx) (q : dot_S4000x16_S16x12_S4000x12_1_0_0_1_n_n.contr.Idx) :
    (dot_S4000x16_S16x12_S4000x12_1_0_0_1_n_n.rhsIdx i q 0).val = (q ⟨0, by decide⟩).val :=
  dot_S4000x16_S16x12_S4000x12_1_0_0_1_n_n.rhsIdx_val_of_single rfl i q
theorem rhs_bloom_1 (i : S4000x12.Idx) (q : dot_S4000x16_S16x12_S4000x12_1_0_0_1_n_n.contr.Idx) :
    (dot_S4000x16_S16x12_S4000x12_1_0_0_1_n_n.rhsIdx i q 1).val = (i 1).val := by
  unfold DotDims.rhsIdx
  rw [dif_neg (show ¬(1 : Fin S16x12.rank) ∈ dot_S4000x16_S16x12_S4000x12_1_0_0_1_n_n.rhsBatch by decide), dif_pos (show (1 : Fin S16x12.rank) ∈ dot_S4000x16_S16x12_S4000x12_1_0_0_1_n_n.rhsNonContracting by decide)]
  rfl

/-- The offsets of a block before scaling: row r of the sixteen leading columns against column q of the bloom weights. -/
theorem bloom_matmul_apply (y : FVec Ideal S4000x16 .bf16) (w : FVec Ideal S16x12 .bf16) (r : Fin 4000) (q : Fin 12) :
    matmul (F := Ideal) dot_S4000x16_S16x12_S4000x12_1_0_0_1_n_n none y w (constant (F := Ideal) S4000x12 .f32 0x00000000#32) (ix2 r q)
      = ∑ e : Fin 16, y (ix2 r e) * w (ix2 e q) := by
  simp only [matmul]
  rw [Ideal.matmul_constant_zero_apply, ← Equiv.sum_comp (contrEquiv1 dot_S4000x16_S16x12_S4000x12_1_0_0_1_n_n 16 rfl rfl).symm]
  refine Finset.sum_congr rfl fun e _ => ?_
  have he := contrEquiv1_symm_val dot_S4000x16_S16x12_S4000x12_1_0_0_1_n_n 16 rfl rfl e
  have el : dot_S4000x16_S16x12_S4000x12_1_0_0_1_n_n.lhsIdx (ix2 r q) ((contrEquiv1 dot_S4000x16_S16x12_S4000x12_1_0_0_1_n_n 16 rfl rfl).symm e) = ix2 r e := funext fun a => Fin.ext (by
    match a with
    | ⟨0, _⟩ => exact lhs_bloom_0 _ _
    | ⟨1, _⟩ => exact (lhs_bloom_1 _ _).trans he)
  have er : dot_S4000x16_S16x12_S4000x12_1_0_0_1_n_n.rhsIdx (ix2 r q) ((contrEquiv1 dot_S4000x16_S16x12_S4000x12_1_0_0_1_n_n 16 rfl rfl).symm e) = ix2 e q := funext fun a => Fin.ext (by
    match a with
    | ⟨0, _⟩ => exact (rhs_bloom_0 _ _).trans he
    | ⟨1, _⟩ => exact rhs_bloom_1 _ _)
  rw [el, er]

/-! ### The body's two payloads at an index of the block -/

/-- The node update of a block at (r, e): the aggregated message plus the self term. -/
theorem node_update_apply (g : Vec Ideal S4000x144 .f32) (x : Vec Ideal S4000x128 .bf16) (w : Vec Ideal S128x144 .bf16) (r : Fin 4000) (e : Fin 144) :
    (k1_pay1 (F := Ideal) g x w) (ix2 r e) = g (ix2 r e) + ∑ k : Fin 128, x (ix2 r k) * w (ix2 k e) := by
  unfold k1_pay1
  rw [shapeCast_self, shapeCast_self, shapeCast_self, addf_apply, self_matmul_apply]

/-- The bloom positions of a block at (r, q): the position's coordinate q mod 3, plus the offset of column q scaled by
    the binary value of 0.1. -/
theorem bloom_block_apply (g : Vec Ideal S4000x144 .f32) (x : Vec Ideal S4000x128 .bf16) (w : Vec Ideal S128x144 .bf16)
    (b : Vec Ideal S16x12 .bf16) (p : Vec Ideal S4000x3 .f32) (r : Fin 4000) (q : Fin 12) :
    (k1_pay3 (F := Ideal) g x w b p) (ix2 r q)
      = p (ix2 r ⟨q.val % 3, Nat.mod_lt _ (by decide)⟩)
        + (∑ e : Fin 16, (g (ix2 r ⟨e.val, by omega⟩) + ∑ k : Fin 128, x (ix2 r k) * w (ix2 k ⟨e.val, by omega⟩)) * b (ix2 e q))
          * Ideal.ofBits .f32 0x3DCCCCCD#32 := by
  unfold k1_pay3
  rw [addf_apply, mulf_apply, shapeCast_self, bloom_matmul_apply, broadcast_apply]
  -- the position block written four times side by side, read at column q, is the position's coordinate q mod 3
  have hcat : concatenate S4000x12 1 [⟨S4000x3, p⟩, ⟨S4000x3, p⟩, ⟨S4000x3, p⟩, ⟨S4000x3, p⟩]
        concatenates_S4000x3_S4000x3_S4000x3_S4000x3_S4000x12_d1 (ix2 r q) = p (ix2 r ⟨q.val % 3, Nat.mod_lt _ (by decide)⟩) :=
    concatenate_replicate_apply (t := S4000x12) (s₁ := S4000x3) 1 4 p
      concatenates_S4000x3_S4000x3_S4000x3_S4000x3_S4000x12_d1 rfl (ix2 r q) (ix2 r ⟨q.val % 3, Nat.mod_lt _ (by decide)⟩)
      rfl (fun a ha => match a with
        | ⟨0, _⟩ => rfl
        | ⟨1, _⟩ => absurd rfl ha)
  -- the sixteen leading columns of the node update, narrowed with no rounding at the extended reals
  have hcol : ∀ e : Fin 16, truncf (F := Ideal) .bf16 (extractStridedSlice S4000x16 ![0, 0] (k1_pay1 (F := Ideal) g x w) slices_S4000x144_o0_0_S4000x16)
        bitsLt_bf16_f32 (ix2 r e) = g (ix2 r ⟨e.val, by omega⟩) + ∑ k : Fin 128, x (ix2 r k) * w (ix2 k ⟨e.val, by omega⟩) := fun e => by
    rw [truncf_apply, extractStridedSlice_apply ![0, 0] (k1_pay1 (F := Ideal) g x w) slices_S4000x144_o0_0_S4000x16 (ix2 r e) (ix2 r ⟨e.val, by omega⟩)
      (fun a => match a with
        | ⟨0, _⟩ => by show r.val = 0 + r.val; omega
        | ⟨1, _⟩ => by show e.val = 0 + e.val; omega), node_update_apply]
  rw [hcat]
  simp only [hcol]
  rfl

-- the TensorCore's buffer contents when the region is entered
variable (V : (c : Dev nD) → (b : Ref sig .tc) → Buf (Elt Ideal) ((c : Thread nD τ).loc b)) (c : Dev nD)

/-- The node features as the region reads them. -/
abbrev nodeRows : FVec Ideal S100000x128 .bf16 := V c main_v4
/-- The messages summed into their destination nodes. -/
abbrev aggregated : FVec Ideal S100000x144 .f32 := V c main_v18
/-- The node positions. -/
abbrev positions : FVec Ideal S100000x3 .f32 := V c main_arg1
/-- The self-interaction weights. -/
abbrev selfW : FVec Ideal S128x144 .bf16 := V c main_v19
/-- The bloom weights. -/
abbrev bloomW : FVec Ideal S16x12 .bf16 := V c main_v20

/-- The node update before it is split: the aggregated messages plus the self term. -/
abbrev nodeOut : FVec Ideal S100000x144 .f32 :=
  addf (F := Ideal) (aggregated V c) (Host.dotGeneral (F := Ideal) (φ₁ := .bf16) (φ₂ := .bf16) Cert.ReferenceIdeal.dot_S100000x128_S128x144_S100000x144_1_0_0_1_n_n none (nodeRows V c) (selfW V c))

theorem zero_offsets : (![0, 0] : Fin 2 → Nat) = fun _ => 0 := funext fun a => by fin_cases a <;> rfl

/-- The windows' index maps over the grid: the three row-blocked inputs and the output move one block of 4000 rows per
    point; the two weight matrices stay whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 25 := N_1 ▸ t.isLt

/-- Row r of point t's block of node rows is row 4000 t + r of the array. -/
theorem rows_block (t : Fin cfg1.N) (r : Fin 4000) (k : Fin 128) :
    (iblk1 V c 0 t : S4000x128.Idx → Elt Ideal .bf16) (ix2 r k)
      = nodeRows V c (ix2 ⟨t.val * 4000 + r.val, by have := point_lt t; omega⟩ k) := by
  obtain ⟨e00, e01, e10, e11, e20, e21, e30, e31, e40, e41, e60, e61⟩ := idx_facts t
  show V c main_v4 (((cfg1.win 0).blk t).view.emb (ix2 r k)) = V c main_v4 _
  refine congrArg _ (funext fun a => Fin.ext ?_)
  match a with
  | ⟨0, _⟩ => show win1_0.index t (0 : Fin 2) * 4000 + 1 * r.val = t.val * 4000 + r.val; omega
  | ⟨1, _⟩ => show win1_0.index t (1 : Fin 2) * 128 + 1 * k.val = k.val; omega

/-- Row r of point t's block of aggregated messages is row 4000 t + r of the array. -/
theorem aggregated_block (t : Fin cfg1.N) (r : Fin 4000) (e : Fin 144) :
    (iblk1 V c 1 t : S4000x144.Idx → Elt Ideal .f32) (ix2 r e)
      = aggregated V c (ix2 ⟨t.val * 4000 + r.val, by have := point_lt t; omega⟩ e) := by
  obtain ⟨e00, e01, e10, e11, e20, e21, e30, e31, e40, e41, e60, e61⟩ := idx_facts t
  show V c main_v18 (((cfg1.win 1).blk t).view.emb (ix2 r e)) = V c main_v18 _
  refine congrArg _ (funext fun a => Fin.ext ?_)
  match a with
  | ⟨0, _⟩ => show win1_1.index t (0 : Fin 2) * 4000 + 1 * r.val = t.val * 4000 + r.val; omega
  | ⟨1, _⟩ => show win1_1.index t (1 : Fin 2) * 144 + 1 * e.val = e.val; omega

/-- Row r of point t's block of positions is row 4000 t + r of the array. -/
theorem positions_block (t : Fin cfg1.N) (r : Fin 4000) (d : Fin 3) :
    (iblk1 V c 2 t : S4000x3.Idx → Elt Ideal .f32) (ix2 r d)
      = positions V c (ix2 ⟨t.val * 4000 + r.val, by have := point_lt t; omega⟩ d) := by
  obtain ⟨e00, e01, e10, e11, e20, e21, e30, e31, e40, e41, e60, e61⟩ := idx_facts t
  show V c main_arg1 (((cfg1.win 2).blk t).view.emb (ix2 r d)) = V c main_arg1 _
  refine congrArg _ (funext fun a => Fin.ext ?_)
  match a with
  | ⟨0, _⟩ => show win1_2.index t (0 : Fin 2) * 4000 + 1 * r.val = t.val * 4000 + r.val; omega
  | ⟨1, _⟩ => show win1_2.index t (1 : Fin 2) * 3 + 1 * d.val = d.val; omega

/-- Every point's block of the self weights is the whole matrix. -/
theorem selfW_block (t : Fin cfg1.N) (k : Fin 128) (e : Fin 144) :
    (iblk1 V c 3 t : S128x144.Idx → Elt Ideal .bf16) (ix2 k e) = selfW V c (ix2 k e) := by
  obtain ⟨e00, e01, e10, e11, e20, e21, e30, e31, e40, e41, e60, e61⟩ := idx_facts t
  show V c main_v19 (((cfg1.win 3).blk t).view.emb (ix2 k e)) = V c main_v19 _
  refine congrArg _ (funext fun a => Fin.ext ?_)
  match a with
  | ⟨0, _⟩ => show win1_3.index t (0 : Fin 2) * 128 + 1 * k.val = k.val; omega
  | ⟨1, _⟩ => show win1_3.index t (1 : Fin 2) * 144 + 1 * e.val = e.val; omega

/-- Every point's block of the bloom weights is the whole matrix. -/
theorem bloomW_block (t : Fin cfg1.N) (e : Fin 16) (q : Fin 12) :
    (iblk1 V c 4 t : S16x12.Idx → Elt Ideal .bf16) (ix2 e q) = bloomW V c (ix2 e q) := by
  obtain ⟨e00, e01, e10, e11, e20, e21, e30, e31, e40, e41, e60, e61⟩ := idx_facts t
  show V c main_v20 (((cfg1.win 4).blk t).view.emb (ix2 e q)) = V c main_v20 _
  refine congrArg _ (funext fun a => Fin.ext ?_)
  match a with
  | ⟨0, _⟩ => show win1_4.index t (0 : Fin 2) * 16 + 1 * e.val = e.val; omega
  | ⟨1, _⟩ => show win1_4.index t (1 : Fin 2) * 12 + 1 * q.val = q.val; omega

/-! ### The node update of the whole array at an index -/

theorem lhs_node_0 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x144_S100000x144_1_0_0_1_n_n.lhsBatch by decide), dif_pos (show (0 : Fin Cert.ReferenceIdeal.S100000x128.rank) ∈ Cert.ReferenceIdeal.dot_S100000x128_S128x144_S100000x144_1_0_0_1_n_n.lhsNonContracting by decide)]
  rfl
theorem lhs_node_1 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.lhsIdx i q 1).val = (q ⟨0, by decide⟩).val :=
  Cert.ReferenceIdeal.dot_S100000x128_S128x144_S100000x144_1_0_0_1_n_n.lhsIdx_val_of_single rfl i q
theorem rhs_node_0 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.rhsIdx i q 0).val = (q ⟨0, by decide⟩).val :=
  Cert.ReferenceIdeal.dot_S100000x128_S128x144_S100000x144_1_0_0_1_n_n.rhsIdx_val_of_single rfl i q
theorem rhs_node_1 (i : Cert.ReferenceIdeal.S100000x144.Idx) (q : Cert.ReferenceIdeal.dot_S100000x128_S128x144_S100000x144_1_0_0_1_n_n.contr.Idx) :
    (Cert.ReferenceIdeal.dot_S100000x128_S128x144_S100000x144_1_0_0_1_n_n.rhsIdx i q 1).val = (i 1).val := by
  unfold DotDims.rhsIdx
  rw [dif_neg (show ¬(1 : Fin Cert.ReferenceIdeal.S128x144.rank) ∈ Cert.ReferenceIdeal.dot_S100000x128_S128x144_S100000x144_1_0_0_1_n_n.rhsBatch by decide), dif_pos (show (1 : Fin Cert.ReferenceIdeal.S128x144.rank) ∈ Cert.ReferenceIdeal.dot_S100000x128_S128x144_S100000x144_1_0_0_1_n_n.rhsNonContracting by decide)]
  rfl

/-- The node update at (n, e): the aggregated message plus row n of the node rows against column e of the self weights. -/
theorem nodeOut_apply (n : Fin 100000) (e : Fin 144) :
    nodeOut V c (ix2 n e) = aggregated V c (ix2 n e) + ∑ k : Fin 128, nodeRows V c (ix2 n k) * selfW V c (ix2 k e) := by
  show aggregated V c (ix2 n e) + Host.dotGeneral (F := Ideal) (φ₁ := .bf16) (φ₂ := .bf16) Cert.ReferenceIdeal.dot_S100000x128_S128x144_S100000x144_1_0_0_1_n_n none (nodeRows V c) (selfW V c) (ix2 n e) = _
  simp only [Host.dotGeneral]
  rw [Ideal.dotGeneral_apply, ← Equiv.sum_comp (contrEquiv1 Cert.ReferenceIdeal.dot_S100000x128_S128x144_S100000x144_1_0_0_1_n_n 128 rfl rfl).symm]
  refine congrArg _ (Finset.sum_congr rfl fun k _ => ?_)
  have hk := contrEquiv1_symm_val Cert.ReferenceIdeal.dot_S100000x128_S128x144_S100000x144_1_0_0_1_n_n 128 rfl rfl k
  have el : Cert.ReferenceIdeal.dot_S100000x128_S128x144_S100000x144_1_0_0_1_n_n.lhsIdx (ix2 n e) ((contrEquiv1 Cert.ReferenceIdeal.dot_S100000x128_S128x144_S100000x144_1_0_0_1_n_n 128 rfl rfl).symm k) = ix2 n k := funext fun a => Fin.ext (by
    match a with
    | ⟨0, _⟩ => exact lhs_node_0 _ _
    | ⟨1, _⟩ => exact (lhs_node_1 _ _).trans hk)
  have er : Cert.ReferenceIdeal.dot_S100000x128_S128x144_S100000x144_1_0_0_1_n_n.rhsIdx (ix2 n e) ((contrEquiv1 Cert.ReferenceIdeal.dot_S100000x128_S128x144_S100000x144_1_0_0_1_n_n 128 rfl rfl).symm k) = ix2 k e := funext fun a => Fin.ext (by
    match a with
    | ⟨0, _⟩ => exact (rhs_node_0 _ _).trans hk
    | ⟨1, _⟩ => exact rhs_node_1 _ _)
  rw [el, er]

/-! ### From the blocks to the array -/

/-- The 100000 × 12 array as one function of the positions, the node update and the bloom weights: at (n, q) the
    position's coordinate q mod 3 plus the scaled offset of column q. -/
def bloomFlat (P : FVec Ideal S100000x3 .f32) (N : FVec Ideal S100000x144 .f32) (W : FVec Ideal S16x12 .bf16) : S100000x12.Idx → Elt Ideal .f32 :=
  fun i => P (ix2 (i 0 : Fin 100000) ⟨(i 1).val % 3, Nat.mod_lt _ (by decide)⟩)
    + (∑ e : Fin 16, N (ix2 (i 0 : Fin 100000) ⟨e.val, by omega⟩) * W (ix2 e (i 1 : Fin 12))) * Ideal.ofBits .f32 0x3DCCCCCD#32

/-- What the body leaves at (r, q) of point t's block is the array's function at row 4000 t + r. -/
theorem block_is_flat (t : Fin cfg1.N) (r : Fin 4000) (q : Fin 12) :
    (k1_pay3 (F := Ideal) (iblk1 V c 1 t) (iblk1 V c 0 t) (iblk1 V c 3 t) (iblk1 V c 4 t) (iblk1 V c 2 t)) (ix2 r q)
      = bloomFlat (positions V c) (nodeOut V c) (bloomW V c) (ix2 ⟨t.val * 4000 + r.val, by have := point_lt t; omega⟩ q) := by
  rw [bloom_block_apply]
  unfold bloomFlat
  rw [positions_block]
  refine congrArg _ (congrArg (· * _) (Finset.sum_congr rfl fun e _ => ?_))
  rw [nodeOut_apply, aggregated_block, bloomW_block]
  refine congrArg (· * _) (congrArg _ (Finset.sum_congr rfl fun k _ => ?_))
  rw [rows_block, selfW_block]

/-- WHAT POINT t WRITES BACK is block t of the array's function. -/
theorem flushed_eq (t : Fin cfg1.N) :
    (dat1 (F := Ideal) V c).flushed 6 t
      = ((cfg1.win 6).blk t).view.read (Elt Ideal) (bloomFlat (positions V c) (nodeOut V c) (bloomW V c)) := by
  show (cfg1.win 6).cut (grid1.coords t) ((dat1 (F := Ideal) V c).after 6 t) = _
  rw [after1_6]
  unfold out1_6
  rw [View.canon_unit_zero zero_offsets]
  simp only [View.ld_unit_zero (S := S4000x128) zero_offsets, View.ld_unit_zero (S := S4000x144) zero_offsets,
    View.ld_unit_zero (S := S4000x3) zero_offsets, View.ld_unit_zero (S := S128x144) zero_offsets,
    View.ld_unit_zero (S := S16x12) zero_offsets]
  obtain ⟨e00, e01, e10, e11, e20, e21, e30, e31, e40, e41, e60, e61⟩ := idx_facts t
  funext j
  have hj0 : (j 0).val < 4000 := (j 0).isLt
  have hj1 : (j 1).val < 12 := (j 1).isLt
  have hx : (win1 6).xinj (grid1.coords t) j = ix2 ⟨(j 0).val, hj0⟩ ⟨(j 1).val, hj1⟩ :=
    funext fun a => match a with | ⟨0, _⟩ => rfl | ⟨1, _⟩ => rfl
  show (k1_pay3 (F := Ideal) (iblk1 V c 1 t) (iblk1 V c 0 t) (iblk1 V c 3 t) (iblk1 V c 4 t) (iblk1 V c 2 t)) ((win1 6).xinj (grid1.coords t) j)
    = bloomFlat (positions V c) (nodeOut V c) (bloomW V c) (((cfg1.win 6).blk t).view.emb j)
  rw [hx, block_is_flat]
  refine congrArg _ (funext fun a => Fin.ext ?_)
  match a with
  | ⟨0, _⟩ => show t.val * 4000 + (j 0).val = win1_6.index t (0 : Fin 2) * 4000 + 1 * (j 0).val; omega
  | ⟨1, _⟩ => show (j 1).val = win1_6.index t (1 : Fin 2) * 12 + 1 * (j 1).val; omega

/-- An index of the array is in point t's block iff each coordinate is in the block's range on its axis. -/
theorem mem_blk (t : Fin cfg1.N) (i : S100000x12.Idx) :
    i ∈ ((cfg1.win 6).blk t).view.set ↔ ∀ a : Fin 2, win1_6.index t a * S4000x12.size a ≤ (i a).val ∧ (i a).val < win1_6.index t a * S4000x12.size a + S4000x12.size a := by
  show i ∈ ((View.whole main_v21_1).slice (win1_6.rect t)).set ↔ _
  rw [View.set_slice_whole, Rect.mem_set_unit]
  exact Iff.rfl

/-- Row n of the array is in the block of point n / 4000, and every point writes its block back. -/
theorem covered (i : S100000x12.Idx) :
    ∃ t : Fin cfg1.N, (cfg1.win 6).flush t = true ∧ i ∈ ((cfg1.win 6).blk t).view.set := by
  have hi0 : (i 0).val < 100000 := (i 0).isLt
  have hi1 : (i 1).val < 12 := (i 1).isLt
  have hN : (i 0).val / 4000 < cfg1.N := by rw [show cfg1.N = 25 from N_1]; omega
  obtain ⟨e00, e01, e10, e11, e20, e21, e30, e31, e40, e41, e60, e61⟩ := idx_facts ⟨(i 0).val / 4000, hN⟩
  refine ⟨⟨(i 0).val / 4000, hN⟩, flush1_6 _, ?_⟩
  rw [mem_blk]
  intro a
  match a with
  | ⟨0, _⟩ =>
    show win1_6.index ⟨(i 0).val / 4000, hN⟩ (0 : Fin 2) * 4000 ≤ (i 0).val ∧ (i 0).val < win1_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, hN⟩ (1 : Fin 2) * 12 ≤ (i 1).val ∧ (i 1).val < win1_6.index ⟨(i 0).val / 4000, hN⟩ (1 : Fin 2) * 12 + 12
    rw [e61]; omega

/-- THE ARRAY after the region: the one function of the positions, the node update and the bloom weights. -/
theorem flat_eq :
    ((dat1 (F := Ideal) V c).arrAt 6 cfg1.N : Vec Ideal S100000x12 .f32) = bloomFlat (positions V c) (nodeOut V c) (bloomW V c) :=
  (dat1 (F := Ideal) V c).arrAt_eq_of_cover 6 (bloomFlat (positions V c) (nodeOut V c) (bloomW V c))
    (fun t _ => flushed_eq V c t) (covered)

/-! ### The array cut into children, against the reference's children -/

theorem lhs_off_0 (i : Cert.ReferenceIdeal.S100000x12.Idx) (q : Cert.ReferenceIdeal.dot_S100000x16_S16x12_S100000x12_1_0_0_1_n_n.contr.Idx) :
    (Cert.ReferenceIdeal.dot_S100000x16_S16x12_S100000x12_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x12_S100000x12_1_0_0_1_n_n.lhsBatch by decide), dif_pos (show (0 : Fin Cert.ReferenceIdeal.S100000x16.rank) ∈ Cert.ReferenceIdeal.dot_S100000x16_S16x12_S100000x12_1_0_0_1_n_n.lhsNonContracting by decide)]
  rfl
theorem lhs_off_1 (i : Cert.ReferenceIdeal.S100000x12.Idx) (q : Cert.ReferenceIdeal.dot_S100000x16_S16x12_S100000x12_1_0_0_1_n_n.contr.Idx) :
    (Cert.ReferenceIdeal.dot_S100000x16_S16x12_S100000x12_1_0_0_1_n_n.lhsIdx i q 1).val = (q ⟨0, by decide⟩).val :=
  Cert.ReferenceIdeal.dot_S100000x16_S16x12_S100000x12_1_0_0_1_n_n.lhsIdx_val_of_single rfl i q
theorem rhs_off_0 (i : Cert.ReferenceIdeal.S100000x12.Idx) (q : Cert.ReferenceIdeal.dot_S100000x16_S16x12_S100000x12_1_0_0_1_n_n.contr.Idx) :
    (Cert.ReferenceIdeal.dot_S100000x16_S16x12_S100000x12_1_0_0_1_n_n.rhsIdx i q 0).val = (q ⟨0, by decide⟩).val :=
  Cert.ReferenceIdeal.dot_S100000x16_S16x12_S100000x12_1_0_0_1_n_n.rhsIdx_val_of_single rfl i q
theorem rhs_off_1 (i : Cert.ReferenceIdeal.S100000x12.Idx) (q : Cert.ReferenceIdeal.dot_S100000x16_S16x12_S100000x12_1_0_0_1_n_n.contr.Idx) :
    (Cert.ReferenceIdeal.dot_S100000x16_S16x12_S100000x12_1_0_0_1_n_n.rhsIdx i q 1).val = (i 1).val := by
  unfold DotDims.rhsIdx
  rw [dif_neg (show ¬(1 : Fin Cert.ReferenceIdeal.S16x12.rank) ∈ Cert.ReferenceIdeal.dot_S100000x16_S16x12_S100000x12_1_0_0_1_n_n.rhsBatch by decide), dif_pos (show (1 : Fin Cert.ReferenceIdeal.S16x12.rank) ∈ Cert.ReferenceIdeal.dot_S100000x16_S16x12_S100000x12_1_0_0_1_n_n.rhsNonContracting by decide)]
  rfl

/-- The reference's offsets before they are cut into children: row n of the sixteen leading columns against column q
    of the bloom weights. -/
theorem offsets_apply (Y : FVec Ideal Cert.ReferenceIdeal.S100000x16 .f32) (W : FVec Ideal S16x12 .bf16) (n : Fin 100000) (q : Fin 12) :
    Host.dotGeneral (F := Ideal) (φ₁ := .f32) (φ₂ := .bf16) Cert.ReferenceIdeal.dot_S100000x16_S16x12_S100000x12_1_0_0_1_n_n none Y W (ix2 n q)
      = ∑ e : Fin 16, Y (ix2 n e) * W (ix2 e q) := by
  simp only [Host.dotGeneral]
  rw [Ideal.dotGeneral_apply, ← Equiv.sum_comp (contrEquiv1 Cert.ReferenceIdeal.dot_S100000x16_S16x12_S100000x12_1_0_0_1_n_n 16 rfl rfl).symm]
  refine Finset.sum_congr rfl fun e _ => ?_
  have he := contrEquiv1_symm_val Cert.ReferenceIdeal.dot_S100000x16_S16x12_S100000x12_1_0_0_1_n_n 16 rfl rfl e
  have el : Cert.ReferenceIdeal.dot_S100000x16_S16x12_S100000x12_1_0_0_1_n_n.lhsIdx (ix2 n q) ((contrEquiv1 Cert.ReferenceIdeal.dot_S100000x16_S16x12_S100000x12_1_0_0_1_n_n 16 rfl rfl).symm e) = ix2 n e := funext fun a => Fin.ext (by
    match a with
    | ⟨0, _⟩ => exact lhs_off_0 _ _
    | ⟨1, _⟩ => exact (lhs_off_1 _ _).trans he)
  have er : Cert.ReferenceIdeal.dot_S100000x16_S16x12_S100000x12_1_0_0_1_n_n.rhsIdx (ix2 n q) ((contrEquiv1 Cert.ReferenceIdeal.dot_S100000x16_S16x12_S100000x12_1_0_0_1_n_n 16 rfl rfl).symm e) = ix2 e q := funext fun a => Fin.ext (by
    match a with
    | ⟨0, _⟩ => exact (rhs_off_0 _ _).trans he
    | ⟨1, _⟩ => exact rhs_off_1 _ _)
  rw [el, er]

/-- Entry (n, k, d) of a 100000 × 12 array cut into (node, child, coordinate) is its entry (n, 3 k + d). -/
theorem cut_children_apply {α : Type} (X : S100000x12.Idx → α) (h : S100000x12.ShapeCasts S100000x4x3) (n : Fin 100000) (k : Fin 4) (d : Fin 3) :
    shapeCast S100000x4x3 X h (ix3 n k d) = X (ix2 n ⟨3 * k.val + d.val, by omega⟩) :=
  shapeCast_apply X h (ix3 n k d) (ix2 n ⟨3 * k.val + d.val, by omega⟩) (by
    rewrite [Shape.rowMajor_val_two, Shape.rowMajor_val_three]
    show n.val * 12 + (3 * k.val + d.val) = (n.val * 4 + k.val) * 3 + d.val
    omega)

/-- The position handed to every child: entry (n, k, d) of the positions broadcast over the children is position (n, d). -/
theorem parent_position_apply (P : FVec Ideal S100000x3 .f32) (n : Fin 100000) (k : Fin 4) (d : Fin 3) :
    broadcastInDim Cert.ReferenceIdeal.S100000x4x3 ![0, 1, 2] Cert.ReferenceIdeal.Gen.bcast_S100000x1x3_S100000x4x3_0_1_2
        (broadcastInDim Cert.ReferenceIdeal.S100000x1x3 ![0, 2] Cert.ReferenceIdeal.Gen.bcast_S100000x3_S100000x1x3_0_2 P) (ix3 n k d)
      = P (ix2 n d) := by
  rw [broadcastInDim_apply _ Cert.ReferenceIdeal.Gen.bcast_S100000x1x3_S100000x4x3_0_1_2 _ (ix3 n k d) (ix3 n (0 : Fin 1) d) (fun a => match a with
      | ⟨0, _⟩ => by show n.val = if (100000 : Nat) = 1 then 0 else n.val; rw [if_neg (by decide)]
      | ⟨1, _⟩ => by show 0 = if (1 : Nat) = 1 then 0 else k.val; rw [if_pos rfl]
      | ⟨2, _⟩ => by show d.val = if (3 : Nat) = 1 then 0 else d.val; rw [if_neg (by decide)]),
    broadcastInDim_apply _ Cert.ReferenceIdeal.Gen.bcast_S100000x3_S100000x1x3_0_2 P (ix3 n (0 : Fin 1) d) (ix2 n d) (fun a => match a with
      | ⟨0, _⟩ => by show n.val = if (100000 : Nat) = 1 then 0 else n.val; rw [if_neg (by decide)]
      | ⟨1, _⟩ => by show d.val = if (3 : Nat) = 1 then 0 else d.val; rw [if_neg (by decide)])]

/-- The reference's offset of child k, coordinate d of node n, before scaling. -/
theorem child_offset_apply (N : FVec Ideal S100000x144 .f32) (W : FVec Ideal S16x12 .bf16) (n : Fin 100000) (k : Fin 4) (d : Fin 3) :
    shapeCast Cert.ReferenceIdeal.S100000x4x3
        (Host.dotGeneral (F := Ideal) (φ₁ := .f32) (φ₂ := .bf16) Cert.ReferenceIdeal.dot_S100000x16_S16x12_S100000x12_1_0_0_1_n_n none
          (extractStridedSlice Cert.ReferenceIdeal.S100000x16 ![0, 0] N Cert.ReferenceIdeal.Gen.slices_S100000x144_S100000x16_0_0) W)
        Cert.ReferenceIdeal.Gen.shapeCasts_S100000x12_S100000x4x3 (ix3 n k d)
      = ∑ e : Fin 16, N (ix2 n ⟨e.val, by omega⟩) * W (ix2 e ⟨3 * k.val + d.val, by omega⟩) := by
  rw [cut_children_apply, offsets_apply]
  refine Finset.sum_congr rfl fun e _ => ?_
  rw [extractStridedSlice_apply ![0, 0] N Cert.ReferenceIdeal.Gen.slices_S100000x144_S100000x16_0_0 (ix2 n e) (ix2 n ⟨e.val, by omega⟩)
    (fun a => match a with
      | ⟨0, _⟩ => by show n.val = 0 + n.val; omega
      | ⟨1, _⟩ => by show e.val = 0 + e.val; omega)]

/-- The array's function cut into children: position (n, d) plus the scaled offset of child k, coordinate d. -/
theorem flat_children_apply (P : FVec Ideal S100000x3 .f32) (N : FVec Ideal S100000x144 .f32) (W : FVec Ideal S16x12 .bf16)
    (n : Fin 100000) (k : Fin 4) (d : Fin 3) :
    shapeCast S100000x4x3 (bloomFlat P N W) shapeCasts_S100000x12_S100000x4x3 (ix3 n k d)
      = P (ix2 n d) + (∑ e : Fin 16, N (ix2 n ⟨e.val, by omega⟩) * W (ix2 e ⟨3 * k.val + d.val, by omega⟩)) * Ideal.ofBits .f32 0x3DCCCCCD#32 := by
  rw [cut_children_apply]
  unfold bloomFlat
  have hd : (⟨(3 * k.val + d.val) % 3, Nat.mod_lt _ (by decide)⟩ : Fin 3) = d := Fin.ext (by show (3 * k.val + d.val) % 3 = d.val; omega)
  show P (ix2 n ⟨(3 * k.val + d.val) % 3, Nat.mod_lt _ (by decide)⟩) + _ = _
  rw [hd]

/-- The two arrangements of the children agree: the array cut into (node, child, coordinate) is the reference's
    position plus scaled offset. -/
theorem children_eq (P : FVec Ideal S100000x3 .f32) (N : FVec Ideal S100000x144 .f32) (W : FVec Ideal S16x12 .bf16) :
    shapeCast S100000x4x3 (bloomFlat P N W) shapeCasts_S100000x12_S100000x4x3
      = addf (F := Ideal) (broadcastInDim Cert.ReferenceIdeal.S100000x4x3 ![0, 1, 2] Cert.ReferenceIdeal.Gen.bcast_S100000x1x3_S100000x4x3_0_1_2
                  (broadcastInDim Cert.ReferenceIdeal.S100000x1x3 ![0, 2] Cert.ReferenceIdeal.Gen.bcast_S100000x3_S100000x1x3_0_2 P))
                (mulf (F := Ideal) (shapeCast Cert.ReferenceIdeal.S100000x4x3
                        (Host.dotGeneral (F := Ideal) (φ₁ := .f32) (φ₂ := .bf16) Cert.ReferenceIdeal.dot_S100000x16_S16x12_S100000x12_1_0_0_1_n_n none
                          (extractStridedSlice Cert.ReferenceIdeal.S100000x16 ![0, 0] N Cert.ReferenceIdeal.Gen.slices_S100000x144_S100000x16_0_0) W)
                        Cert.ReferenceIdeal.Gen.shapeCasts_S100000x12_S100000x4x3)
                      (broadcastInDim Cert.ReferenceIdeal.S100000x4x3 ![] Cert.ReferenceIdeal.Gen.bcast_S_S100000x4x3 (constant (F := Ideal) Cert.ReferenceIdeal.S_ .f32 0x3DCCCCCD#32))) := by
  funext i
  obtain ⟨n, k, d, rfl⟩ : ∃ (n : Fin 100000) (k : Fin 4) (d : Fin 3), i = ix3 n k d := ⟨i 0, i 1, i 2, eq_ix3 i⟩
  rw [flat_children_apply, addf_apply, mulf_apply, parent_position_apply, child_offset_apply,
    broadcastInDim_apply _ Cert.ReferenceIdeal.Gen.bcast_S_S100000x4x3 _ (ix3 n k d) ix0 (fun a => a.elim0), constant_apply]

/-- After the region its second output array, laid out one row per child, holds the parent's position
    plus the scaled offset of that child. -/
theorem bloom_positions :
    shapeCast S400000x3 (shapeCast S100000x4x3 ((dat1 (F := Ideal) V c).arrAt 6 cfg1.N : Vec Ideal S100000x12 .f32) shapeCasts_S100000x12_S100000x4x3) shapeCasts_S100000x4x3_S400000x3
      = shapeCast Cert.ReferenceIdeal.S400000x3
          (addf (F := Ideal) (broadcastInDim Cert.ReferenceIdeal.S100000x4x3 ![0, 1, 2] Cert.ReferenceIdeal.Gen.bcast_S100000x1x3_S100000x4x3_0_1_2
                  (broadcastInDim Cert.ReferenceIdeal.S100000x1x3 ![0, 2] Cert.ReferenceIdeal.Gen.bcast_S100000x3_S100000x1x3_0_2 (positions V c)))
                (mulf (F := Ideal) (shapeCast Cert.ReferenceIdeal.S100000x4x3
                        (Host.dotGeneral (F := Ideal) (φ₁ := .f32) (φ₂ := .bf16) Cert.ReferenceIdeal.dot_S100000x16_S16x12_S100000x12_1_0_0_1_n_n none
                          (extractStridedSlice Cert.ReferenceIdeal.S100000x16 ![0, 0] (nodeOut V c) Cert.ReferenceIdeal.Gen.slices_S100000x144_S100000x16_0_0) (bloomW V c))
                        Cert.ReferenceIdeal.Gen.shapeCasts_S100000x12_S100000x4x3)
                      (broadcastInDim Cert.ReferenceIdeal.S100000x4x3 ![] Cert.ReferenceIdeal.Gen.bcast_S_S100000x4x3 (constant (F := Ideal) Cert.ReferenceIdeal.S_ .f32 0x3DCCCCCD#32))))
          Cert.ReferenceIdeal.Gen.shapeCasts_S100000x4x3_S400000x3 := by
  rw [flat_eq, children_eq]

end Cert.KernelIdeal.BloomPositions

end
-- ==== Proof.LibRowGather.lean ====
/-
  A ROW TAKE READ AT AN INDEX. jnp's `table[idx]` over the rows of a rank-2 table `[N × D]`, at a list of M row numbers,
  is a `stablehlo.gather` of one shape: the start indices are the `[M × 1]` column of row numbers, operand axis 0 is collapsed
  and is the one axis the start index addresses, operand axis 1 is kept whole (slice size D) as the result's offset
  axis, there are no batching axes, and the index vector lies along axis 1 of the start indices. StableHLO reads each
  start index as a signed integer and clamps it so that the slice fits the operand, which for a slice of one row is
  into `[0, N − 1]`. So result element `(p, q)` is the table at row `min (toNat (toInt idx[p, 0])) (N − 1)`, column `q`:
  the row the start index names, the column kept. The lemma is general in the extents, the word width and the element
  type; nothing here names a program.
-/
import Idealize.ShloMosaic.Lib.StableHlo.Predicate
import Idealize.ShloMosaic.Lib.ValueIdx

namespace Cert.Lib.RowGather

open Idealize.ShloMosaic Idealize.ShloMosaic.ValueIdx

/-- THE ROW TAKE. A `stablehlo.gather` that is jnp's `table[idx]` over the rows of a rank-2 table `[N × D]`: its start
    indices are the `[M × 1]` column of row numbers: operand axis 0 is collapsed and start-indexed, operand axis 1
    is kept whole as the result's offset axis 1, there are no batching axes, and the index vector lies on axis 1 of
    the start indices (`hoff` … `hivd`: the printed dimension numbers, each by `rfl`). Result element `(p, q)`
    is the table at column `q` of the row that start index `p` names, read SIGNED and CLAMPED into `[0, N − 1]`. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p (0 : Fin 1))).toInt.toNat (N - 1), by omega⟩ q) := by
  -- with the five lists substituted the record is a literal one but for its slice sizes and its (empty)
  -- list of batching axes of the start indices; call it `d` again
  obtain ⟨od, cd, ob, sb, sm, iv, ss, wf⟩ := d
  dsimp only at hoff hcoll hob hsim hivd
  subst hoff hcoll hob hsim hivd
  generalize hd : (⟨[1], [0], [], sb, [0], 1, ss, wf⟩ : GatherDims ⟨2, ![N, D]⟩ ⟨2, ![M, 1]⟩ ⟨2, ![M, D]⟩) = d
  unfold Host.gather
  congr 1
  funext a
  apply Fin.ext
  have hb : ∀ a, a ∉ d.operandBatchingDims := by subst hd; exact fun a => List.not_mem_nil
  match a with
  | ⟨0, _⟩ =>
    -- the row axis: collapsed (no offset coordinate), not batching, start-indexed — the clamped start alone
    have hk : (0 : Fin 2) ∉ d.sKept := by
      subst hd; exact fun h => ((GatherDims.mem_sKept _ _).mp h).1 (List.mem_singleton.mpr rfl)
    have hm : (0 : Fin 2) ∈ d.startIndexMap := by subst hd; exact List.mem_singleton.mpr rfl
    have hsl : d.sliceSizes 0 = 1 := d.slice_collapsed 0 (by subst hd; exact List.mem_singleton.mpr rfl)
    -- the start index is read at (the result's row, component 0)
    have hsi : d.siIdx (ix2 p q) ⟨List.idxOf (0 : Fin 2) d.startIndexMap, List.idxOf_lt_length_iff.2 hm⟩ = ix2 p (0 : Fin 1) := by
      subst hd
      funext b; refine Fin.ext ?_
      match b with
      | ⟨0, _⟩ => rfl
      | ⟨1, _⟩ => rfl
    show d.start (ix2 p q) idx 0 + d.batchCoord (ix2 p q) 0 + d.offCoord (ix2 p q) 0 = min (idx (ix2 p (0 : Fin 1))).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- the column axis: kept whole, so no start and no batching coordinate — the result's column alone
    have hk : (1 : Fin 2) ∈ d.sKept := by
      subst hd
      exact (GatherDims.mem_sKept _ _).mpr ⟨fun h => Nat.one_ne_zero (congrArg Fin.val (List.mem_singleton.mp h)), List.not_mem_nil⟩
    have hm : (1 : Fin 2) ∉ d.startIndexMap := by
      subst hd; exact fun h => Nat.one_ne_zero (congrArg Fin.val (List.mem_singleton.mp h))
    show d.start (ix2 p q) idx 1 + d.batchCoord (ix2 p q) 1 + d.offCoord (ix2 p q) 1 = q.val
    rw [GatherDims.batchCoord_eq_zero _ _ _ (hb 1)]
    simp only [Nat.add_zero]
    unfold GatherDims.start GatherDims.offCoord
    rw [dif_neg hm, dif_pos hk, Nat.zero_add]
    subst hd
    rfl

end Cert.Lib.RowGather
-- ==== Proof.RepeatRows.lean ====
/-
  Reading a table at the parent of each child point is laying every row of the table out four times.
  The parent list is 0,0,0,0,1,1,1,1,…: the counting sequence 0 … 99999 spread over four columns and read
  row by row, so entry 4n + k is n, which is never negative and never past the table's end. A gather at
  that list therefore reads row n of the table at position 4n + k, and so does the table repeated along a
  new middle axis and flattened.
-/
import proofs.«428030_j58119497450175_2_alg».proof.Proof.Gen.KernelIdeal
import proofs.«428030_j58119497450175_2_alg».proof.Proof.Gen.ReferenceIdeal.Read
import proofs.«428030_j58119497450175_2_alg».proof.Proof.LibRowGather
import Idealize.ShloMosaic.Lib.StableHlo.Predicate
import Idealize.ShloMosaic.Lib.Pipeline.Value
import Idealize.ShloMosaic.Lib.ValueIdx

set_option maxRecDepth 16384

noncomputable section

namespace Cert.RepeatRows

open Idealize.ShloMosaic Idealize.ShloMosaic.TcCoe Idealize.SL.Sem

open Idealize.ShloMosaic.ValueIdx

/-! ## The parent list at an index -/

/-- The counting sequence spread over four columns and read row by row: entry `i` is the word `⌊i / 4⌋`. -/
theorem spread_apply (i : Cert.ReferenceIdeal.S400000.Idx) :
    Cert.ReferenceIdeal.Read.val_main_v31 (F := Ideal) i = BitVec.ofNat 32 ((i 0).val / 4) := by
  rw [Cert.ReferenceIdeal.Read.val_main_v31_apply, Cert.ReferenceIdeal.Read.val_main_v30_apply,
    Cert.ReferenceIdeal.Read.val_main_v29_apply]

/-- The normalisation of an index, "add the table's length if negative", leaves a word below 2³¹ alone:
    such a word is not negative as a signed integer, whatever the other branch `y` holds. -/
theorem normalise_small (n : Nat) (hn : n < 2 ^ 31) (y : BitVec 32) :
    Scalar.select (IntOp.cmpi .slt (BitVec.ofNat 32 n) 0#32) y (BitVec.ofNat 32 n) = BitVec.ofNat 32 n := by
  have h : ¬ IntOp.cmpi .slt (BitVec.ofNat 32 n) 0#32 = 1#1 := by
    rw [StableHlo.Predicate.slt_iff_toNat (by rw [BitVec.toNat_ofNat]; omega) (by decide)]
    exact Nat.not_lt_zero _
  rw [eq_zero_of_ne_one h, select_zero]

/-- A parent's number read signed and clamped into the table is the number itself. -/
theorem clamp_parent (n : Nat) (hn : n < 100000) : min (BitVec.ofNat 32 n).toInt.toNat (100000 - 1) = n := by
  rw [StableHlo.Predicate.toInt_ofNat_small n (by omega), Int.toNat_natCast]
  omega

/-- The parent list that indexes the node features: entry `i` is the word `⌊i / 4⌋`. -/
theorem parents_features (i : Cert.ReferenceIdeal.S400000x1.Idx) :
    Cert.ReferenceIdeal.Read.val_main_v64 (F := Ideal) i = BitVec.ofNat 32 ((i 0).val / 4) := by
  rw [Cert.ReferenceIdeal.Read.val_main_v64_apply, Cert.ReferenceIdeal.Read.val_main_v63_apply,
    Cert.ReferenceIdeal.Read.val_main_v60_apply, Cert.ReferenceIdeal.Read.val_main_v59_apply,
    Cert.ReferenceIdeal.Read.val_main_c_10_apply, spread_apply]
  show Scalar.select (IntOp.cmpi .slt (BitVec.ofNat 32 ((i 0).val / 4)) 0#32) _ (BitVec.ofNat 32 ((i 0).val / 4)) = _
  exact normalise_small _ (by have := idx2_lt0 i; omega) _

/-- The program builds the parent list three times, by the same operations from the same constants: the list that
    indexes the positions is the one that indexes the features … -/
theorem parents_positions (i : Cert.ReferenceIdeal.S400000x1.Idx) :
    Cert.ReferenceIdeal.Read.val_main_v49 (F := Ideal) i = BitVec.ofNat 32 ((i 0).val / 4) :=
  parents_features i

/-- … and so is the one that indexes the batch numbers. -/
theorem parents_batch (i : Cert.ReferenceIdeal.S400000x1.Idx) :
    Cert.ReferenceIdeal.Read.val_main_v96 (F := Ideal) i = BitVec.ofNat 32 ((i 0).val / 4) :=
  parents_features i

/-! ## A gather at the parent list is the repeat -/

/-- A table of 100000 rows of any width `D`, gathered at the list whose entry `i` is `⌊i / 4⌋`, is the table with
    every row laid out four times: repeated along a new middle axis and flattened to 400000 rows. At `(p, q)` both
    are the table at `(⌊p / 4⌋, q)`. -/
theorem gather_parents {α : Type} {D : Nat}
    (d : GatherDims ⟨2, ![100000, D]⟩ ⟨2, ![400000, 1]⟩ ⟨2, ![400000, D]⟩)
    (hoff : d.offsetDims = [1]) (hcoll : d.collapsedSliceDims = [0]) (hob : d.operandBatchingDims = [])
    (hsim : d.startIndexMap = [0]) (hivd : d.indexVectorDim = 1)
    (idx : IVec ⟨2, ![400000, 1]⟩ 32) (hidx : ∀ i, idx i = BitVec.ofNat 32 ((i 0).val / 4))
    (hb : (⟨2, ![100000, D]⟩ : Shape).BroadcastsInDim ⟨3, ![100000, 4, D]⟩ ![0, 2])
    (hc : (⟨3, ![100000, 4, D]⟩ : Shape).ShapeCasts ⟨2, ![400000, D]⟩)
    (x : (⟨2, ![100000, D]⟩ : Shape).Idx → α) :
    Host.gather d x idx = shapeCast ⟨2, ![400000, D]⟩ (broadcastInDim ⟨3, ![100000, 4, D]⟩ ![0, 2] hb x) hc := by
  funext j
  obtain ⟨p, q, rfl⟩ : ∃ (p : Fin 400000) (q : Fin D), j = ix2 p q := ⟨j 0, j 1, eq_ix2 j⟩
  have hp : p.val / 4 < 100000 := by have := p.isLt; omega
  have hk : p.val % 4 < 4 := Nat.mod_lt _ (by decide)
  trans x (ix2 ⟨p.val / 4, hp⟩ q)
  · -- the gather: the start index ⌊p / 4⌋ is inside the table, so the clamp leaves it
    rw [Cert.Lib.RowGather.gather_rows d hoff hcoll hob hsim hivd x idx p q (by omega)]
    refine congrArg (fun r : Fin 100000 => x (ix2 r q)) (Fin.ext ?_)
    show min (idx (ix2 p (0 : Fin 1))).toInt.toNat (100000 - 1) = p.val / 4
    rw [hidx]
    exact clamp_parent _ hp
  · -- the repeat: row p of the flattened array is (⌊p / 4⌋, p mod 4) of the three-axis one, whose middle
    -- coordinate the broadcast drops
    symm
    rw [shapeCast_apply _ hc (ix2 p q) (ix3 (⟨p.val / 4, hp⟩ : Fin 100000) (⟨p.val % 4, hk⟩ : Fin 4) q)
        (by rewrite [Shape.rowMajor_val_three, Shape.rowMajor_val_two]
            show (p.val / 4 * 4 + p.val % 4) * D + q.val = p.val * D + q.val
            rw [Nat.div_add_mod'])]
    exact broadcastInDim_apply _ hb x _ (ix2 ⟨p.val / 4, hp⟩ q)
      (fun a => match a with
        | ⟨0, _⟩ => by show p.val / 4 = if (100000 : Nat) = 1 then 0 else p.val / 4; rw [if_neg (by decide)]
        | ⟨1, _⟩ => by
          show q.val = if D = 1 then 0 else q.val
          have := q.isLt
          split <;> omega)

/-- Reading the node features at each child's parent row is laying every row out four times. -/
theorem features_repeat (h : Vec Ideal Cert.ReferenceIdeal.S100000x128 .f32) :
    Host.gather Cert.ReferenceIdeal.gather_S100000x128_S400000x1_S400000x128_1_0_n_n_0_1_1128 h (Cert.ReferenceIdeal.Read.val_main_v64 (F := Ideal))
      = shapeCast Cert.KernelIdeal.S400000x128 (broadcastInDim Cert.KernelIdeal.S100000x4x128 ![0, 2] Cert.KernelIdeal.Gen.bcast_S100000x128_S100000x4x128_0_2 h) Cert.KernelIdeal.Gen.shapeCasts_S100000x4x128_S400000x128 := by
  exact gather_parents _ rfl rfl rfl rfl rfl _ parents_features _ _ h

theorem positions_repeat (p : Vec Ideal Cert.ReferenceIdeal.S100000x3 .f32) :
    Host.gather Cert.ReferenceIdeal.gather_S100000x3_S400000x1_S400000x3_1_0_n_n_0_1_13 p (Cert.ReferenceIdeal.Read.val_main_v49 (F := Ideal))
      = shapeCast Cert.KernelIdeal.S400000x3 (broadcastInDim Cert.KernelIdeal.S100000x4x3 ![0, 2] Cert.KernelIdeal.Gen.bcast_S100000x3_S100000x4x3_0_2 p) Cert.KernelIdeal.Gen.shapeCasts_S100000x4x3_S400000x3 := by
  exact gather_parents _ rfl rfl rfl rfl rfl _ parents_positions _ _ p

theorem batch_repeat (b : IVec Cert.ReferenceIdeal.S100000 32) :
    Host.gather Cert.ReferenceIdeal.gather_S100000_S400000x1_S400000_n_0_n_n_0_1_1 b (Cert.ReferenceIdeal.Read.val_main_v96 (F := Ideal))
      = shapeCast Cert.KernelIdeal.S400000 (broadcastInDim Cert.KernelIdeal.S100000x4 ![0] Cert.KernelIdeal.Gen.bcast_S100000_S100000x4_0 b) Cert.KernelIdeal.Gen.shapeCasts_S100000x4_S400000 := by
  funext j
  obtain ⟨p, rfl⟩ : ∃ p : Fin 400000, j = Shape.Idx.ofFin p := ⟨j 0, Shape.Idx.eq_ofFin j⟩
  have hp : p.val / 4 < 100000 := by have := p.isLt; omega
  have hk : p.val % 4 < 4 := Nat.mod_lt _ (by decide)
  -- both sides are the table at ⌊p / 4⌋
  trans b (ix1 ⟨p.val / 4, hp⟩)
  · rw [StableHlo.Predicate.gather_take _ rfl rfl rfl rfl b _ p (by omega)]
    refine congrArg b (funext fun a => Fin.ext ?_)
    obtain rfl : a = 0 := Subsingleton.elim _ _
    show min (Cert.ReferenceIdeal.Read.val_main_v96 (F := Ideal) (StableHlo.Predicate.ixP p)).toInt.toNat (100000 - 1) = p.val / 4
    rw [parents_batch]
    exact clamp_parent _ hp
  · symm
    rw [shapeCast_apply _ Cert.KernelIdeal.Gen.shapeCasts_S100000x4_S400000 (Shape.Idx.ofFin p)
        (ix2 (⟨p.val / 4, hp⟩ : Fin 100000) (⟨p.val % 4, hk⟩ : Fin 4))
        (by rewrite [Shape.rowMajor_val_two, Shape.rowMajor_val_one]
            show p.val / 4 * 4 + p.val % 4 = p.val
            omega)]
    exact broadcastInDim_apply _ Cert.KernelIdeal.Gen.bcast_S100000_S100000x4_0 b _ (ix1 ⟨p.val / 4, hp⟩)
      (fun a => match a with
        | ⟨0, _⟩ => by show p.val / 4 = if (100000 : Nat) = 1 then 0 else p.val / 4; rw [if_neg (by decide)])

end Cert.RepeatRows

end
-- ==== Proof.KernelStages.lean ====
/-
  The kernel's program read boundary by boundary. Its @main is four stretches of host operations around
  three kernel regions; the contents of every buffer at each boundary is a fold through @main from the
  launch memory. Here each buffer a later step reads is written as a function of the ARGUMENT arrays, in
  the reference's own vocabulary: the same host operation on both sides is the same function, a change of
  float format is the identity on the extended reals, and each region's output array is the whole-array
  function its blocks tile. The last boundary then holds the reference's four results.
-/
import proofs.«428030_j58119497450175_2_alg».proof.Proof.KernelRun
import proofs.«428030_j58119497450175_2_alg».proof.Proof.EdgeMessage
import proofs.«428030_j58119497450175_2_alg».proof.Proof.GatherMessage
import proofs.«428030_j58119497450175_2_alg».proof.Proof.NodeFeatures
import proofs.«428030_j58119497450175_2_alg».proof.Proof.BloomPositions
import proofs.«428030_j58119497450175_2_alg».proof.Proof.RepeatRows
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## A buffer nothing writes is read through -/

/-- No operation of the stretch writes the buffer. -/
abbrev NotWritten (ops : List (HloOp τ sig (Elt Ideal))) (b : Ref sig .tc) : Prop :=
  ∀ op ∈ ops, (Proc.devRef .tc b : DevRef τ sig) ∉ op.writes

/-- Decides `NotWritten` for one of @main's four stretches: every operation writes one buffer, and that buffer
    is another reference. -/
macro "not_written" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- At the first region's entry. -/
theorem at1 (b : Ref sig .tc) (h0 : NotWritten hostOps0 b) :
    W1 m ρ c (Proc.devRef .tc b) = m ((c : Thread nD τ).loc b) :=
  StableHlo.after_of_forall_not_mem _ _ h0
/-- At the first region's exit, for a buffer that is none of its arrays. -/
theorem at2 (b : Ref sig .tc) (h0 : NotWritten hostOps0 b) (r0 : ∀ w, Pipeline.arrRef spec0 w ≠ b) :
    W2 m ρ c (Proc.devRef .tc b) = m ((c : Thread nD τ).loc b) :=
  (W2_of_ne m ρ c b r0).trans (at1 m ρ c b h0)
/-- At the second region's entry. -/
theorem at3 (b : Ref sig .tc) (h0 : NotWritten hostOps0 b) (r0 : ∀ w, Pipeline.arrRef spec0 w ≠ b)
    (h1 : NotWritten hostOps1 b) : W3 m ρ c (Proc.devRef .tc b) = m ((c : Thread nD τ).loc b) :=
  (StableHlo.after_of_forall_not_mem _ _ h1).trans (at2 m ρ c b h0 r0)
/-- At the second region's exit, for a buffer that is none of its arrays. -/
theorem at4 (b : Ref sig .tc) (h0 : NotWritten hostOps0 b) (r0 : ∀ w, Pipeline.arrRef spec0 w ≠ b)
    (h1 : NotWritten hostOps1 b) (r1 : ∀ w, Pipeline.arrRef spec1 w ≠ b) :
    W4 m ρ c (Proc.devRef .tc b) = m ((c : Thread nD τ).loc b) :=
  (W4_of_ne m ρ c b r1).trans (at3 m ρ c b h0 r0 h1)
/-- At the third region's entry. -/
theorem at5 (b : Ref sig .tc) (h0 : NotWritten hostOps0 b) (r0 : ∀ w, Pipeline.arrRef spec0 w ≠ b)
    (h1 : NotWritten hostOps1 b) (r1 : ∀ w, Pipeline.arrRef spec1 w ≠ b) (h2 : NotWritten hostOps2 b) :
    W5 m ρ c (Proc.devRef .tc b) = m ((c : Thread nD τ).loc b) :=
  (StableHlo.after_of_forall_not_mem _ _ h2).trans (at4 m ρ c b h0 r0 h1 r1)
/-- At the third region's exit, for a buffer that is none of its arrays. -/
theorem at6 (b : Ref sig .tc) (h0 : NotWritten hostOps0 b) (r0 : ∀ w, Pipeline.arrRef spec0 w ≠ b)
    (h1 : NotWritten hostOps1 b) (r1 : ∀ w, Pipeline.arrRef spec1 w ≠ b) (h2 : NotWritten hostOps2 b)
    (r2 : ∀ w, Pipeline.arrRef spec2 w ≠ b) : W6 m ρ c (Proc.devRef .tc b) = m ((c : Thread nD τ).loc b) :=
  (W6_of_ne m ρ c b r2).trans (at5 m ρ c b h0 r0 h1 r1 h2)

/-! ## The argument arrays, by name -/

abbrev x : FVec Ideal S100000x128 .f32 := m ((c : Thread nD τ).loc main_arg0)
abbrev pos : FVec Ideal S100000x3 .f32 := m ((c : Thread nD τ).loc main_arg1)
abbrev edgeAttr : FVec Ideal S1600000x3 .f32 := m ((c : Thread nD τ).loc main_arg2)
abbrev wConv : FVec Ideal S128x144 .f32 := m ((c : Thread nD τ).loc main_arg3)
abbrev vConv : FVec Ideal S3x144 .f32 := m ((c : Thread nD τ).loc main_arg4)
abbrev wSelf : FVec Ideal S128x144 .f32 := m ((c : Thread nD τ).loc main_arg5)
abbrev wBloom : FVec Ideal S16x12 .f32 := m ((c : Thread nD τ).loc main_arg6)
abbrev wGather : FVec Ideal S128x128 .f32 := m ((c : Thread nD τ).loc main_arg7)
abbrev vGather : FVec Ideal S3x128 .f32 := m ((c : Thread nD τ).loc main_arg8)
abbrev edgeIndex : IVec S2x1600000 32 := m ((c : Thread nD τ).loc main_arg9)
abbrev batch : IVec S100000 32 := m ((c : Thread nD τ).loc main_arg10)
abbrev clusterId : IVec S400000 32 := m ((c : Thread nD τ).loc main_arg11)
abbrev newEdgeIndex : IVec S2x3200000 32 := m ((c : Thread nD τ).loc main_arg12)

/-! ## The first region's entry: the contents after the first stretch -/

/-- The gathered source rows are the reference's gather of the node features at the normalised sources
    (rounding the features to a shorter format first changes nothing on the extended reals). -/
theorem entry0_rows : W1 m ρ c (Proc.devRef .tc main_v11) = Cert.ReferenceIdeal.Read.val_main_v10 (F := Ideal) (x m c) (edgeIndex m c) := by
  show StableHlo.after hostOps0 (W0 m ρ c) (Proc.devRef .tc main_v11) = _
  after_results
  rfl
theorem entry0_attr : W1 m ρ c (Proc.devRef .tc main_v12) = edgeAttr m c := by
  show StableHlo.after hostOps0 (W0 m ρ c) (Proc.devRef .tc main_v12) = _
  after_results
  rfl
theorem entry0_w : W1 m ρ c (Proc.devRef .tc main_v13) = wConv m c := by
  show StableHlo.after hostOps0 (W0 m ρ c) (Proc.devRef .tc main_v13) = _
  after_results
  rfl
theorem entry0_v : W1 m ρ c (Proc.devRef .tc main_v14) = vConv m c := by
  show StableHlo.after hostOps0 (W0 m ρ c) (Proc.devRef .tc main_v14) = _
  after_results
  rfl
/-- The destination node of each edge. -/
theorem entry0_dst : W1 m ρ c (Proc.devRef .tc main_v3) = Cert.ReferenceIdeal.Read.val_main_v3 (F := Ideal) (edgeIndex m c) := by
  show StableHlo.after hostOps0 (W0 m ρ c) (Proc.devRef .tc main_v3) = _
  after_results
  rfl
theorem entry0_x : W1 m ρ c (Proc.devRef .tc main_v4) = x m c := by
  show StableHlo.after hostOps0 (W0 m ρ c) (Proc.devRef .tc main_v4) = _
  after_results
  rfl

/-! ## The first region's exit -/

/-- The edge messages are the reference's: (gathered rows · W) · (attributes · V), entry by entry. -/
theorem exit0_msg : W2 m ρ c (Proc.devRef .tc main_v15)
    = Cert.ReferenceIdeal.Read.val_main_v13 (F := Ideal) (x m c) (edgeAttr m c) (wConv m c) (vConv m c) (edgeIndex m c) := by
  refine (W2_arr m ρ c 4).trans ((EdgeMessage.edge_message (V1 m ρ) c).trans ?_)
  show mulf (F := Ideal)
      (Host.dotGeneral (F := Ideal) (φ₁ := .bf16) (φ₂ := .bf16) Cert.ReferenceIdeal.dot_S1600000x128_S128x144_S1600000x144_1_0_0_1_n_n none
        (W1 m ρ c (Proc.devRef .tc main_v11)) (W1 m ρ c (Proc.devRef .tc main_v13)))
      (Host.dotGeneral (F := Ideal) (φ₁ := .bf16) (φ₂ := .bf16) Cert.ReferenceIdeal.dot_S1600000x3_S3x144_S1600000x144_1_0_0_1_n_n none
        (W1 m ρ c (Proc.devRef .tc main_v12)) (W1 m ρ c (Proc.devRef .tc main_v14))) = _
  rw [entry0_rows, entry0_w, entry0_attr, entry0_v]
  rfl
theorem exit0_dst : W2 m ρ c (Proc.devRef .tc main_v3) = Cert.ReferenceIdeal.Read.val_main_v3 (F := Ideal) (edgeIndex m c) :=
  (W2_of_ne m ρ c main_v3 (by decide)).trans (entry0_dst m ρ c)
theorem exit0_x : W2 m ρ c (Proc.devRef .tc main_v4) = x m c :=
  (W2_of_ne m ρ c main_v4 (by decide)).trans (entry0_x m ρ c)

/-! ## The second region's entry -/

/-- The messages summed into their destination nodes. -/
theorem entry1_agg : W3 m ρ c (Proc.devRef .tc main_v18)
    = Cert.ReferenceIdeal.Read.val_main_v16 (F := Ideal) (x m c) (edgeAttr m c) (wConv m c) (vConv m c) (edgeIndex m c) := by
  show StableHlo.after hostOps1 (W2 m ρ c) (Proc.devRef .tc main_v18) = _
  after_results
  rw [exit0_msg, exit0_dst]
  rfl
theorem entry1_x : W3 m ρ c (Proc.devRef .tc main_v4) = x m c :=
  (StableHlo.after_of_forall_not_mem _ _ (by not_written)).trans (exit0_x m ρ c)
theorem entry1_wself : W3 m ρ c (Proc.devRef .tc main_v19) = wSelf m c := by
  show StableHlo.after hostOps1 (W2 m ρ c) (Proc.devRef .tc main_v19) = _
  after_results
  rw [at2 m ρ c main_arg5 (by not_written) (by decide)]
  rfl
theorem entry1_wbloom : W3 m ρ c (Proc.devRef .tc main_v20) = wBloom m c := by
  show StableHlo.after hostOps1 (W2 m ρ c) (Proc.devRef .tc main_v20) = _
  after_results
  rw [at2 m ρ c main_arg6 (by not_written) (by decide)]
  rfl
theorem entry1_pos : W3 m ρ c (Proc.devRef .tc main_arg1) = pos m c :=
  at3 m ρ c main_arg1 (by not_written) (by decide) (by not_written)

/-! ## The second region's exit -/

/-- The new node features are the reference's: columns 16 … 143 of the node update. -/
theorem exit1_h : W4 m ρ c (Proc.devRef .tc main_v21_0)
    = Cert.ReferenceIdeal.Read.val_main_v20 (F := Ideal) (x m c) (edgeAttr m c) (wConv m c) (vConv m c) (wSelf m c) (edgeIndex m c) := by
  refine (W4_arr m ρ c 5).trans ((NodeFeatures.node_features (V3 m ρ) c).trans ?_)
  show extractStridedSlice Cert.ReferenceIdeal.S100000x128 ![0, 16]
      (addf (F := Ideal) (W3 m ρ c (Proc.devRef .tc main_v18))
        (Host.dotGeneral (F := Ideal) (φ₁ := .bf16) (φ₂ := .bf16) Cert.ReferenceIdeal.dot_S100000x128_S128x144_S100000x144_1_0_0_1_n_n none
          (W3 m ρ c (Proc.devRef .tc main_v4)) (W3 m ρ c (Proc.devRef .tc main_v19))))
      Cert.ReferenceIdeal.Gen.slices_S100000x144_S100000x128_0_16 = _
  rw [entry1_agg, entry1_x, entry1_wself]
  rfl
/-- The child positions, one row per child, are the reference's. -/
theorem exit1_bloom :
    shapeCast S400000x3 (shapeCast S100000x4x3 (W4 m ρ c (Proc.devRef .tc main_v21_1)) shapeCasts_S100000x12_S100000x4x3) shapeCasts_S100000x4x3_S400000x3
      = Cert.ReferenceIdeal.Read.val_main_v28 (F := Ideal) (x m c) (pos m c) (edgeAttr m c) (wConv m c) (vConv m c) (wSelf m c) (wBloom m c) (edgeIndex m c) := by
  rw [show W4 m ρ c (Proc.devRef .tc main_v21_1) = (dat1 (F := Ideal) (V3 m ρ) c).arrAt 6 cfg1.N from W4_arr m ρ c 6]
  refine (BloomPositions.bloom_positions (V3 m ρ) c).trans ?_
  show shapeCast Cert.ReferenceIdeal.S400000x3
      (addf (F := Ideal) (broadcastInDim Cert.ReferenceIdeal.S100000x4x3 ![0, 1, 2] Cert.ReferenceIdeal.Gen.bcast_S100000x1x3_S100000x4x3_0_1_2
              (broadcastInDim Cert.ReferenceIdeal.S100000x1x3 ![0, 2] Cert.ReferenceIdeal.Gen.bcast_S100000x3_S100000x1x3_0_2 (W3 m ρ c (Proc.devRef .tc main_arg1))))
            (mulf (F := Ideal) (shapeCast Cert.ReferenceIdeal.S100000x4x3
                    (Host.dotGeneral (F := Ideal) (φ₁ := .f32) (φ₂ := .bf16) Cert.ReferenceIdeal.dot_S100000x16_S16x12_S100000x12_1_0_0_1_n_n none
                      (extractStridedSlice Cert.ReferenceIdeal.S100000x16 ![0, 0]
                        (addf (F := Ideal) (W3 m ρ c (Proc.devRef .tc main_v18))
                          (Host.dotGeneral (F := Ideal) (φ₁ := .bf16) (φ₂ := .bf16) Cert.ReferenceIdeal.dot_S100000x128_S128x144_S100000x144_1_0_0_1_n_n none
                            (W3 m ρ c (Proc.devRef .tc main_v4)) (W3 m ρ c (Proc.devRef .tc main_v19))))
                        Cert.ReferenceIdeal.Gen.slices_S100000x144_S100000x16_0_0) (W3 m ρ c (Proc.devRef .tc main_v20)))
                    Cert.ReferenceIdeal.Gen.shapeCasts_S100000x12_S100000x4x3)
                  (broadcastInDim Cert.ReferenceIdeal.S100000x4x3 ![] Cert.ReferenceIdeal.Gen.bcast_S_S100000x4x3 (constant (F := Ideal) Cert.ReferenceIdeal.S_ .f32 0x3DCCCCCD#32))))
      Cert.ReferenceIdeal.Gen.shapeCasts_S100000x4x3_S400000x3 = _
  rw [entry1_pos, entry1_agg, entry1_x, entry1_wself, entry1_wbloom]
  rfl
/-- The positions are an input window of the second region: it leaves them as it found them. -/
theorem exit1_pos : W4 m ρ c (Proc.devRef .tc main_arg1) = pos m c :=
  (W4_arr m ρ c 2).trans (((dat1 (V3 m ρ) c).arrAt_in 2 rfl _).trans ((A_eq1 (V3 m ρ) c 2).trans (entry1_pos m ρ c)))
theorem exit1_cluster : W4 m ρ c (Proc.devRef .tc main_arg11) = clusterId m c :=
  at4 m ρ c main_arg11 (by not_written) (by decide) (by not_written) (by decide)
theorem exit1_wg : W4 m ρ c (Proc.devRef .tc main_arg7) = wGather m c :=
  at4 m ρ c main_arg7 (by not_written) (by decide) (by not_written) (by decide)
theorem exit1_vg : W4 m ρ c (Proc.devRef .tc main_arg8) = vGather m c :=
  at4 m ρ c main_arg8 (by not_written) (by decide) (by not_written) (by decide)

/-! ## The third region's entry -/

/-- The cluster centres are the reference's: the children's positions summed per cluster over the count. -/
theorem entry2_newpos : W5 m ρ c (Proc.devRef .tc main_v35)
    = Cert.ReferenceIdeal.Read.val_main_v43 (F := Ideal) (x m c) (pos m c) (edgeAttr m c) (wConv m c) (vConv m c) (wSelf m c) (wBloom m c) (edgeIndex m c) (clusterId m c) := by
  show StableHlo.after hostOps2 (W4 m ρ c) (Proc.devRef .tc main_v35) = _
  after_results
  dsimp only
  erw [exit1_bloom]
  rw [exit1_cluster]
  rfl
/-- Each node's features once per child are the reference's gather at the parent list. -/
theorem entry2_rows : W5 m ρ c (Proc.devRef .tc main_v48)
    = Cert.ReferenceIdeal.Read.val_main_v65 (F := Ideal) (x m c) (edgeAttr m c) (wConv m c) (vConv m c) (wSelf m c) (edgeIndex m c) := by
  show StableHlo.after hostOps2 (W4 m ρ c) (Proc.devRef .tc main_v48) = _
  after_results
  dsimp only
  rw [exit1_h]
  show shapeCast S400000x128 (broadcastInDim S100000x4x128 ![0, 2] bcast_S100000x128_S100000x4x128_0_2
      (Cert.ReferenceIdeal.Read.val_main_v20 (F := Ideal) (x m c) (edgeAttr m c) (wConv m c) (vConv m c) (wSelf m c) (edgeIndex m c)))
      shapeCasts_S100000x4x128_S400000x128 = _
  exact (Cert.RepeatRows.features_repeat _).symm
set_option maxHeartbeats 1600000 in
/-- Each child's position relative to its cluster centre is the reference's. -/
theorem entry2_attr : W5 m ρ c (Proc.devRef .tc main_v49)
    = Cert.ReferenceIdeal.Read.val_main_v58 (F := Ideal) (x m c) (pos m c) (edgeAttr m c) (wConv m c) (vConv m c) (wSelf m c) (wBloom m c) (edgeIndex m c) (clusterId m c) := by
  show StableHlo.after hostOps2 (W4 m ρ c) (Proc.devRef .tc main_v49) = _
  after_results_simp
  erw [exit1_bloom]
  rw [exit1_cluster, exit1_pos]
  erw [← Cert.RepeatRows.positions_repeat (pos m c)]
  rfl
theorem entry2_w : W5 m ρ c (Proc.devRef .tc main_v50) = wGather m c := by
  show StableHlo.after hostOps2 (W4 m ρ c) (Proc.devRef .tc main_v50) = _
  after_results
  rw [exit1_wg]
  rfl
theorem entry2_v : W5 m ρ c (Proc.devRef .tc main_v51) = vGather m c := by
  show StableHlo.after hostOps2 (W4 m ρ c) (Proc.devRef .tc main_v51) = _
  after_results
  rw [exit1_vg]
  rfl

/-! ## The third region's exit -/

/-- The gather messages are the reference's. -/
theorem exit2_msg : W6 m ρ c (Proc.devRef .tc main_v52)
    = Cert.ReferenceIdeal.Read.val_main_v68 (F := Ideal) (x m c) (pos m c) (edgeAttr m c) (wConv m c) (vConv m c) (wSelf m c) (wBloom m c) (wGather m c) (vGather m c) (edgeIndex m c) (clusterId m c) := by
  refine (W6_arr m ρ c 4).trans ((GatherMessage.gather_message (V5 m ρ) c).trans ?_)
  show mulf (F := Ideal)
      (Host.dotGeneral (F := Ideal) (φ₁ := .bf16) (φ₂ := .bf16) Cert.ReferenceIdeal.dot_S400000x128_S128x128_S400000x128_1_0_0_1_n_n none
        (W5 m ρ c (Proc.devRef .tc main_v48)) (W5 m ρ c (Proc.devRef .tc main_v50)))
      (Host.dotGeneral (F := Ideal) (φ₁ := .bf16) (φ₂ := .bf16) Cert.ReferenceIdeal.dot_S400000x3_S3x128_S400000x128_1_0_0_1_n_n none
        (W5 m ρ c (Proc.devRef .tc main_v49)) (W5 m ρ c (Proc.devRef .tc main_v51))) = _
  rw [entry2_rows, entry2_w, entry2_attr, entry2_v]
  rfl
theorem exit2_newpos : W6 m ρ c (Proc.devRef .tc main_v35)
    = Cert.ReferenceIdeal.Read.val_main_v43 (F := Ideal) (x m c) (pos m c) (edgeAttr m c) (wConv m c) (vConv m c) (wSelf m c) (wBloom m c) (edgeIndex m c) (clusterId m c) :=
  (W6_of_ne m ρ c main_v35 (by decide)).trans (entry2_newpos m ρ c)
theorem exit2_cluster : W6 m ρ c (Proc.devRef .tc main_arg11) = clusterId m c :=
  at6 m ρ c main_arg11 (by not_written) (by decide) (by not_written) (by decide) (by not_written) (by decide)
theorem exit2_batch : W6 m ρ c (Proc.devRef .tc main_arg10) = batch m c :=
  at6 m ρ c main_arg10 (by not_written) (by decide) (by not_written) (by decide) (by not_written) (by decide)
theorem exit2_edges : W6 m ρ c (Proc.devRef .tc main_arg12) = newEdgeIndex m c :=
  at6 m ρ c main_arg12 (by not_written) (by decide) (by not_written) (by decide) (by not_written) (by decide)

/-! ## The last boundary: the four results -/

/-- The new cluster features. -/
theorem result_features : W7 m ρ c (Proc.devRef .tc main_v55)
    = Cert.ReferenceIdeal.Read.val_main_v71 (F := Ideal) (x m c) (pos m c) (edgeAttr m c) (wConv m c) (vConv m c) (wSelf m c) (wBloom m c) (wGather m c) (vGather m c) (edgeIndex m c) (clusterId m c) := by
  show StableHlo.after hostOps3 (W6 m ρ c) (Proc.devRef .tc main_v55) = _
  after_results
  rw [exit2_msg, exit2_cluster]
  rfl
/-- The cluster centres. -/
theorem result_centres : W7 m ρ c (Proc.devRef .tc main_v35)
    = Cert.ReferenceIdeal.Read.val_main_v43 (F := Ideal) (x m c) (pos m c) (edgeAttr m c) (wConv m c) (vConv m c) (wSelf m c) (wBloom m c) (edgeIndex m c) (clusterId m c) :=
  (StableHlo.after_of_forall_not_mem _ _ (by not_written)).trans (exit2_newpos m ρ c)
set_option maxHeartbeats 1600000 in
/-- The new edge attributes: differences of cluster centres. -/
theorem result_edges : W7 m ρ c (Proc.devRef .tc main_v74)
    = Cert.ReferenceIdeal.Read.val_main_v90 (F := Ideal) (x m c) (pos m c) (edgeAttr m c) (wConv m c) (vConv m c) (wSelf m c) (wBloom m c) (edgeIndex m c) (clusterId m c) (newEdgeIndex m c) := by
  show StableHlo.after hostOps3 (W6 m ρ c) (Proc.devRef .tc main_v74) = _
  after_results_simp
  rw [exit2_newpos, exit2_edges]
  rfl
/-- The batch of each cluster: the largest batch among its children, each child carrying its parent's. -/
theorem result_batch : W7 m ρ c (Proc.devRef .tc main_v79)
    = Cert.ReferenceIdeal.Read.val_main_v100 (F := Ideal) (batch m c) (clusterId m c) := by
  show StableHlo.after hostOps3 (W6 m ρ c) (Proc.devRef .tc main_v79) = _
  after_results
  dsimp only
  rw [exit2_batch, exit2_cluster]
  erw [← Cert.RepeatRows.batch_repeat (batch m c)]
  rfl

end Cert.KernelIdeal.Stages

end
-- ==== Proof.lean ====
/-
  The kernel (three pallas_calls: edge messages, the node update with its bloom offsets, gather messages,
  around jax's own gathers and segment sums) against its jnp reference, over the extended reals.
  Both programs apply the same host operations in the same order; they differ in three ways, none of which
  changes a value on the extended reals: the kernel rounds matmul operands to a shorter float format (the
  identity there); it computes each (rows · W) · (attributes · V) block by block over the rows (a row of a
  product depends on that row of the left factor alone); and it repeats a table's rows four times where the
  reference gathers at the parent list 0,0,0,0,1,1,1,1,… (the same rows). So every buffer of the kernel's
  run is, boundary by boundary, the reference's own stage of the arguments, and the four results agree. No
  law of arithmetic is used beyond re-indexing, so the finiteness of the inputs is never opened.
  The two frames of the kernel's programs are the generated ones; the reference's frame is its generated run
  with the results dropped; the idealization rewrote nothing, so `preserves` is trivial.
-/
import proofs.«428030_j58119497450175_2_alg».proof.Defs
import proofs.«428030_j58119497450175_2_alg».proof.Proof.Gen.Kernel
import proofs.«428030_j58119497450175_2_alg».proof.Proof.Gen.Kernel.Frame
import proofs.«428030_j58119497450175_2_alg».proof.Proof.Gen.KernelIdeal
import proofs.«428030_j58119497450175_2_alg».proof.Proof.Gen.KernelIdeal.Frame
import proofs.«428030_j58119497450175_2_alg».proof.Proof.Gen.ReferenceIdeal
import proofs.«428030_j58119497450175_2_alg».proof.Proof.Gen.ReferenceIdeal.Run
import proofs.«428030_j58119497450175_2_alg».proof.Proof.Gen.ReferenceIdeal.Read
import proofs.«428030_j58119497450175_2_alg».proof.Proof.Gen.Pre_finite_inputs
import proofs.«428030_j58119497450175_2_alg».proof.Proof.KernelRun
import proofs.«428030_j58119497450175_2_alg».proof.Proof.KernelStages
import Idealize.ShloMosaic.Adequacy
import Idealize.ShloMosaic.Init

noncomputable section

namespace Cert.Proof

open Idealize.ShloMosaic Idealize.SL.Sem

/-- The kernel's program at the bit level runs and leaves its arguments as launched. -/
theorem frame_kernel : Cert.frame_Kernel := fun m ρ _ => Cert.Kernel.Gen.frame m ρ

/-- So does the kernel's program read at the extended reals. -/
theorem frame_kernel_ideal : Cert.frame_KernelIdeal := fun m ρ _ => Cert.KernelIdeal.Gen.frame m ρ

/-- The reference runs and leaves its arguments as launched: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

open Cert.KernelIdeal.Stages in
/-- From memories that agree on the arguments both programs end with the reference's four stages of the
    arguments: the kernel's last boundary holds them, and the reference's run is stated at them. -/
theorem algebraic : Cert.algebraic_KernelIdeal_ReferenceIdeal := by
  intro m ρ m' ρ' _ hagree
  refine ⟨fun c => Cert.ReferenceIdeal.Read.val_main_v71 (F := Ideal) (x m c) (pos m c) (edgeAttr m c) (wConv m c) (vConv m c) (wSelf m c) (wBloom m c) (wGather m c) (vGather m c) (edgeIndex m c) (clusterId m c),
    fun c => Cert.ReferenceIdeal.Read.val_main_v43 (F := Ideal) (x m c) (pos m c) (edgeAttr m c) (wConv m c) (vConv m c) (wSelf m c) (wBloom m c) (edgeIndex m c) (clusterId m c),
    fun c => Cert.ReferenceIdeal.Read.val_main_v90 (F := Ideal) (x m c) (pos m c) (edgeAttr m c) (wConv m c) (vConv m c) (wSelf m c) (wBloom m c) (edgeIndex m c) (clusterId m c) (newEdgeIndex m c),
    fun c => Cert.ReferenceIdeal.Read.val_main_v100 (F := Ideal) (batch m c) (clusterId m c), ?_, ?_⟩
  · refine (θ_run Cert.KernelIdeal.defs _ _).mono (fun r h c => ?_) (Cert.KernelIdeal.Results.run_results (F := Ideal) m ρ)
    obtain ⟨h0, h1, h2, h3, hargs⟩ := h c
    exact ⟨h0.trans (result_features m ρ c), h1.trans (result_centres m ρ c), h2.trans (result_edges m ρ c),
      h3.trans (result_batch m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10, e11, e12⟩ := hagree c
    refine ⟨?_, ?_, ?_, ?_, hargs⟩
    · rw [h0, Cert.ReferenceIdeal.Read.val_main_v71_eq, e0, e1, e2, e3, e4, e5, e6, e7, e8, e9, e11]
    · rw [h1, Cert.ReferenceIdeal.Read.val_main_v43_eq, e0, e1, e2, e3, e4, e5, e6, e9, e11]
    · rw [h2, Cert.ReferenceIdeal.Read.val_main_v90_eq, e0, e1, e2, e3, e4, e5, e6, e9, e11, e12]
    · rw [h3, Cert.ReferenceIdeal.Read.val_main_v100_eq, e10, e11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
